-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S512x1 : Shape := ⟨2, ![512, 1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S4096x512 .f32) (main_arg1 : IVec S4096x4096 32) (main_arg2 : FVec F S512x256 .f32) (main_arg3 : FVec F S512x1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S4096x512 : Shape := ⟨2, ![4096, 512]⟩
abbrev S4096x4096 : Shape := ⟨2, ![4096, 4096]⟩
abbrev S512x256 : Shape := ⟨2, ![512, 256]⟩
abbrev S512x1 : Shape := ⟨2, ![512, 1]⟩
abbrev S256x1 : Shape := ⟨2, ![256, 1]⟩
abbrev S4096x256 : Shape := ⟨2, ![4096, 256]⟩
abbrev S4096x1 : Shape := ⟨2, ![4096, 1]⟩
abbrev S1x4096 : Shape := ⟨2, ![1, 4096]⟩
abbrev S2048x512 : Shape := ⟨2, ![2048, 512]⟩
abbrev S2048x256 : Shape := ⟨2, ![2048, 256]⟩
abbrev S2048x1 : Shape := ⟨2, ![2048, 1]⟩
abbrev S1x2048 : Shape := ⟨2, ![1, 2048]⟩
abbrev S1024x512 : Shape := ⟨2, ![1024, 512]⟩
abbrev S1024x1 : Shape := ⟨2, ![1024, 1]⟩
abbrev S1x512 : Shape := ⟨2, ![1, 512]⟩
abbrev S1024x256 : Shape := ⟨2, ![1024, 256]⟩
abbrev S1024 : Shape := ⟨1, ![1024]⟩

abbrev nBuf : Space → Nat
  | .hbm => 10
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x256, .f32⟩
  | .hbm, ⟨3, _⟩ => ⟨S512x1, .f32⟩
  | .hbm, ⟨4, _⟩ => ⟨S256x1, .f32⟩
  | .hbm, ⟨5, _⟩ => ⟨S256x1, .f32⟩
  | .hbm, ⟨6, _⟩ => ⟨S4096x256, .bf16⟩
  | .hbm, ⟨7, _⟩ => ⟨S4096x1, .f32⟩
  | .hbm, ⟨8, _⟩ => ⟨S1x4096, .f32⟩
  | .hbm, ⟨9, _⟩ => ⟨S4096x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S256x1, .f32⟩
  | .local _ .vmem, ⟨4, _⟩ => ⟨S256x1, .f32⟩
  | .local _ .vmem, ⟨5, _⟩ => ⟨S2048x256, .bf16⟩
  | .local _ .vmem, ⟨6, _⟩ => ⟨S2048x256, .bf16⟩
  | .local _ .vmem, ⟨7, _⟩ => ⟨S2048x1, .f32⟩
  | .local _ .vmem, ⟨8, _⟩ => ⟨S2048x1, .f32⟩
  | .local _ .vmem, ⟨9, _⟩ => ⟨S1x2048, .f32⟩
  | .local _ .vmem, ⟨10, _⟩ => ⟨S1x2048, .f32⟩
  | .local _ .vmem, ⟨11, _⟩ => ⟨S512x256, .bf16⟩
  | .local _ .vmem, ⟨12, _⟩ => ⟨S512x256, .bf16⟩
  | .local _ .vmem, ⟨13, _⟩ => ⟨S1024x512, .i32⟩
  | .local _ .vmem, ⟨14, _⟩ => ⟨S1024x512, .i32⟩
  | .local _ .vmem, ⟨15, _⟩ => ⟨S1024x1, .f32⟩
  | .local _ .vmem, ⟨16, _⟩ => ⟨S1024x1, .f32⟩
  | .local _ .vmem, ⟨17, _⟩ => ⟨S1x512, .f32⟩
  | .local _ .vmem, ⟨18, _⟩ => ⟨S1x512, .f32⟩
  | .local _ .vmem, ⟨19, _⟩ => ⟨S1024x256, .f32⟩
  | .local _ .vmem, ⟨20, _⟩ => ⟨S1024x256, .f32⟩
  | .local _ .vmem, ⟨21, _⟩ => ⟨S1024x1, .f32⟩
  | .local _ .vmem, ⟨22, _⟩ => ⟨S1024x1, .f32⟩
  | .local _ .vmem, ⟨23, _⟩ => ⟨S1024x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_28 : BitVec 32 := 0#32
  let v54 : BitVec 1 := Scalar.cmpi .ne v53 c0_i32_28
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S512x1_S256x1_0_0 : S512x1.Slices ![0, 0] S256x1
  slices_S512x1_S256x1_256_0 : S512x1.Slices ![256, 0] S256x1
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2048x1_S2048x1_0_0 : ∀ a, (![0, 0] : Fin 2 → Nat) a + S2048x1.size a ≤ S2048x1.size a
  h_S2048x1 : 0 < S2048x1.numel
  inb_S1x2048_S1x2048_0_0 : ∀ a, (![0, 0] : Fin 2 → Nat) a + S1x2048.size a ≤ S1x2048.size a
  h_S1x2048 : 0 < S1x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x256 : S1024x1.Broadcasts S1024x256
  dot_S2048x512_S512x256_S2048x256_1_0_0_1_n_n_wf : DotDims.WF S2048x512 S512x256 S2048x256 [1] [0] [0] [1] [] []
  dot_S2048x256_S256x1_S2048x1_1_0_0_1_n_n_wf : DotDims.WF S2048x256 S256x1 S2048x1 [1] [0] [0] [1] [] []
  dot_S256x1_S2048x256_S1x2048_0_1_1_0_n_n_wf : DotDims.WF S256x1 S2048x256 S1x2048 [0] [1] [1] [0] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S4096x256.size a
  hwx0_4 : ∀ i : grid0.Coords, EltTy.bits .bf16 = 32 ∨ (Rect.block (s := S4096x256) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x4096.size a
  hwx0_6 : ∀ i : grid0.Coords, EltTy.bits .f32 = 32 ∨ (Rect.block (s := S1x4096) S1x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .bf16 = 32 ∨ (Rect.block (s := S4096x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .i32 = 32 ∨ (Rect.block (s := S4096x4096) S1024x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S4096x256.size a
  hwx1_4 : ∀ i : grid1.Coords, EltTy.bits .f32 = 32 ∨ (Rect.block (s := S4096x256) S1024x256.size (cc1_transform_4 i) (hinb1_4 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S256x1_S2048x256_S1x2048_0_1_1_0_n_n : DotDims S256x1 S2048x256 S1x2048 where
  lhsContracting := [0]
  rhsContracting := [1]
  lhsNonContracting := [1]
  rhsNonContracting := [0]
  lhsBatch := []
  rhsBatch := []
  wf := dot_S256x1_S2048x256_S1x2048_0_1_1_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S512x1 : Shape := ⟨2, ![512, 1]⟩
abbrev S4096x256 : Shape := ⟨2, ![4096, 256]⟩
abbrev S256x1 : Shape := ⟨2, ![256, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x256, .f32⟩
  | .hbm, ⟨3, _⟩ => ⟨S512x1, .f32⟩
  | .hbm, ⟨4, _⟩ => ⟨S4096x256, .f32⟩
  | .hbm, ⟨5, _⟩ => ⟨S256x1, .f32⟩
  | .hbm, ⟨6, _⟩ => ⟨S256x1, .f32⟩
  | .hbm, ⟨7, _⟩ => ⟨S4096x1, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .i1⟩
  | .hbm, ⟨59, _⟩ => ⟨S_, .f32⟩
  | .hbm, ⟨60, _⟩ => ⟨S4096x256, .f32⟩
  | .hbm, ⟨61, _⟩ => ⟨S4096x256, .i1⟩
  | .hbm, ⟨62, _⟩ => ⟨S_, .f32⟩
  | .hbm, ⟨63, _⟩ => ⟨S_, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_cst_0 : Ref sig .tc := ⟨.hbm, 59, rfl⟩
abbrev main_call2_v2 : Ref sig .tc := ⟨.hbm, 60, rfl⟩
abbrev main_call2_v3 : Ref sig .tc := ⟨.hbm, 61, rfl⟩
abbrev main_call2_cst_1 : Ref sig .tc := ⟨.hbm, 62, rfl⟩
abbrev main_call2_call0_v0 : Ref sig .tc := ⟨.hbm, 63, rfl⟩
abbrev main_call2_call0_v1 : Ref sig .tc := ⟨.hbm, 64, rfl⟩
abbrev main_call2_v4 : Ref sig .tc := ⟨.hbm, 65, rfl⟩
abbrev main_call2_v5 : Ref sig .tc := ⟨.hbm, 66, rfl⟩
abbrev main_call2_cst_2 : Ref sig .tc := ⟨.hbm, 67, rfl⟩
abbrev main_call2_v6 : Ref sig .tc := ⟨.hbm, 68, rfl⟩
abbrev main_call2_v7 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x256 : S_.BroadcastsInDim S4096x256 (![] : Fin 0 → Fin S4096x256.rank)
  dot_S4096x512_S512x256_S4096x256_1_0_0_1_n_n_wf : DotDims.WF S4096x512 S512x256 S4096x256 [1] [0] [0] [1] [] []
  dot_S4096x256_S256x1_S4096x1_1_0_0_1_n_n_wf : DotDims.WF S4096x256 S256x1 S4096x1 [1] [0] [0] [1] [] []
  dot_S4096x4096_S4096x4096_S4096x4096_1_0_0_1_n_n_wf : DotDims.WF S4096x4096 S4096x4096 S4096x4096 [1] [0] [0] [1] [] []
  dot_S4096x4096_S4096x256_S4096x256_1_0_0_1_n_n_wf : DotDims.WF S4096x4096 S4096x256 S4096x256 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.Body0.lean ====
/- The body of region 0 (the first kernel call of the program, the linear kernel: a grid of 2 points, four
   input windows and three output windows), at a PARAMETER `V` — the TensorCore's buffer contents when the region is
   entered. Each window's block at a point; what the body leaves in each output window's buffer, as the
   canonical contents of its one whole store over the payload of the input blocks; the body's triple; the
   pipeline's proof data; the body obligation at every point. Then the value side: each output's buffer is
   the payload of the input blocks themselves (the rectangles are whole, at offset zero). Generic in `F`. -/
import proofs.«413735_j62706522522384_4_alg».proof.Proof.Gen.Kernel.Launch
import proofs.«413735_j62706522522384_4_alg».proof.Proof.Gen.Kernel.Skeleton
import proofs.«413735_j62706522522384_4_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched point's block index has
    not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched point's block index has
    not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched point's block index has
    not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched point's block index has
    not moved, so the block kept from the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole rectangle at offset zero -/

abbrev rA : Rect S2048x512 := Rect.unit (s := S2048x512) ![0, 0] S2048x512.size inb_S2048x512_S2048x512_0_0
abbrev rB : Rect S512x256 := Rect.unit (s := S512x256) ![0, 0] S512x256.size inb_S512x256_S512x256_0_0
abbrev rC : Rect S256x1 := Rect.unit (s := S256x1) ![0, 0] S256x1.size inb_S256x1_S256x1_0_0
abbrev rO4 : Rect S2048x256 := Rect.unit (s := S2048x256) ![0, 0] S2048x256.size inb_S2048x256_S2048x256_0_0
abbrev rO5 : Rect S2048x1 := Rect.unit (s := S2048x1) ![0, 0] S2048x1.size inb_S2048x1_S2048x1_0_0
abbrev rO6 : Rect S1x2048 := Rect.unit (s := S1x2048) ![0, 0] S1x2048.size inb_S1x2048_S1x2048_0_0

/-! ## What the body leaves in each output window's buffer -/

/-- Window 4's staging buffer after the body: its one store, over the payload of the loaded input blocks. -/
def out0_4 (x0 : Vec F S2048x512 .f32) (x1 : Vec F S512x256 .f32) : Vec F S2048x256 .bf16 :=
  View.canon [⟨rO4, k0_pay2 (View.ld x0 rA) (View.ld x1 rB)⟩]

/-- Window 5's staging buffer after the body. -/
def out0_5 (x0 : Vec F S2048x512 .f32) (x1 : Vec F S512x256 .f32) (x2 : Vec F S256x1 .f32) : Vec F S2048x1 .f32 :=
  View.canon [⟨rO5, k0_pay3 (View.ld x0 rA) (View.ld x1 rB) (View.ld x2 rC)⟩]

/-- Window 6's staging buffer after the body. -/
def out0_6 (x0 : Vec F S2048x512 .f32) (x1 : Vec F S512x256 .f32) (x3 : Vec F S256x1 .f32) : Vec F S1x2048 .f32 :=
  View.canon [⟨rO6, k0_pay4 (View.ld x0 rA) (View.ld x1 rB) (View.ld x3 rC)⟩]

/-- Each output's one store tiles its buffer, so it covers it. -/
theorem cover0_4 (p0 : Vec F S2048x256 .bf16) (y : S2048x256.Idx) :
    ∃ pc ∈ ([⟨rO4, p0⟩] : List (View.Piece (Elt F) S2048x256 .bf16)), y ∈ pc.1.set :=
  View.cover_of_tiled [⟨rO4, p0⟩] S2048x256.size (by rfl) y
theorem cover0_5 (p0 : Vec F S2048x1 .f32) (y : S2048x1.Idx) :
    ∃ pc ∈ ([⟨rO5, p0⟩] : List (View.Piece (Elt F) S2048x1 .f32)), y ∈ pc.1.set :=
  View.cover_of_tiled [⟨rO5, p0⟩] S2048x1.size (by rfl) y
theorem cover0_6 (p0 : Vec F S1x2048 .f32) (y : S1x2048.Idx) :
    ∃ pc ∈ ([⟨rO6, p0⟩] : List (View.Piece (Elt F) S1x2048 .f32)), y ∈ pc.1.set :=
  View.cover_of_tiled [⟨rO6, p0⟩] S1x2048.size (by rfl) y

/-! ## The body's triple -/

set_option maxHeartbeats 1000000 in
/-- The kernel body on whole staging memrefs, the inputs' at read contents `xW` and the outputs' at anything,
    runs to the continuation holding the inputs' as they were and each output's at `out0_W` of the inputs'. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S2048x256 .bf16) (harg5 : arg5.IsWhole) (arg6 : Memref sig .tc .vmem S2048x1 .f32) (harg6 : arg6.IsWhole)
    (arg7 : Memref sig .tc .vmem S1x2048 .f32) (harg7 : arg7.IsWhole)
    (x0 : Vec F S2048x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__linear_kernel i arg1 harg1 arg2 harg2 arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at point
    `t` each input's buffer at its block and each output's at `out0_W` of the input blocks; the invariant the
    scoped rest and the pseudo-random register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The value side: each output's buffer is the payload of the input blocks -/

/-- The offset of every access is zero on each axis. -/
theorem off_zero : (![0, 0] : Fin 2 → Nat) = fun _ => 0 := by
  funext a; fin_cases a <;> rfl

theorem out0_4_eq (x0 : Vec F S2048x512 .f32) (x1 : Vec F S512x256 .f32) : out0_4 x0 x1 = k0_pay2 x0 x1 := by
  unfold out0_4
  rw [View.canon_unit_zero off_zero]
  simp only [View.ld_unit_zero (S := S2048x512) off_zero, View.ld_unit_zero (S := S512x256) off_zero]

theorem out0_5_eq (x0 : Vec F S2048x512 .f32) (x1 : Vec F S512x256 .f32) (x2 : Vec F S256x1 .f32) : out0_5 x0 x1 x2 = k0_pay3 x0 x1 x2 := by
  unfold out0_5
  rw [View.canon_unit_zero off_zero]
  simp only [View.ld_unit_zero (S := S2048x512) off_zero, View.ld_unit_zero (S := S512x256) off_zero, View.ld_unit_zero (S := S256x1) off_zero]

theorem out0_6_eq (x0 : Vec F S2048x512 .f32) (x1 : Vec F S512x256 .f32) (x3 : Vec F S256x1 .f32) : out0_6 x0 x1 x3 = k0_pay4 x0 x1 x3 := by
  unfold out0_6
  rw [View.canon_unit_zero off_zero]
  simp only [View.ld_unit_zero (S := S2048x512) off_zero, View.ld_unit_zero (S := S512x256) off_zero, View.ld_unit_zero (S := S256x1) off_zero]

end Cert.Kernel.Hand

end
-- ==== Proof.K.Runs1.lean ====
/-
  What the proofs about the second kernel region (the attention kernel, grid 4 × 8) share: the two conditions its body
  branches on, decided over the grid — the column-tile coordinate is 0 (the running maximum, the exponentials' sum
  and the accumulator are reset) and it is 7 (the row tile's result is written out) —, where its output window is
  idle, the staging and scratch memrefs, each window's block at a grid point read off the arrays as the region
  finds them, and the region invariant with the three scratch buffers spelled out.
-/
import proofs.«413735_j62706522522384_4_alg».proof.Proof.Gen.Kernel.Launch
import proofs.«413735_j62706522522384_4_alg».proof.Proof.Gen.Kernel.Skeleton
import proofs.«413735_j62706522522384_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The column-tile coordinate is 0: the body resets its three scratch buffers. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The column-tile coordinate is 7: the body writes the row tile's result. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the last condition fails the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the output window is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x256 .f32 := (Memref.whole cc1_stg4_0 : Memref sig .tc .vmem S1024x256 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three scratch buffers: the running maximum, the exponentials' sum, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- The class's region invariant with the three scratch buffers as memrefs owned at some contents, beside the
    other pallas_call's staging buffers (at some contents each) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The other pallas_call's staging buffers, at some contents each: what rides through this region untouched. -/
def otherStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.Run1A.lean ====
/-
  The attention kernel's body run once, symbolically, in the case where the column-tile coordinate is 0 and not 7: the scratch buffers are reset, then updated; nothing is written out.
  What each buffer the body stores into ends with is found by the run itself, as the list of its stores (last first).
-/
import proofs.«413735_j62706522522384_4_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input windows' at their contents, the output window's at contents handed back untouched, the three
    scratch buffers at anything — the body runs to the continuation holding the inputs' as they were,
    each scratch buffer with its stores written. -/
noncomputable def kernelRun1_A (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Run1B.lean ====
/-
  The attention kernel's body run once, symbolically, in the case where the column-tile coordinate is neither 0 nor 7: the scratch buffers are updated from what the point before left; nothing is written out.
  What each buffer the body stores into ends with is found by the run itself, as the list of its stores (last first).
-/
import proofs.«413735_j62706522522384_4_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input windows' at their contents, the output window's at contents handed back untouched, the three
    scratch buffers at what the point before left — the body runs to the continuation holding the inputs' as they were,
    each scratch buffer with its stores written. -/
noncomputable def kernelRun1_B (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Run1C.lean ====
/-
  The attention kernel's body run once, symbolically, in the case where the column-tile coordinate is 7 (and not 0): the scratch buffers are updated, and the row tile's result is stored into the output window.
  What each buffer the body stores into ends with is found by the run itself, as the list of its stores (last first).
-/
import proofs.«413735_j62706522522384_4_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input windows' at their contents, the output window's at anything, the three
    scratch buffers at what the point before left — the body runs to the continuation holding the inputs' as they were,
    each scratch buffer with its stores written, and the output window's with its store written. -/
noncomputable def kernelRun1_C (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Body1.lean ====
/-
  The second kernel region (the attention kernel) as proof data for the pipeline library: what each of the three
  cases of the body leaves in the output window and in the three scratch buffers, what they hold after every grid
  point (by recursion on the point: a point whose column tile is 0 starts afresh, any other continues from what the
  point before left), the region invariant that carries the scratch contents from point to point, and the body
  obligation at a generic point.
-/
import proofs.«413735_j62706522522384_4_alg».proof.Proof.K.Run1A
import proofs.«413735_j62706522522384_4_alg».proof.Proof.K.Run1B
import proofs.«413735_j62706522522384_4_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window: a placeholder nothing consults (the window is idle there). -/
def out1_A_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's stores into scratch buffer 0 cover it. -/
theorem scover1_A_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch buffer 0. -/
def sout1_A_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's stores into scratch buffer 1 cover it. -/
theorem scover1_A_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch buffer 1. -/
def sout1_A_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's stores into scratch buffer 2 cover it. -/
theorem scover1_A_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) (y : S1024x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

/-- What case A leaves in scratch buffer 2. -/
def sout1_A_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- Case B stores nothing into the output window: a placeholder nothing consults (the window is idle there). -/
def out1_B_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's stores into scratch buffer 0 cover it. -/
theorem scover1_B_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch buffer 0. -/
def sout1_B_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's stores into scratch buffer 1 cover it. -/
theorem scover1_B_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch buffer 1. -/
def sout1_B_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's stores into scratch buffer 2 cover it. -/
theorem scover1_B_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What case B leaves in scratch buffer 2. -/
def sout1_B_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's store into the output window covers it. -/
theorem cover1_C_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x256.size (by sl_kernel_rfl) y

/-- What case C leaves in the output window's staging buffer. -/
def out1_C_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's stores into scratch buffer 0 cover it. -/
theorem scover1_C_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch buffer 0. -/
def sout1_C_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's stores into scratch buffer 1 cover it. -/
theorem scover1_C_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch buffer 1. -/
def sout1_C_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's stores into scratch buffer 2 cover it. -/
theorem scover1_C_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What case C leaves in scratch buffer 2. -/
def sout1_C_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## The region invariant, opened and closed -/

/-- The class's invariant hands out the other pallas_call's staging buffers, the three scratch buffers at some
    contents and the generator register. -/
theorem PhiA1_open (c : Dev nD) : (Pipeline.ΦA spec1 c : sProp 𝕄)
    ⊢ iprop(otherStg c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold otherStg
  iintro ⟨⟨B0, B1, B2, B3, B4, B5, B6, B7, B8, B9, B10, HS0, HS1, HS2⟩, Hg⟩
  isplitl [B0 B1 B2 B3 B4 B5 B6 B7 B8 B9 B10]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [HS0]; · iexact HS0
  isplitl [HS1]; · iexact HS1
  isplitl [HS2]; · iexact HS2
  iexact Hg

/-- And takes them back. -/
theorem PhiA1_close (c : Dev nD) : (iprop(otherStg c ∗ (∃ d, owns (c : Thread nD τ) scM1_0 fullShare d) ∗ (∃ d, owns (c : Thread nD τ) scM1_1 fullShare d) ∗ (∃ d, owns (c : Thread nD τ) scM1_2 fullShare d) ∗ (∃ r, prngReg c r)) : sProp 𝕄)
    ⊢ Pipeline.ΦA spec1 c := by
  rw [PhiA1_eq]; unfold otherStg
  iintro ⟨⟨B0, B1, B2, B3, B4, B5, B6, B7, B8, B9, B10⟩, HS0, HS1, HS2, Hg⟩
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [HS0]; · iexact HS0
    isplitl [HS1]; · iexact HS1
    iexact HS2
  iexact Hg

section Data
variable (V : (c : Dev nD) → (b : Ref sig .tc) → Buf (Elt F) ((c : Thread nD τ).loc b))

/-! ## What the output window and the scratch buffers hold after each point -/

/-- After the body at position `n`: the output window's staging buffer, then the three scratch buffers. A point whose
    column tile is 0 runs case A on the point's blocks alone; any other runs case B, or case C when its column tile is 7,
    on the blocks and on the scratch contents the point before left. -/
def outsAt1 (c : Dev nD) : (n : ℕ) → n < cfg1.N → Vec F S1024x256 .f32 × Vec F S1024x1 .f32 × Vec F S1024x1 .f32 × Vec F S1024x256 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scratch buffer at anything); afterwards the
    three scratch buffers at what the point before left, beside what rides through untouched. -/
def PhiS1 (c : Dev nD) : (n : ℕ) → n ≤ cfg1.N → sProp 𝕄
  | 0, _ => Pipeline.ΦA spec1 c
  | n + 1, hn => iprop(otherStg c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherStg c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS1_pos (c : Dev nD) (n : ℕ) (h : n ≤ cfg1.N) (hz : n ≠ 0) :
    PhiS1 V c n h = iprop(otherStg c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The pipeline's proof data -/

/-- The arrays as the region finds them; after the body each input's buffer at its block, the output's at `outsAt1`'s
    first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms of the two conditions say which case
    the point is in; the invariant hands the body the scratch buffers at what the point before left (at anything at
    the first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0 sout1_A_1 sout1_A_2; (try dsimp only)
    by_cases hz : t.val = 0
    ·
        rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        ihave HΦ' := (PhiA1_open c) $$ HΦ
        icases HΦ' with ⟨Hoth, HS0, HS1, HS2, Hg⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1 sout1_C_2; (try dsimp only)
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1 sout1_B_2; (try dsimp only)
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hoth, HS0, HS1, HS2, Hg⟩
  iapply (PhiA1_close c)
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 32 := N_1; omega)

end Data

end Cert.Kernel.Hand

end
-- ==== Proof.K.Run.lean ====
/-
  The launch: @main is two host slices of the last argument, then the two kernel regions. The buffer contents at
  each boundary are a fold from the launch memory — after the slices; after the first region, its three result arrays
  at what its write-backs leave; after the second region, the program's result array likewise — and every argument
  array reads back through the fold to its launch contents. Each region enters the pipeline library with its proof
  data and body obligation; the thread state between items is "every unscoped buffer at the boundary's contents, the
  generator register at some state, nothing owed". The run then gives, at any float instance, termination without a
  fault, the arguments unchanged and the result array at the second region's folded write-backs.
-/
import proofs.«413735_j62706522522384_4_alg».proof.Proof.K.Body0
import proofs.«413735_j62706522522384_4_alg».proof.Proof.K.Body1
import proofs.«413735_j62706522522384_4_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the two slices (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The slices write no argument, and what they leave -/

theorem W1_of (c : Dev nD) (r : Ref sig .tc) (h : r ∉ hostOps0_W) : W1 m c (Proc.devRef .tc r) = m ((c : Thread nD τ).loc r) :=
  (StableHlo.after_of_writes_sub hostOps0 _ hostOps0_writes h).trans rfl

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2 m) c).arrAt_in 1 rfl _).trans (A_eq1 (V2 m) c 1))
    _ = W1 m c (Proc.devRef .tc main_arg1) := W2_of_ne m c main_arg1 (by decide)
    _ = m ((c : Thread nD τ).loc main_arg1) := W1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = m ((c : Thread nD τ).loc main_arg2) := W1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant starts as the class's
    and ends, after the last point, with the scratch contents forgotten again. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The program's result array after the run: what the second region's write-backs leave. -/
abbrev kout (c : Dev nD) : Buf (Elt F) ((c : Thread nD τ).loc main_v3) := (dat1 (V2 m) c).arrAt 4 cfg1.N

/-- The run with its result named and the arguments read back. -/
theorem run_result : θ_run defs (onTc (τ := τ) (main (F := F))) ⟨m, fun _ => 0, ρ⟩ (fun r => ∀ c : Dev nD,
      r.2.mem ((c.tc : Thread nD τ).loc main_v3) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W3_arr m c 4),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The frame: termination without a fault, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Hand

end
-- ==== Proof.KI.Body0.lean ====
/- The body of region 0 (the first kernel call of the program, the linear kernel: a grid of 2 points, four
   input windows and three output windows), at a PARAMETER `V` — the TensorCore's buffer contents when the region is
   entered. Each window's block at a point; what the body leaves in each output window's buffer, as the
   canonical contents of its one whole store over the payload of the input blocks; the body's triple; the
   pipeline's proof data; the body obligation at every point. Then the value side: each output's buffer is
   the payload of the input blocks themselves (the rectangles are whole, at offset zero). Generic in `F`. -/
import proofs.«413735_j62706522522384_4_alg».proof.Proof.Gen.KernelIdeal.Launch
import proofs.«413735_j62706522522384_4_alg».proof.Proof.Gen.KernelIdeal.Skeleton
import proofs.«413735_j62706522522384_4_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched point's block index has
    not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched point's block index has
    not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched point's block index has
    not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched point's block index has
    not moved, so the block kept from the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole rectangle at offset zero -/

abbrev rA : Rect S2048x512 := Rect.unit (s := S2048x512) ![0, 0] S2048x512.size inb_S2048x512_S2048x512_0_0
abbrev rB : Rect S512x256 := Rect.unit (s := S512x256) ![0, 0] S512x256.size inb_S512x256_S512x256_0_0
abbrev rC : Rect S256x1 := Rect.unit (s := S256x1) ![0, 0] S256x1.size inb_S256x1_S256x1_0_0
abbrev rO4 : Rect S2048x256 := Rect.unit (s := S2048x256) ![0, 0] S2048x256.size inb_S2048x256_S2048x256_0_0
abbrev rO5 : Rect S2048x1 := Rect.unit (s := S2048x1) ![0, 0] S2048x1.size inb_S2048x1_S2048x1_0_0
abbrev rO6 : Rect S1x2048 := Rect.unit (s := S1x2048) ![0, 0] S1x2048.size inb_S1x2048_S1x2048_0_0

/-! ## What the body leaves in each output window's buffer -/

/-- Window 4's staging buffer after the body: its one store, over the payload of the loaded input blocks. -/
def out0_4 (x0 : Vec F S2048x512 .f32) (x1 : Vec F S512x256 .f32) : Vec F S2048x256 .bf16 :=
  View.canon [⟨rO4, k0_pay2 (View.ld x0 rA) (View.ld x1 rB)⟩]

/-- Window 5's staging buffer after the body. -/
def out0_5 (x0 : Vec F S2048x512 .f32) (x1 : Vec F S512x256 .f32) (x2 : Vec F S256x1 .f32) : Vec F S2048x1 .f32 :=
  View.canon [⟨rO5, k0_pay3 (View.ld x0 rA) (View.ld x1 rB) (View.ld x2 rC)⟩]

/-- Window 6's staging buffer after the body. -/
def out0_6 (x0 : Vec F S2048x512 .f32) (x1 : Vec F S512x256 .f32) (x3 : Vec F S256x1 .f32) : Vec F S1x2048 .f32 :=
  View.canon [⟨rO6, k0_pay4 (View.ld x0 rA) (View.ld x1 rB) (View.ld x3 rC)⟩]

/-- Each output's one store tiles its buffer, so it covers it. -/
theorem cover0_4 (p0 : Vec F S2048x256 .bf16) (y : S2048x256.Idx) :
    ∃ pc ∈ ([⟨rO4, p0⟩] : List (View.Piece (Elt F) S2048x256 .bf16)), y ∈ pc.1.set :=
  View.cover_of_tiled [⟨rO4, p0⟩] S2048x256.size (by rfl) y
theorem cover0_5 (p0 : Vec F S2048x1 .f32) (y : S2048x1.Idx) :
    ∃ pc ∈ ([⟨rO5, p0⟩] : List (View.Piece (Elt F) S2048x1 .f32)), y ∈ pc.1.set :=
  View.cover_of_tiled [⟨rO5, p0⟩] S2048x1.size (by rfl) y
theorem cover0_6 (p0 : Vec F S1x2048 .f32) (y : S1x2048.Idx) :
    ∃ pc ∈ ([⟨rO6, p0⟩] : List (View.Piece (Elt F) S1x2048 .f32)), y ∈ pc.1.set :=
  View.cover_of_tiled [⟨rO6, p0⟩] S1x2048.size (by rfl) y

/-! ## The body's triple -/

set_option maxHeartbeats 1000000 in
/-- The kernel body on whole staging memrefs, the inputs' at read contents `xW` and the outputs' at anything,
    runs to the continuation holding the inputs' as they were and each output's at `out0_W` of the inputs'. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S2048x256 .bf16) (harg5 : arg5.IsWhole) (arg6 : Memref sig .tc .vmem S2048x1 .f32) (harg6 : arg6.IsWhole)
    (arg7 : Memref sig .tc .vmem S1x2048 .f32) (harg7 : arg7.IsWhole)
    (x0 : Vec F S2048x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__linear_kernel i arg1 harg1 arg2 harg2 arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at point
    `t` each input's buffer at its block and each output's at `out0_W` of the input blocks; the invariant the
    scoped rest and the pseudo-random register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The value side: each output's buffer is the payload of the input blocks -/

/-- The offset of every access is zero on each axis. -/
theorem off_zero : (![0, 0] : Fin 2 → Nat) = fun _ => 0 := by
  funext a; fin_cases a <;> rfl

theorem out0_4_eq (x0 : Vec F S2048x512 .f32) (x1 : Vec F S512x256 .f32) : out0_4 x0 x1 = k0_pay2 x0 x1 := by
  unfold out0_4
  rw [View.canon_unit_zero off_zero]
  simp only [View.ld_unit_zero (S := S2048x512) off_zero, View.ld_unit_zero (S := S512x256) off_zero]

theorem out0_5_eq (x0 : Vec F S2048x512 .f32) (x1 : Vec F S512x256 .f32) (x2 : Vec F S256x1 .f32) : out0_5 x0 x1 x2 = k0_pay3 x0 x1 x2 := by
  unfold out0_5
  rw [View.canon_unit_zero off_zero]
  simp only [View.ld_unit_zero (S := S2048x512) off_zero, View.ld_unit_zero (S := S512x256) off_zero, View.ld_unit_zero (S := S256x1) off_zero]

theorem out0_6_eq (x0 : Vec F S2048x512 .f32) (x1 : Vec F S512x256 .f32) (x3 : Vec F S256x1 .f32) : out0_6 x0 x1 x3 = k0_pay4 x0 x1 x3 := by
  unfold out0_6
  rw [View.canon_unit_zero off_zero]
  simp only [View.ld_unit_zero (S := S2048x512) off_zero, View.ld_unit_zero (S := S512x256) off_zero, View.ld_unit_zero (S := S256x1) off_zero]

end Cert.KernelIdeal.Hand

end
-- ==== Proof.KI.Runs1.lean ====
/-
  What the proofs about the second kernel region (the attention kernel, grid 4 × 8) share: the two conditions its body
  branches on, decided over the grid — the column-tile coordinate is 0 (the running maximum, the exponentials' sum
  and the accumulator are reset) and it is 7 (the row tile's result is written out) —, where its output window is
  idle, the staging and scratch memrefs, each window's block at a grid point read off the arrays as the region
  finds them, and the region invariant with the three scratch buffers spelled out.
-/
import proofs.«413735_j62706522522384_4_alg».proof.Proof.Gen.KernelIdeal.Launch
import proofs.«413735_j62706522522384_4_alg».proof.Proof.Gen.KernelIdeal.Skeleton
import proofs.«413735_j62706522522384_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The column-tile coordinate is 0: the body resets its three scratch buffers. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The column-tile coordinate is 7: the body writes the row tile's result. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the last condition fails the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the output window is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x256 .f32 := (Memref.whole cc1_stg4_0 : Memref sig .tc .vmem S1024x256 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three scratch buffers: the running maximum, the exponentials' sum, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- The class's region invariant with the three scratch buffers as memrefs owned at some contents, beside the
    other pallas_call's staging buffers (at some contents each) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The other pallas_call's staging buffers, at some contents each: what rides through this region untouched. -/
def otherStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.Run1A.lean ====
/-
  The attention kernel's body run once, symbolically, in the case where the column-tile coordinate is 0 and not 7: the scratch buffers are reset, then updated; nothing is written out.
  What each buffer the body stores into ends with is found by the run itself, as the list of its stores (last first).
-/
import proofs.«413735_j62706522522384_4_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input windows' at their contents, the output window's at contents handed back untouched, the three
    scratch buffers at anything — the body runs to the continuation holding the inputs' as they were,
    each scratch buffer with its stores written. -/
noncomputable def kernelRun1_A (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Run1B.lean ====
/-
  The attention kernel's body run once, symbolically, in the case where the column-tile coordinate is neither 0 nor 7: the scratch buffers are updated from what the point before left; nothing is written out.
  What each buffer the body stores into ends with is found by the run itself, as the list of its stores (last first).
-/
import proofs.«413735_j62706522522384_4_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input windows' at their contents, the output window's at contents handed back untouched, the three
    scratch buffers at what the point before left — the body runs to the continuation holding the inputs' as they were,
    each scratch buffer with its stores written. -/
noncomputable def kernelRun1_B (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Run1C.lean ====
/-
  The attention kernel's body run once, symbolically, in the case where the column-tile coordinate is 7 (and not 0): the scratch buffers are updated, and the row tile's result is stored into the output window.
  What each buffer the body stores into ends with is found by the run itself, as the list of its stores (last first).
-/
import proofs.«413735_j62706522522384_4_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four input windows' at their contents, the output window's at anything, the three
    scratch buffers at what the point before left — the body runs to the continuation holding the inputs' as they were,
    each scratch buffer with its stores written, and the output window's with its store written. -/
noncomputable def kernelRun1_C (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Body1.lean ====
/-
  The second kernel region (the attention kernel) as proof data for the pipeline library: what each of the three
  cases of the body leaves in the output window and in the three scratch buffers, what they hold after every grid
  point (by recursion on the point: a point whose column tile is 0 starts afresh, any other continues from what the
  point before left), the region invariant that carries the scratch contents from point to point, and the body
  obligation at a generic point.
-/
import proofs.«413735_j62706522522384_4_alg».proof.Proof.KI.Run1A
import proofs.«413735_j62706522522384_4_alg».proof.Proof.KI.Run1B
import proofs.«413735_j62706522522384_4_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window: a placeholder nothing consults (the window is idle there). -/
def out1_A_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's stores into scratch buffer 0 cover it. -/
theorem scover1_A_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch buffer 0. -/
def sout1_A_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's stores into scratch buffer 1 cover it. -/
theorem scover1_A_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch buffer 1. -/
def sout1_A_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's stores into scratch buffer 2 cover it. -/
theorem scover1_A_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) (y : S1024x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

/-- What case A leaves in scratch buffer 2. -/
def sout1_A_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) : Vec F S1024x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- Case B stores nothing into the output window: a placeholder nothing consults (the window is idle there). -/
def out1_B_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's stores into scratch buffer 0 cover it. -/
theorem scover1_B_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch buffer 0. -/
def sout1_B_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's stores into scratch buffer 1 cover it. -/
theorem scover1_B_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch buffer 1. -/
def sout1_B_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's stores into scratch buffer 2 cover it. -/
theorem scover1_B_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What case B leaves in scratch buffer 2. -/
def sout1_B_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's store into the output window covers it. -/
theorem cover1_C_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x256.size (by sl_kernel_rfl) y

/-- What case C leaves in the output window's staging buffer. -/
def out1_C_4 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's stores into scratch buffer 0 cover it. -/
theorem scover1_C_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch buffer 0. -/
def sout1_C_0 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's stores into scratch buffer 1 cover it. -/
theorem scover1_C_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch buffer 1. -/
def sout1_C_1 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's stores into scratch buffer 2 cover it. -/
theorem scover1_C_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What case C leaves in scratch buffer 2. -/
def sout1_C_2 (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## The region invariant, opened and closed -/

/-- The class's invariant hands out the other pallas_call's staging buffers, the three scratch buffers at some
    contents and the generator register. -/
theorem PhiA1_open (c : Dev nD) : (Pipeline.ΦA spec1 c : sProp 𝕄)
    ⊢ iprop(otherStg c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold otherStg
  iintro ⟨⟨B0, B1, B2, B3, B4, B5, B6, B7, B8, B9, B10, HS0, HS1, HS2⟩, Hg⟩
  isplitl [B0 B1 B2 B3 B4 B5 B6 B7 B8 B9 B10]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [HS0]; · iexact HS0
  isplitl [HS1]; · iexact HS1
  isplitl [HS2]; · iexact HS2
  iexact Hg

/-- And takes them back. -/
theorem PhiA1_close (c : Dev nD) : (iprop(otherStg c ∗ (∃ d, owns (c : Thread nD τ) scM1_0 fullShare d) ∗ (∃ d, owns (c : Thread nD τ) scM1_1 fullShare d) ∗ (∃ d, owns (c : Thread nD τ) scM1_2 fullShare d) ∗ (∃ r, prngReg c r)) : sProp 𝕄)
    ⊢ Pipeline.ΦA spec1 c := by
  rw [PhiA1_eq]; unfold otherStg
  iintro ⟨⟨B0, B1, B2, B3, B4, B5, B6, B7, B8, B9, B10⟩, HS0, HS1, HS2, Hg⟩
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [HS0]; · iexact HS0
    isplitl [HS1]; · iexact HS1
    iexact HS2
  iexact Hg

section Data
variable (V : (c : Dev nD) → (b : Ref sig .tc) → Buf (Elt F) ((c : Thread nD τ).loc b))

/-! ## What the output window and the scratch buffers hold after each point -/

/-- After the body at position `n`: the output window's staging buffer, then the three scratch buffers. A point whose
    column tile is 0 runs case A on the point's blocks alone; any other runs case B, or case C when its column tile is 7,
    on the blocks and on the scratch contents the point before left. -/
def outsAt1 (c : Dev nD) : (n : ℕ) → n < cfg1.N → Vec F S1024x256 .f32 × Vec F S1024x1 .f32 × Vec F S1024x1 .f32 × Vec F S1024x256 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (every scratch buffer at anything); afterwards the
    three scratch buffers at what the point before left, beside what rides through untouched. -/
def PhiS1 (c : Dev nD) : (n : ℕ) → n ≤ cfg1.N → sProp 𝕄
  | 0, _ => Pipeline.ΦA spec1 c
  | n + 1, hn => iprop(otherStg c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherStg c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS1_pos (c : Dev nD) (n : ℕ) (h : n ≤ cfg1.N) (hz : n ≠ 0) :
    PhiS1 V c n h = iprop(otherStg c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The pipeline's proof data -/

/-- The arrays as the region finds them; after the body each input's buffer at its block, the output's at `outsAt1`'s
    first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms of the two conditions say which case
    the point is in; the invariant hands the body the scratch buffers at what the point before left (at anything at
    the first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0 sout1_A_1 sout1_A_2; (try dsimp only)
    by_cases hz : t.val = 0
    ·
        rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        ihave HΦ' := (PhiA1_open c) $$ HΦ
        icases HΦ' with ⟨Hoth, HS0, HS1, HS2, Hg⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1 sout1_C_2; (try dsimp only)
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1 sout1_B_2; (try dsimp only)
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth]
          · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hoth, HS0, HS1, HS2, Hg⟩
  iapply (PhiA1_close c)
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 32 := N_1; omega)

end Data

end Cert.KernelIdeal.Hand

end
-- ==== Proof.KI.Run.lean ====
/-
  The launch: @main is two host slices of the last argument, then the two kernel regions. The buffer contents at
  each boundary are a fold from the launch memory — after the slices; after the first region, its three result arrays
  at what its write-backs leave; after the second region, the program's result array likewise — and every argument
  array reads back through the fold to its launch contents. Each region enters the pipeline library with its proof
  data and body obligation; the thread state between items is "every unscoped buffer at the boundary's contents, the
  generator register at some state, nothing owed". The run then gives, at any float instance, termination without a
  fault, the arguments unchanged and the result array at the second region's folded write-backs.
-/
import proofs.«413735_j62706522522384_4_alg».proof.Proof.KI.Body0
import proofs.«413735_j62706522522384_4_alg».proof.Proof.KI.Body1
import proofs.«413735_j62706522522384_4_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the two slices (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The slices write no argument, and what they leave -/

theorem W1_of (c : Dev nD) (r : Ref sig .tc) (h : r ∉ hostOps0_W) : W1 m c (Proc.devRef .tc r) = m ((c : Thread nD τ).loc r) :=
  (StableHlo.after_of_writes_sub hostOps0 _ hostOps0_writes h).trans rfl

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2 m) c).arrAt_in 1 rfl _).trans (A_eq1 (V2 m) c 1))
    _ = W1 m c (Proc.devRef .tc main_arg1) := W2_of_ne m c main_arg1 (by decide)
    _ = m ((c : Thread nD τ).loc main_arg1) := W1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = m ((c : Thread nD τ).loc main_arg2) := W1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its invariant starts as the class's
    and ends, after the last point, with the scratch contents forgotten again. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The program's result array after the run: what the second region's write-backs leave. -/
abbrev kout (c : Dev nD) : Buf (Elt F) ((c : Thread nD τ).loc main_v3) := (dat1 (V2 m) c).arrAt 4 cfg1.N

/-- The run with its result named and the arguments read back. -/
theorem run_result : θ_run defs (onTc (τ := τ) (main (F := F))) ⟨m, fun _ => 0, ρ⟩ (fun r => ∀ c : Dev nD,
      r.2.mem ((c.tc : Thread nD τ).loc main_v3) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W3_arr m c 4),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The frame: termination without a fault, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Hand

end
-- ==== Proof.Spec.lean ====
/-
  The function both programs compute, written once, index by index, over the extended reals.

  With `h = inp · w` (a 4096×256 matrix), `s1 r = Σ_d h r d · a d` and `s2 j = Σ_d h j d · a (256 + d)`, the
  attention logit of row `r` against column `j` is `leaky (s1 r + s2 j)` where the adjacency word is positive (signed)
  and a large negative constant elsewhere; a row's weights are the softmax of its logits (shifted by the row maximum),
  the result row is the weighted sum of the rows of `h`, passed through ELU.
-/
import Idealize.ShloMosaic.PureOps.Ideal
import Idealize.ShloMosaic.Lib.ValueIdx

noncomputable section

namespace Cert.Spec

open Idealize.ShloMosaic

/-- The negative slope of the leaky rectifier (the binary value of the f32 literal nearest 0.2). -/
abbrev slope : EReal := Ideal.ofBits .f32 0x3E4CCCCD#32
/-- The finite stand-in for minus infinity that masks a missing edge (the f32 literal -999999995904). -/
abbrev negBig : EReal := Ideal.ofBits .f32 0xD368D4A5#32

/-- `h = inp · w`. -/
def H (inp : Fin 4096 → Fin 512 → EReal) (w : Fin 512 → Fin 256 → EReal) (r : Fin 4096) (d : Fin 256) : EReal :=
  ∑ k : Fin 512, inp r k * w k d

/-- The source half of the logit: row `r` of `h` against the first 256 entries of `a`. -/
def s1 (h : Fin 4096 → Fin 256 → EReal) (a : Fin 512 → EReal) (r : Fin 4096) : EReal :=
  ∑ d : Fin 256, h r d * a ⟨d.val, by omega⟩

/-- The target half of the logit: row `j` of `h` against the last 256 entries of `a`. -/
def s2 (h : Fin 4096 → Fin 256 → EReal) (a : Fin 512 → EReal) (j : Fin 4096) : EReal :=
  ∑ d : Fin 256, h j d * a ⟨256 + d.val, by omega⟩

/-- The leaky rectifier. -/
def leaky (s : EReal) : EReal := if 0 < s then s else slope * s

/-- The masked logit of row `r` against column `j`. -/
def logit (adj : Fin 4096 → Fin 4096 → BitVec 32) (h : Fin 4096 → Fin 256 → EReal) (a : Fin 512 → EReal)
    (r j : Fin 4096) : EReal :=
  if (0#32).slt (adj r j) then leaky (s1 h a r + s2 h a j) else negBig

/-- The maximum of a row of logits (over the extended reals, so the empty maximum is `⊥`). -/
def rowMax (x : Fin 4096 → EReal) : EReal := Finset.univ.sup x

/-- The shifted exponential of a logit. -/
def ex (x : Fin 4096 → EReal) (j : Fin 4096) : EReal := Ideal.exp (x j - rowMax x)

/-- The softmax weight of column `j` in a row of logits. -/
def att (x : Fin 4096 → EReal) (j : Fin 4096) : EReal := Ideal.div (ex x j) (∑ j' : Fin 4096, ex x j')

/-- The exponential linear unit. -/
def elu (y : EReal) : EReal := if 0 < y then y else Ideal.exp y - 1

/-- The result at row `r`, column `d`. -/
def G (inp : Fin 4096 → Fin 512 → EReal) (adj : Fin 4096 → Fin 4096 → BitVec 32) (w : Fin 512 → Fin 256 → EReal)
    (a : Fin 512 → EReal) (r : Fin 4096) (d : Fin 256) : EReal :=
  elu (∑ j : Fin 4096, att (logit adj (H inp w) a r) j * H inp w j d)

/-- The result ARRAY: `G` of the four argument arrays, each read by its coordinates. -/
def GA (x0 : (⟨2, ![4096, 512]⟩ : Shape).Idx → EReal) (x1 : (⟨2, ![4096, 4096]⟩ : Shape).Idx → BitVec 32)
    (x2 : (⟨2, ![512, 256]⟩ : Shape).Idx → EReal) (x3 : (⟨2, ![512, 1]⟩ : Shape).Idx → EReal) :
    (⟨2, ![4096, 256]⟩ : Shape).Idx → EReal :=
  fun i => G (fun r k => x0 (ValueIdx.ix2 r k)) (fun r j => x1 (ValueIdx.ix2 r j)) (fun k d => x2 (ValueIdx.ix2 k d))
    (fun k => x3 (ValueIdx.ix2 k (0 : Fin 1))) (i 0) (i 1)

end Cert.Spec

end
-- ==== Proof.KNames.lean ====
/-
  The four argument arrays of the idealized kernel program read by coordinates, and the two quantities every later
  statement is about: `h = inp · w` and the masked attention logits.
-/
import proofs.«413735_j62706522522384_4_alg».proof.KernelIdeal
import proofs.«413735_j62706522522384_4_alg».proof.Proof.Spec
import Idealize.ShloMosaic.Lib.ValueIdx

noncomputable section

namespace Cert.KernelIdeal.Hand

open Cert.KernelIdeal
open Idealize.ShloMosaic Idealize.ShloMosaic.TcCoe Idealize.ShloMosaic.ValueIdx

variable [Facts] (m : (ℓ : Loc nD τ sig) → Buf (Elt Ideal) ℓ) (c : Dev nD)

/-- The features, by row and column. -/
abbrev inpA : Fin 4096 → Fin 512 → EReal := fun r k => (m ((c : Thread nD τ).loc main_arg0) : S4096x512.Idx → EReal) (ix2 r k)
/-- The adjacency words. -/
abbrev adjA : Fin 4096 → Fin 4096 → BitVec 32 := fun r j => (m ((c : Thread nD τ).loc main_arg1) : S4096x4096.Idx → BitVec 32) (ix2 r j)
/-- The weights. -/
abbrev wA : Fin 512 → Fin 256 → EReal := fun k d => (m ((c : Thread nD τ).loc main_arg2) : S512x256.Idx → EReal) (ix2 k d)
/-- The attention vector. -/
abbrev aA : Fin 512 → EReal := fun k => (m ((c : Thread nD τ).loc main_arg3) : S512x1.Idx → EReal) (ix2 k (0 : Fin 1))
/-- `h = inp · w`. -/
abbrev Hm : Fin 4096 → Fin 256 → EReal := Cert.Spec.H (inpA m c) (wA m c)
/-- The masked attention logits. -/
abbrev lgA : Fin 4096 → Fin 4096 → EReal := fun r j => Cert.Spec.logit (adjA m c) (Hm m c) (aA m c) r j

/-- The specification's result array is its result function of these. -/
theorem GA_eq : Cert.Spec.GA (m ((c : Thread nD τ).loc main_arg0)) (m ((c : Thread nD τ).loc main_arg1)) (m ((c : Thread nD τ).loc main_arg2)) (m ((c : Thread nD τ).loc main_arg3))
    = fun i => Cert.Spec.G (inpA m c) (adjA m c) (wA m c) (aA m c) (i 0) (i 1) := rfl

end Cert.KernelIdeal.Hand

end
-- ==== Proof.Online.lean ====
/-
  The tiled ("online") evaluation of a softmax-weighted sum, and that it is the plain one.

  A row of 4096 logits is visited in 8 tiles of 512 columns. The running state is the maximum met so far, the sum of
  the exponentials shifted by that maximum, and the weighted sum of a column of values with the same weights; when
  the maximum grows, the two sums are rescaled by the exponential of the old maximum minus the new one. After the
  last tile the quotient of the two sums is the softmax-weighted sum of the values.
-/
import proofs.«413735_j62706522522384_4_alg».proof.Proof.Spec
import Mathlib.Analysis.SpecialFunctions.Exp
import Mathlib.Algebra.BigOperators.Fin
import Mathlib.Data.EReal.Operations

noncomputable section

namespace Cert.Online

open Idealize.ShloMosaic

/-- Column `z` of tile `k`. -/
def col (k : Fin 8) (z : Fin 512) : Fin 4096 := ⟨512 * k.val + z.val, by omega⟩

/-- The state after the first `n` tiles: the running maximum, the shifted exponentials' sum, the weighted sum of `v`. -/
def run (x : Fin 4096 → EReal) (v : Fin 4096 → EReal) : (n : ℕ) → n ≤ 8 → EReal × EReal × EReal
  | 0, _ => (⊥, 0, 0)
  | n + 1, hn =>
    let s := run x v n (Nat.le_of_succ_le hn)
    let k : Fin 8 := ⟨n, hn⟩
    let m' := max s.1 (Finset.univ.sup fun z : Fin 512 => x (col k z))
    let c := Ideal.exp (s.1 - m')
    (m', c * s.2.1 + ∑ z : Fin 512, Ideal.exp (x (col k z) - m'),
      c * s.2.2 + ∑ z : Fin 512, Ideal.exp (x (col k z) - m') * v (col k z))

theorem run_zero (x v : Fin 4096 → EReal) (h : 0 ≤ 8) : run x v 0 h = (⊥, 0, 0) := rfl

theorem run_succ (x v : Fin 4096 → EReal) (n : ℕ) (hn : n + 1 ≤ 8) :
    run x v (n + 1) hn =
      (max (run x v n (Nat.le_of_succ_le hn)).1 (Finset.univ.sup fun z : Fin 512 => x (col ⟨n, hn⟩ z)),
        Ideal.exp ((run x v n (Nat.le_of_succ_le hn)).1 - max (run x v n (Nat.le_of_succ_le hn)).1 (Finset.univ.sup fun z : Fin 512 => x (col ⟨n, hn⟩ z))) * (run x v n (Nat.le_of_succ_le hn)).2.1
          + ∑ z : Fin 512, Ideal.exp (x (col ⟨n, hn⟩ z) - max (run x v n (Nat.le_of_succ_le hn)).1 (Finset.univ.sup fun z : Fin 512 => x (col ⟨n, hn⟩ z))),
        Ideal.exp ((run x v n (Nat.le_of_succ_le hn)).1 - max (run x v n (Nat.le_of_succ_le hn)).1 (Finset.univ.sup fun z : Fin 512 => x (col ⟨n, hn⟩ z))) * (run x v n (Nat.le_of_succ_le hn)).2.2
          + ∑ z : Fin 512, Ideal.exp (x (col ⟨n, hn⟩ z) - max (run x v n (Nat.le_of_succ_le hn)).1 (Finset.univ.sup fun z : Fin 512 => x (col ⟨n, hn⟩ z))) * v (col ⟨n, hn⟩ z)) := rfl

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum of finitely many real numbers, at least one, is a real number. -/
theorem sup_real {n : ℕ} (f : Fin (n + 1) → ℝ) :
    ∃ m : ℝ, (Finset.univ.sup fun i : Fin (n + 1) => (f i : EReal)) = (m : EReal) := by
  obtain ⟨i, -, hi⟩ := Finset.exists_mem_eq_sup (Finset.univ : Finset (Fin (n + 1))) Finset.univ_nonempty
    (fun i => (f i : EReal))
  exact ⟨f i, hi⟩

/-- One tile's update of the running state. -/
def upd (s : EReal × EReal × EReal) (xs vs : Fin 512 → EReal) : EReal × EReal × EReal :=
  (max s.1 (Finset.univ.sup xs),
    Ideal.exp (s.1 - max s.1 (Finset.univ.sup xs)) * s.2.1 + ∑ z : Fin 512, Ideal.exp (xs z - max s.1 (Finset.univ.sup xs)),
    Ideal.exp (s.1 - max s.1 (Finset.univ.sup xs)) * s.2.2
      + ∑ z : Fin 512, Ideal.exp (xs z - max s.1 (Finset.univ.sup xs)) * vs z)

theorem run_succ_upd (x v : Fin 4096 → EReal) (n : ℕ) (hn : n + 1 ≤ 8) :
    run x v (n + 1) hn =
      upd (run x v n (Nat.le_of_succ_le hn)) (fun z => x (col ⟨n, hn⟩ z)) (fun z => v (col ⟨n, hn⟩ z)) :=
  run_succ x v n hn

/-- The first tile: the old maximum is ⊥, the rescaling factor is exp ⊥ = 0. -/
theorem upd_bot (ξ ν : Fin 512 → ℝ) :
    ∃ m : ℝ, upd (⊥, 0, 0) (fun z => (ξ z : EReal)) (fun z => (ν z : EReal)) =
      ((m : EReal), ((∑ z : Fin 512, Real.exp (ξ z - m) : ℝ) : EReal),
        ((∑ z : Fin 512, Real.exp (ξ z - m) * ν z : ℝ) : EReal)) := by
  obtain ⟨m, hm⟩ := sup_real ξ
  refine ⟨m, ?_⟩
  simp only [upd, hm, bot_le, max_eq_right, EReal.bot_sub, Ideal.exp_bot, zero_mul, zero_add, ← EReal.coe_sub,
    Ideal.exp_coe, ← EReal.coe_mul, ← coe_sum]

/-- A later tile: the old state is real. -/
theorem upd_real (M A B : ℝ) (ξ ν : Fin 512 → ℝ) :
    ∃ M' : ℝ, upd ((M : EReal), (A : EReal), (B : EReal)) (fun z => (ξ z : EReal)) (fun z => (ν z : EReal)) =
      ((M' : EReal), ((Real.exp (M - M') * A + ∑ z : Fin 512, Real.exp (ξ z - M') : ℝ) : EReal),
        ((Real.exp (M - M') * B + ∑ z : Fin 512, Real.exp (ξ z - M') * ν z : ℝ) : EReal)) := by
  obtain ⟨m, hm⟩ := sup_real ξ
  refine ⟨max M m, ?_⟩
  have hmax : max (M : EReal) (m : EReal) = ((max M m : ℝ) : EReal) := by
    rcases le_total M m with h | h
    · rw [max_eq_right h, max_eq_right (EReal.coe_le_coe_iff.2 h)]
    · rw [max_eq_left h, max_eq_left (EReal.coe_le_coe_iff.2 h)]
  simp only [upd, hm, hmax, ← EReal.coe_sub, Ideal.exp_coe, ← EReal.coe_mul, ← coe_sum, ← EReal.coe_add]

/-- The tiles before tile number n. -/
def T (n : ℕ) : Finset (Fin 8) := Finset.univ.filter fun k => k.val < n

theorem T_succ (n : ℕ) (hn : n + 1 ≤ 8) : T (n + 1) = insert (⟨n, hn⟩ : Fin 8) (T n) := by
  ext k
  simp only [T, Finset.mem_filter, Finset.mem_univ, true_and, Finset.mem_insert, Fin.ext_iff]
  omega

theorem not_mem_T (n : ℕ) (hn : n + 1 ≤ 8) : (⟨n, hn⟩ : Fin 8) ∉ T n := by
  simp [T]

theorem T_zero : T 0 = ∅ := by
  ext k; simp [T]

theorem T_eight : T 8 = Finset.univ := by
  ext k
  simp only [T, Finset.mem_filter, Finset.mem_univ, true_and, iff_true]
  exact k.isLt

/-- The state after n + 1 tiles of real logits and values. -/
theorem run_inv (ξ ν : Fin 4096 → ℝ) : ∀ (n : ℕ) (hn : n + 1 ≤ 8), ∃ M : ℝ,
    run (fun j => (ξ j : EReal)) (fun j => (ν j : EReal)) (n + 1) hn =
      ((M : EReal), ((∑ k ∈ T (n + 1), ∑ z : Fin 512, Real.exp (ξ (col k z) - M) : ℝ) : EReal),
        ((∑ k ∈ T (n + 1), ∑ z : Fin 512, Real.exp (ξ (col k z) - M) * ν (col k z) : ℝ) : EReal)) := by
  intro n
  induction n with
  | zero =>
    intro hn
    obtain ⟨m, hm⟩ := upd_bot (fun z => ξ (col ⟨0, hn⟩ z)) (fun z => ν (col ⟨0, hn⟩ z))
    refine ⟨m, ?_⟩
    rw [run_succ_upd, run_zero, hm, T_succ 0 hn, T_zero]
    simp only [Finset.sum_insert (Finset.notMem_empty _), Finset.sum_empty, add_zero]
  | succ n ih =>
    intro hn
    obtain ⟨M, hM⟩ := ih (Nat.le_of_succ_le hn)
    obtain ⟨M', hM'⟩ := upd_real M (∑ k ∈ T (n + 1), ∑ z : Fin 512, Real.exp (ξ (col k z) - M))
      (∑ k ∈ T (n + 1), ∑ z : Fin 512, Real.exp (ξ (col k z) - M) * ν (col k z))
      (fun z => ξ (col ⟨n + 1, hn⟩ z)) (fun z => ν (col ⟨n + 1, hn⟩ z))
    refine ⟨M', ?_⟩
    rw [run_succ_upd, hM, hM', T_succ (n + 1) hn, Finset.sum_insert (not_mem_T (n + 1) hn),
      Finset.sum_insert (not_mem_T (n + 1) hn)]
    have h1 : Real.exp (M - M') * ∑ k ∈ T (n + 1), ∑ z : Fin 512, Real.exp (ξ (col k z) - M) =
        ∑ k ∈ T (n + 1), ∑ z : Fin 512, Real.exp (ξ (col k z) - M') := by
      rw [Finset.mul_sum]
      refine Finset.sum_congr rfl fun k _ => ?_
      rw [Finset.mul_sum]
      refine Finset.sum_congr rfl fun z _ => ?_
      rw [← Real.exp_add]; congr 1; ring
    have h2 : Real.exp (M - M') * ∑ k ∈ T (n + 1), ∑ z : Fin 512, Real.exp (ξ (col k z) - M) * ν (col k z) =
        ∑ k ∈ T (n + 1), ∑ z : Fin 512, Real.exp (ξ (col k z) - M') * ν (col k z) := by
      rw [Finset.mul_sum]
      refine Finset.sum_congr rfl fun k _ => ?_
      rw [Finset.mul_sum]
      refine Finset.sum_congr rfl fun z _ => ?_
      rw [← mul_assoc, ← Real.exp_add]; congr 2; ring
    rw [h1, h2, add_comm (∑ k ∈ T (n + 1), ∑ z : Fin 512, Real.exp (ξ (col k z) - M')),
      add_comm (∑ k ∈ T (n + 1), ∑ z : Fin 512, Real.exp (ξ (col k z) - M') * ν (col k z))]

/-- A sum over the 4096 columns is the sum over the 8 tiles of the sums over a tile's 512 columns. -/
theorem sum_col (f : Fin 4096 → ℝ) : ∑ k : Fin 8, ∑ z : Fin 512, f (col k z) = ∑ j : Fin 4096, f j := by
  rw [← Fintype.sum_prod_type' (fun k z => f (col k z))]
  refine Fintype.sum_bijective (fun p : Fin 8 × Fin 512 => col p.1 p.2) ⟨?_, ?_⟩ _ _ (fun _ => rfl)
  · rintro ⟨k, z⟩ ⟨k', z'⟩ h
    have h' : 512 * k.val + z.val = 512 * k'.val + z'.val := by
      simpa [col, Fin.ext_iff] using h
    have hz := z.isLt
    have hz' := z'.isLt
    refine Prod.ext (Fin.ext ?_) (Fin.ext ?_)
    · show k.val = k'.val
      omega
    · show z.val = z'.val
      omega
  · intro j
    refine ⟨(⟨j.val / 512, by have := j.isLt; omega⟩, ⟨j.val % 512, by omega⟩), Fin.ext ?_⟩
    show 512 * (j.val / 512) + j.val % 512 = j.val
    omega

/-- The quotient of the weighted sum by the plain sum does not depend on the shift. -/
theorem shift_quot (ξ ν : Fin 4096 → ℝ) (M R : ℝ) :
    (∑ j : Fin 4096, Real.exp (ξ j - M) * ν j) * (1 / ∑ j : Fin 4096, Real.exp (ξ j - M)) =
      ∑ j : Fin 4096, Real.exp (ξ j - R) * (1 / ∑ j' : Fin 4096, Real.exp (ξ j' - R)) * ν j := by
  have hpos : 0 < ∑ j : Fin 4096, Real.exp (ξ j - R) :=
    Finset.sum_pos (fun j _ => Real.exp_pos _) Finset.univ_nonempty
  have hc : 0 < Real.exp (R - M) := Real.exp_pos _
  have hS : ∑ j : Fin 4096, Real.exp (ξ j - M) = Real.exp (R - M) * ∑ j : Fin 4096, Real.exp (ξ j - R) := by
    rw [Finset.mul_sum]
    refine Finset.sum_congr rfl fun j _ => ?_
    rw [← Real.exp_add]; congr 1; ring
  have hW : ∑ j : Fin 4096, Real.exp (ξ j - M) * ν j =
      Real.exp (R - M) * ∑ j : Fin 4096, Real.exp (ξ j - R) * ν j := by
    rw [Finset.mul_sum]
    refine Finset.sum_congr rfl fun j _ => ?_
    rw [← mul_assoc, ← Real.exp_add]; congr 2; ring
  have hR : ∑ j : Fin 4096, Real.exp (ξ j - R) * (1 / ∑ j' : Fin 4096, Real.exp (ξ j' - R)) * ν j =
      (∑ j : Fin 4096, Real.exp (ξ j - R) * ν j) * (1 / ∑ j' : Fin 4096, Real.exp (ξ j' - R)) := by
    rw [Finset.sum_mul]
    refine Finset.sum_congr rfl fun j _ => ?_
    ring
  rw [hS, hW, hR]
  have h1 : (∑ j : Fin 4096, Real.exp (ξ j - R)) ≠ 0 := ne_of_gt hpos
  have h2 : Real.exp (R - M) ≠ 0 := ne_of_gt hc
  field_simp

/-- After the eighth tile the quotient of the two sums is the softmax-weighted sum of the values. -/
theorem run_final (x v : Fin 4096 → EReal) (hx : ∀ j, ∃ r : ℝ, x j = (r : EReal))
    (hv : ∀ j, ∃ r : ℝ, v j = (r : EReal)) :
    Ideal.div (run x v 8 le_rfl).2.2 (run x v 8 le_rfl).2.1 = ∑ j : Fin 4096, Spec.att x j * v j := by
  choose ξ hξ using hx
  choose ν hν using hv
  obtain rfl : x = fun j => (ξ j : EReal) := funext hξ
  obtain rfl : v = fun j => (ν j : EReal) := funext hν
  obtain ⟨M, hM⟩ := run_inv ξ ν 7 le_rfl
  obtain ⟨R, hR⟩ := sup_real ξ
  have hposM : 0 < ∑ j : Fin 4096, Real.exp (ξ j - M) :=
    Finset.sum_pos (fun j _ => Real.exp_pos _) Finset.univ_nonempty
  have hposR : 0 < ∑ j : Fin 4096, Real.exp (ξ j - R) :=
    Finset.sum_pos (fun j _ => Real.exp_pos _) Finset.univ_nonempty
  have hex : ∀ j, Spec.ex (fun j => (ξ j : EReal)) j = ((Real.exp (ξ j - R) : ℝ) : EReal) := by
    intro j
    simp only [Spec.ex, Spec.rowMax, hR, ← EReal.coe_sub, Ideal.exp_coe]
  have hatt : ∀ j, Spec.att (fun j => (ξ j : EReal)) j =
      ((Real.exp (ξ j - R) * (1 / ∑ j' : Fin 4096, Real.exp (ξ j' - R)) : ℝ) : EReal) := by
    intro j
    simp only [Spec.att, hex, ← coe_sum]
    rw [Ideal.div_coe (ne_of_gt hposR), ← EReal.coe_mul]
  have h8 : run (fun j => (ξ j : EReal)) (fun j => (ν j : EReal)) 8 le_rfl =
      ((M : EReal), ((∑ j : Fin 4096, Real.exp (ξ j - M) : ℝ) : EReal),
        ((∑ j : Fin 4096, Real.exp (ξ j - M) * ν j : ℝ) : EReal)) := by
    rw [hM, T_eight, sum_col (fun j => Real.exp (ξ j - M)), sum_col (fun j => Real.exp (ξ j - M) * ν j)]
  rw [h8]
  simp only [hatt, ← EReal.coe_mul, ← coe_sum]
  rw [Ideal.div_coe (ne_of_gt hposM), ← EReal.coe_mul, EReal.coe_eq_coe_iff]
  exact shift_quot ξ ν M R

/-- The rectifier as the kernel spells it is the exponential linear unit. -/
theorem elu_min (y : EReal) : (if 0 < y then y else Ideal.exp (min y 0) - 1) = Spec.elu y := by
  unfold Spec.elu
  split_ifs with h
  · rfl
  · rw [min_eq_left (not_lt.mp h)]

end Cert.Online

end
-- ==== Proof.Tiles.lean ====
/-
  How the attention kernel's grid tiles the 4096 × 4096 plane of logits: grid point `n = 8·q + k` (`q < 4`, `k < 8`)
  holds rows `1024·q … 1024·q + 1023` against columns `512·k … 512·k + 511`.
-/
import proofs.«413735_j62706522522384_4_alg».proof.Proof.Online

namespace Cert.Tiles

/-- Row `y` of row tile `q`. -/
def row (q : Fin 4) (y : Fin 1024) : Fin 4096 := ⟨1024 * q.val + y.val, by omega⟩

/-- The row tile of grid position `n`. -/
def qi (n : ℕ) (h : n < 32) : Fin 4 := ⟨n / 8, by omega⟩

/-- The column tile of grid position `n`. -/
def ki (n : ℕ) (h : n < 32) : Fin 8 := ⟨n % 8, Nat.mod_lt _ (by decide)⟩

theorem row_val (q : Fin 4) (y : Fin 1024) : (row q y).val = 1024 * q.val + y.val := rfl
theorem qi_val (n : ℕ) (h : n < 32) : (qi n h).val = n / 8 := rfl
theorem ki_val (n : ℕ) (h : n < 32) : (ki n h).val = n % 8 := rfl

end Cert.Tiles
-- ==== Proof.SpecReal.lean ====
/-
  The specification's quantities are real numbers when the inputs are: the product matrix, the two halves of a
  logit, the leaky rectifier of a real number, and the masked logit itself (its mask value is a real number too).
-/
import proofs.«413735_j62706522522384_4_alg».proof.Proof.Spec
import Mathlib.Data.EReal.Basic
import Mathlib.Algebra.BigOperators.Group.Finset.Basic

noncomputable section

namespace Cert.Spec

open Idealize.ShloMosaic

/-- A finite sum of products of real numbers is a real number. -/
theorem sum_mul_real {ι : Type*} (s : Finset ι) (f g : ι → EReal) (hf : ∀ i, ∃ x : ℝ, f i = (x : EReal))
    (hg : ∀ i, ∃ x : ℝ, g i = (x : EReal)) : ∃ x : ℝ, ∑ i ∈ s, f i * g i = (x : EReal) := by
  classical
  choose u hu using hf
  choose v hv using hg
  refine ⟨∑ i ∈ s, u i * v i, ?_⟩
  induction s using Finset.induction_on with
  | empty => simp
  | insert a s ha ih =>
    rw [Finset.sum_insert ha, Finset.sum_insert ha, EReal.coe_add, ← ih, hu a, hv a, EReal.coe_mul]

/-- A bit pattern whose exponent field is not all ones denotes a real number. -/
theorem ieee_real (e m : ℕ) {w : ℕ} (b : BitVec w) (h : (b.extractLsb' m e).toNat ≠ 2 ^ e - 1) :
    ∃ x : ℝ, Ideal.ieee e m b = (x : EReal) := by
  unfold Ideal.ieee
  dsimp only
  rw [if_neg h]
  split_ifs <;> exact ⟨_, rfl⟩

/-- The negative slope is a real number. -/
theorem slope_real : ∃ x : ℝ, slope = (x : EReal) := by
  show ∃ x : ℝ, Ideal.ieee 8 23 (0x3E4CCCCD#32 : BitVec 32) = (x : EReal)
  exact ieee_real 8 23 _ (by decide)

/-- The mask value is a real number. -/
theorem negBig_real : ∃ x : ℝ, negBig = (x : EReal) := by
  show ∃ x : ℝ, Ideal.ieee 8 23 (0xD368D4A5#32 : BitVec 32) = (x : EReal)
  exact ieee_real 8 23 _ (by decide)

/-- The leaky rectifier of a real number is a real number. -/
theorem leaky_real (s : ℝ) : ∃ x : ℝ, leaky (s : EReal) = (x : EReal) := by
  obtain ⟨c, hc⟩ := slope_real
  unfold leaky
  split_ifs
  · exact ⟨s, rfl⟩
  · exact ⟨c * s, by rw [hc, EReal.coe_mul]⟩

/-- The product matrix of real matrices is real. -/
theorem H_real (inp : Fin 4096 → Fin 512 → EReal) (w : Fin 512 → Fin 256 → EReal) (hi : ∀ r k, ∃ x : ℝ, inp r k = (x : EReal)) (hw : ∀ k d, ∃ x : ℝ, w k d = (x : EReal)) (r : Fin 4096) (d : Fin 256) : ∃ x : ℝ, H inp w r d = (x : EReal) :=
  sum_mul_real Finset.univ (fun k => inp r k) (fun k => w k d) (hi r) (fun k => hw k d)

/-- The source half of a logit is real. -/
theorem s1_real (h : Fin 4096 → Fin 256 → EReal) (a : Fin 512 → EReal) (hh : ∀ r d, ∃ x : ℝ, h r d = (x : EReal))
    (ha : ∀ k, ∃ x : ℝ, a k = (x : EReal)) (r : Fin 4096) : ∃ x : ℝ, s1 h a r = (x : EReal) :=
  sum_mul_real Finset.univ (fun d : Fin 256 => h r d) (fun d : Fin 256 => a ⟨d.val, by omega⟩) (hh r) (fun d => ha _)

/-- The target half of a logit is real. -/
theorem s2_real (h : Fin 4096 → Fin 256 → EReal) (a : Fin 512 → EReal) (hh : ∀ r d, ∃ x : ℝ, h r d = (x : EReal))
    (ha : ∀ k, ∃ x : ℝ, a k = (x : EReal)) (j : Fin 4096) : ∃ x : ℝ, s2 h a j = (x : EReal) :=
  sum_mul_real Finset.univ (fun d : Fin 256 => h j d) (fun d : Fin 256 => a ⟨256 + d.val, by omega⟩) (hh j) (fun d => ha _)

/-- The masked logit is real. -/
theorem logit_real (adj : Fin 4096 → Fin 4096 → BitVec 32) (h : Fin 4096 → Fin 256 → EReal) (a : Fin 512 → EReal) (hh : ∀ r d, ∃ x : ℝ, h r d = (x : EReal)) (ha : ∀ k, ∃ x : ℝ, a k = (x : EReal)) (r j : Fin 4096) : ∃ x : ℝ, logit adj h a r j = (x : EReal) := by
  obtain ⟨x1, h1⟩ := s1_real h a hh ha r
  obtain ⟨x2, h2⟩ := s2_real h a hh ha j
  unfold logit
  split_ifs
  · rw [h1, h2, ← EReal.coe_add]
    exact leaky_real _
  · exact negBig_real

end Cert.Spec

end
-- ==== Proof.KI.Step1.lean ====
/-
  One grid point of the attention kernel as three pure functions of its input blocks and of the scratch contents it
  finds: the new running maximum, the new sum of shifted exponentials, the new accumulator; and the value written out
  at a row tile's last point. Each is the composition of the body's arithmetic in the order the body performs it.
-/
import proofs.«413735_j62706522522384_4_alg».proof.Proof.Gen.KernelIdeal.Skeleton

noncomputable section

namespace Cert.KernelIdeal.Hand

open Cert.KernelIdeal Cert.KernelIdeal.Gen
open Idealize.ShloMosaic

variable {F : FTy → Type} [FloatOps F]

/-- The running maximum after a point: the maximum of what it was (`M`) and of the tile's masked logits, row by row. -/
def stepM (x1 : Vec F S1024x512 .i32) (x2 : Vec F S1024x1 .f32) (x3 : Vec F S1x512 .f32) (M : Vec F S1024x1 .f32) : Vec F S1024x1 .f32 :=
  k1_pay3 (k1_pay10 x2 x3 x1 M)

/-- The sum of shifted exponentials after a point: the old sum (`L`) rescaled to the new maximum, plus the tile's. -/
def stepL (x1 : Vec F S1024x512 .i32) (x2 : Vec F S1024x1 .f32) (x3 : Vec F S1x512 .f32) (M L : Vec F S1024x1 .f32) : Vec F S1024x1 .f32 :=
  k1_pay1 (k1_pay13 x2 x3 x1 M M L) (k1_pay14 x2 x3 x1 M)

/-- The accumulator after a point: the old one (`A`) rescaled, plus the tile's exponentials times the tile's rows of `h` (`x0`). -/
def stepA (x0 : Vec F S512x256 .bf16) (x1 : Vec F S1024x512 .i32) (x2 : Vec F S1024x1 .f32) (x3 : Vec F S1x512 .f32) (M : Vec F S1024x1 .f32)
    (A : Vec F S1024x256 .f32) : Vec F S1024x256 .f32 :=
  k1_pay2 (k1_pay8 x0) (k1_pay11 x2 x3 x1 M M) (k1_pay12 x2 x3 x1 M) A

/-- What a row tile's last point writes out: the accumulator divided by the sum, through the exponential linear unit. -/
def fin1 (A : Vec F S1024x256 .f32) (L : Vec F S1024x1 .f32) : Vec F S1024x256 .f32 :=
  k1_pay4 A L

end Cert.KernelIdeal.Hand

end
-- ==== Proof.KI.Pieces1.lean ====
/-
  The second kernel region's found stores as closed forms: what each of the three cases of the body leaves in the
  three scratch buffers — the running maximum, the sum of shifted exponentials, the accumulator — is the one-point
  step function of the input blocks and of the scratch contents the point starts from (the reset values where the
  column tile is 0); what the last column tile leaves in the output window is the final value of the accumulator
  and of the sum just stored.
-/
import proofs.«413735_j62706522522384_4_alg».proof.Proof.KI.Body1
import proofs.«413735_j62706522522384_4_alg».proof.Proof.KI.Step1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offset of every access is zero on each axis. -/
theorem off_zero1 : (![0, 0] : Fin 2 → Nat) = fun _ => 0 := by
  funext a; fin_cases a <;> rfl

/-- Case A leaves the running maximum stepped from its reset value. -/
theorem sout1_A_0_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) :
    sout1_A_0 c i arg2 harg2 arg3 harg3 arg4 harg4 arg5 harg5 arg6 harg6 arg7 harg7 arg8 harg8 arg9 harg9 hc0 hc1 x0 x1 x2 x3 = stepM x1 x2 x3 (k1_pay5 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A; dsimp only
  sl_unfold_words
  rw [View.canon_cons_unit_zero (S := S1024x1) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepM
  rfl

/-- Case A leaves the sum stepped from its reset value. -/
theorem sout1_A_1_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) :
    sout1_A_1 c i arg2 harg2 arg3 harg3 arg4 harg4 arg5 harg5 arg6 harg6 arg7 harg7 arg8 harg8 arg9 harg9 hc0 hc1 x0 x1 x2 x3 = stepL x1 x2 x3 (k1_pay5 (F := F)) (k1_pay6 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A; dsimp only
  sl_unfold_words
  rw [View.canon_cons_unit_zero (S := S1024x1) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepL
  rfl

/-- Case A leaves the accumulator stepped from its reset value. -/
theorem sout1_A_2_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S512x256 .bf16) (x1 : Vec F S1024x512 .i32) (x2 : Vec F S1024x1 .f32) (x3 : Vec F S1x512 .f32) :
    sout1_A_2 c i arg2 harg2 arg3 harg3 arg4 harg4 arg5 harg5 arg6 harg6 arg7 harg7 arg8 harg8 arg9 harg9 hc0 hc1 x0 x1 x2 x3 = stepA x0 x1 x2 x3 (k1_pay5 (F := F)) (k1_pay7 (F := F)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A; dsimp only
  sl_unfold_words
  rw [View.canon_cons_unit_zero (S := S1024x256) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepA
  rfl

/-- Case B leaves the running maximum stepped from what it found. -/
theorem sout1_B_0_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 arg9 harg9 hc0 hc1 x0 x1 x2 x3 xs0 xs1 xs2 = stepM x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B; dsimp only
  sl_unfold_words
  rw [View.canon_cons_unit_zero (S := S1024x1) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepM
  rfl

/-- Case B leaves the sum stepped from what it found. -/
theorem sout1_B_1_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 arg9 harg9 hc0 hc1 x0 x1 x2 x3 xs0 xs1 xs2 = stepL x1 x2 x3 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B; dsimp only
  sl_unfold_words
  rw [View.canon_cons_unit_zero (S := S1024x1) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepL
  rfl

/-- Case B leaves the accumulator stepped from what it found. -/
theorem sout1_B_2_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 arg9 harg9 hc0 hc1 x0 x1 x2 x3 xs0 xs1 xs2 = stepA x0 x1 x2 x3 xs0 xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B; dsimp only
  sl_unfold_words
  rw [View.canon_cons_unit_zero (S := S1024x256) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepA
  rfl

/-- Case C leaves the running maximum stepped from what it found. -/
theorem sout1_C_0_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 arg9 harg9 hc0 hc1 x0 x1 x2 x3 xs0 xs1 xs2 = stepM x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C; dsimp only
  sl_unfold_words
  rw [View.canon_cons_unit_zero (S := S1024x1) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepM
  rfl

/-- Case C leaves the sum stepped from what it found. -/
theorem sout1_C_1_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 arg9 harg9 hc0 hc1 x0 x1 x2 x3 xs0 xs1 xs2 = stepL x1 x2 x3 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C; dsimp only
  sl_unfold_words
  rw [View.canon_cons_unit_zero (S := S1024x1) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepL
  rfl

/-- Case C leaves the accumulator stepped from what it found. -/
theorem sout1_C_2_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 arg9 harg9 hc0 hc1 x0 x1 x2 x3 xs0 xs1 xs2 = stepA x0 x1 x2 x3 xs0 xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C; dsimp only
  sl_unfold_words
  rw [View.canon_cons_unit_zero (S := S1024x256) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold stepA
  rfl

/-- Case C writes out the final value of the stepped accumulator and the stepped sum. -/
theorem out1_C_4_eq (c : Dev nD) (i : grid1.Coords) (arg2 : Memref sig .tc .vmem S512x256 .bf16) (harg2 : arg2.IsWhole) (arg3 : Memref sig .tc .vmem S1024x512 .i32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S512x256 .bf16) (x1 : Vec F S1024x512 .i32) (x2 : Vec F S1024x1 .f32) (x3 : Vec F S1x512 .f32) (xs0 : Vec F S1024x1 .f32) (xs1 : Vec F S1024x1 .f32) (xs2 : Vec F S1024x256 .f32) :
    out1_C_4 c i arg2 harg2 arg3 harg3 arg4 harg4 arg5 harg5 arg6 harg6 arg7 harg7 arg8 harg8 arg9 harg9 hc0 hc1 x0 x1 x2 x3 xs0 xs1 xs2 = fin1 (stepA x0 x1 x2 x3 xs0 xs2) (stepL x1 x2 x3 xs0 xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C; dsimp only
  sl_unfold_words
  rw [View.canon_cons_unit_zero (S := S1024x256) off_zero1]
  simp only [View.readAt_eq_ld, harg2.read_unread, harg3.read_unread, harg4.read_unread, harg5.read_unread,
    harg7.read_unread, harg8.read_unread, harg9.read_unread,
    View.ld_unit_zero (S := S512x256) off_zero1, View.ld_unit_zero (S := S1024x512) off_zero1, View.ld_unit_zero (S := S1024x1) off_zero1,
    View.ld_unit_zero (S := S1x512) off_zero1, View.ld_unit_zero (S := S1024x256) off_zero1,
    View.readCov_unit_zero (S := S1024x1) _ off_zero1, View.readCov_unit_zero (S := S1024x256) _ off_zero1]
  unfold fin1 stepA stepL
  rfl

end Cert.KernelIdeal.Hand

end
-- ==== Proof.Pay1.lean ====
/-
  The attention kernel's arithmetic at one grid point, read index by index over the extended reals: the tile's masked
  logit, the new running maximum, the new sum of shifted exponentials, the new accumulator, and the value written at a
  row tile's last point.
-/
import proofs.«413735_j62706522522384_4_alg».proof.Proof.KI.Step1
import proofs.«413735_j62706522522384_4_alg».proof.Proof.Spec
import proofs.«413735_j62706522522384_4_alg».proof.Proof.Online
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Pay

open Cert.KernelIdeal Cert.KernelIdeal.Gen Cert.KernelIdeal.Hand Idealize.ShloMosaic Idealize.ShloMosaic.ValueIdx

/-! ## Layout operations on a column -/

section Layout
variable {α : Type}

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The source index over row y of the reduced [1024] vector with column z inserted is (y, z). -/
theorem lift_row (h : S1024x512.Reduces [1] S1024) (y : Fin 1024) (z : Fin 512) :
    h.lift (ix1 y) z = ix2 y z := by
  funext c
  match c with
  | ⟨0, _⟩ => exact Fin.ext rfl
  | ⟨1, _⟩ => exact Fin.ext rfl

/-! ## Constants and selections -/

/-- The f32 pattern of minus infinity is the bottom of the extended reals. -/
theorem ofBits_negInf : Ideal.ofBits .f32 0xFF800000#32 = ⊥ := by
  simp [Ideal.ofBits, Ideal.ieee]

theorem scalar_ofBits (b : BitVec 32) : Scalar.ofBits (F := Ideal) .f32 b = Ideal.ofBits .f32 b := rfl

/-- A selection on a Boolean's bit is the conditional on the Boolean. -/
theorem select_ofBool {α : Type} (b : Bool) (u v : α) : Scalar.select (BitVec.ofBool b) u v = if b then u else v := by
  cases b
  · exact select_zero u v
  · exact select_one u v

theorem cmpi_apply {s : Shape} {w : ℕ} (p : CmpIPredicate) (a b : IVec s w) (i : s.Idx) :
    cmpi p a b i = IntOp.cmpi p (a i) (b i) := rfl

theorem exp_apply {s : Shape} {φ : FTy} (a : FVec Ideal s φ) (i : s.Idx) : exp a i = Ideal.exp (a i) := rfl

/-! ## The initial scratch contents -/

theorem pay5_apply (y : Fin 1024) : k1_pay5 (F := Ideal) (ix2 y (0 : Fin 1)) = ⊥ := by
  unfold k1_pay5
  simp only [shapeCast_self, broadcast_apply, scalar_ofBits, ofBits_negInf]

theorem pay6_apply (y : Fin 1024) : k1_pay6 (F := Ideal) (ix2 y (0 : Fin 1)) = 0 := by
  unfold k1_pay6
  simp only [shapeCast_self, broadcast_apply, scalar_ofBits, Ideal.ofBits_zero_f32]

theorem pay7_apply (y : Fin 1024) (d : Fin 256) : k1_pay7 (F := Ideal) (ix2 y d) = 0 := by
  unfold k1_pay7
  simp only [shapeCast_self, broadcast_apply, scalar_ofBits, Ideal.ofBits_zero_f32]

/-! ## The tile's masked logit -/

theorem pay9_apply (x1 : Vec Ideal S1024x512 .i32) (x2 : Vec Ideal S1024x1 .f32) (x3 : Vec Ideal S1x512 .f32)
    (y : Fin 1024) (z : Fin 512) :
    k1_pay9 (F := Ideal) x2 x3 x1 (ix2 y z) =
      if (0#32).slt (x1 (ix2 y z)) then Cert.Spec.leaky (x2 (ix2 y (0 : Fin 1)) + x3 (ix2 (0 : Fin 1) z))
      else Cert.Spec.negBig := by
  unfold k1_pay9
  simp only [shapeCast_self, select_apply, cmpi_apply, cmpf_apply, addf_apply, mulf_apply, broadcast_apply,
    broadcastTo_a1_ab_apply, broadcastTo_1b_ab_apply, scalar_ofBits, Ideal.ofBits_zero_f32]
  have hi : IntOp.cmpi CmpIPredicate.sgt (x1 (ix2 y z)) 0#32 = BitVec.ofBool ((0#32).slt (x1 (ix2 y z))) := rfl
  have hf : ∀ s : EReal, FloatOps.cmpf (F := Ideal) (φ := .f32) CmpFPredicate.ogt s 0 = BitVec.ofBool (decide (0 < s)) :=
    fun _ => rfl
  rw [hi, hf, select_ofBool, select_ofBool]
  simp only [Cert.Spec.leaky, decide_eq_true_eq]

/-! ## A row's maximum and a row's sum over the tile's 512 columns -/

/-- The lane maximum of a [1024, 512] tile from minus infinity, at row y: the supremum over the 512 columns. -/
theorem rowMax_apply (src : FVec Ideal S1024x512 .f32) (h : S1024x512.Reduces [1] S1024) (hφ : FKind.Formats .f32)
    (hacc : (0xFF800000#32 : BitVec 32) = 0xFF800000#32) (y : Fin 1024) :
    multiReduction (F := Ideal) .maximumf [1] S1024 src 0xFF800000#32 h hφ hacc (ix1 y) =
      Finset.univ.sup fun z : Fin 512 => src (ix2 y z) := by
  refine (Ideal.multiReduction_maximumf_single src 0xFF800000#32 h hφ hacc (ix1 y)).trans ?_
  have hf : (src ∘ h.lift (ix1 y)) = fun z : Fin 512 => src (ix2 y z) := by
    funext z
    exact congrArg src (lift_row h y z)
  rw [hf]
  show Finset.fold max (Ideal.ofBits .f32 0xFF800000#32) _ _ = _
  rw [ofBits_negInf]
  rfl

/-- The lane sum of a [1024, 512] tile, at row y: the sum over the 512 columns. -/
theorem rowSum_apply (src : FVec Ideal S1024x512 .f32) (h : S1024x512.Reduces [1] S1024) (hφ : FKind.Formats .f32)
    (hacc : (0x00000000#32 : BitVec 32) = 0x00000000#32) (y : Fin 1024) :
    multiReduction (F := Ideal) .add [1] S1024 src 0x00000000#32 h hφ hacc (ix1 y) =
      ∑ z : Fin 512, src (ix2 y z) := by
  refine (Ideal.multiReduction_add_single src 0x00000000#32 h hφ hacc (ix1 y)).trans ?_
  exact Finset.sum_congr rfl fun z _ => congrArg src (lift_row h y z)

/-! ## The running maximum -/

/-- The point's new maximum is the tenth payload: the store's cast to the same shape is the identity. -/
theorem stepM_eq (x1 : Vec Ideal S1024x512 .i32) (x2 : Vec Ideal S1024x1 .f32) (x3 : Vec Ideal S1x512 .f32)
    (M : Vec Ideal S1024x1 .f32) : stepM (F := Ideal) x1 x2 x3 M = k1_pay10 (F := Ideal) x2 x3 x1 M := by
  unfold stepM k1_pay3
  exact shapeCast_self _ _

theorem pay10_apply (x1 : Vec Ideal S1024x512 .i32) (x2 : Vec Ideal S1024x1 .f32) (x3 : Vec Ideal S1x512 .f32)
    (M : Vec Ideal S1024x1 .f32) (y : Fin 1024) :
    k1_pay10 (F := Ideal) x2 x3 x1 M (ix2 y (0 : Fin 1)) =
      max (M (ix2 y (0 : Fin 1))) (Finset.univ.sup fun z : Fin 512 => k1_pay9 (F := Ideal) x2 x3 x1 (ix2 y z)) := by
  unfold k1_pay10
  refine (maximumf_apply _ _ _).trans ?_
  refine congrArg (max (M (ix2 y (0 : Fin 1)))) ?_
  refine (shapeCast_a_a1_apply _ _ y (0 : Fin 1)).trans ?_
  exact rowMax_apply _ _ _ _ y

theorem stepM_apply (x1 : Vec Ideal S1024x512 .i32) (x2 : Vec Ideal S1024x1 .f32) (x3 : Vec Ideal S1x512 .f32)
    (M : Vec Ideal S1024x1 .f32) (y : Fin 1024) :
    stepM (F := Ideal) x1 x2 x3 M (ix2 y (0 : Fin 1)) =
      max (M (ix2 y (0 : Fin 1))) (Finset.univ.sup fun z : Fin 512 => k1_pay9 (F := Ideal) x2 x3 x1 (ix2 y z)) := by
  rw [stepM_eq]
  exact pay10_apply x1 x2 x3 M y

/-! ## The sum of shifted exponentials -/

theorem pay11_apply (x1 : Vec Ideal S1024x512 .i32) (x2 : Vec Ideal S1024x1 .f32) (x3 : Vec Ideal S1x512 .f32)
    (M M' : Vec Ideal S1024x1 .f32) (y : Fin 1024) :
    k1_pay11 (F := Ideal) x2 x3 x1 M M' (ix2 y (0 : Fin 1)) =
      Ideal.exp (M' (ix2 y (0 : Fin 1)) - stepM (F := Ideal) x1 x2 x3 M (ix2 y (0 : Fin 1))) := by
  rw [stepM_eq]
  unfold k1_pay11
  rfl

theorem pay12_apply (x1 : Vec Ideal S1024x512 .i32) (x2 : Vec Ideal S1024x1 .f32) (x3 : Vec Ideal S1x512 .f32)
    (M : Vec Ideal S1024x1 .f32) (y : Fin 1024) (z : Fin 512) :
    k1_pay12 (F := Ideal) x2 x3 x1 M (ix2 y z) =
      Ideal.exp (k1_pay9 (F := Ideal) x2 x3 x1 (ix2 y z) - stepM (F := Ideal) x1 x2 x3 M (ix2 y (0 : Fin 1))) := by
  rw [stepM_eq]
  unfold k1_pay12
  refine (exp_apply _ _).trans (congrArg Ideal.exp ?_)
  refine (subf_apply _ _ _).trans ?_
  exact congrArg (fun t : EReal => k1_pay9 (F := Ideal) x2 x3 x1 (ix2 y z) - t) (broadcastTo_a1_ab_apply _ _ y z)

theorem pay13_apply (x1 : Vec Ideal S1024x512 .i32) (x2 : Vec Ideal S1024x1 .f32) (x3 : Vec Ideal S1x512 .f32)
    (M M' L : Vec Ideal S1024x1 .f32) (y : Fin 1024) :
    k1_pay13 (F := Ideal) x2 x3 x1 M M' L (ix2 y (0 : Fin 1)) =
      Ideal.exp (M' (ix2 y (0 : Fin 1)) - stepM (F := Ideal) x1 x2 x3 M (ix2 y (0 : Fin 1))) * L (ix2 y (0 : Fin 1)) := by
  unfold k1_pay13
  refine (mulf_apply _ _ _).trans ?_
  exact congrArg (fun t : EReal => t * L (ix2 y (0 : Fin 1))) (pay11_apply x1 x2 x3 M M' y)

theorem pay14_apply (x1 : Vec Ideal S1024x512 .i32) (x2 : Vec Ideal S1024x1 .f32) (x3 : Vec Ideal S1x512 .f32)
    (M : Vec Ideal S1024x1 .f32) (y : Fin 1024) :
    k1_pay14 (F := Ideal) x2 x3 x1 M (ix1 y) =
      ∑ z : Fin 512, Ideal.exp (k1_pay9 (F := Ideal) x2 x3 x1 (ix2 y z) - stepM (F := Ideal) x1 x2 x3 M (ix2 y (0 : Fin 1))) := by
  unfold k1_pay14
  refine (rowSum_apply _ _ _ _ y).trans ?_
  exact Finset.sum_congr rfl fun z _ => pay12_apply x1 x2 x3 M y z

theorem pay1_apply (v33 : FVec Ideal S1024x1 .f32) (v34 : FVec Ideal S1024 .f32) (y : Fin 1024) :
    k1_pay1 (F := Ideal) v33 v34 (ix2 y (0 : Fin 1)) = v33 (ix2 y (0 : Fin 1)) + v34 (ix1 y) := by
  unfold k1_pay1
  rw [shapeCast_self]
  refine (addf_apply _ _ _).trans ?_
  exact congrArg (fun t : EReal => v33 (ix2 y (0 : Fin 1)) + t) (shapeCast_a_a1_apply _ _ y (0 : Fin 1))

theorem stepL_apply (x1 : Vec Ideal S1024x512 .i32) (x2 : Vec Ideal S1024x1 .f32) (x3 : Vec Ideal S1x512 .f32)
    (M L : Vec Ideal S1024x1 .f32) (y : Fin 1024) :
    stepL (F := Ideal) x1 x2 x3 M L (ix2 y (0 : Fin 1)) =
      Ideal.exp (M (ix2 y (0 : Fin 1)) - stepM (F := Ideal) x1 x2 x3 M (ix2 y (0 : Fin 1))) * L (ix2 y (0 : Fin 1))
        + ∑ z : Fin 512, Ideal.exp (k1_pay9 (F := Ideal) x2 x3 x1 (ix2 y z) - stepM (F := Ideal) x1 x2 x3 M (ix2 y (0 : Fin 1))) := by
  unfold stepL
  rw [pay1_apply, pay13_apply x1, pay14_apply x1]

/-! ## The accumulator: the tile's product with the rows of h -/

theorem dot_lhs_0 (j : S1024x256.Idx) (k : dot_S1024x512_S512x256_S1024x256_1_0_0_1_n_n.contr.Idx) :
    (dot_S1024x512_S512x256_S1024x256_1_0_0_1_n_n.lhsIdx j k 0).val = (j 0).val := rfl

theorem dot_lhs_1 (j : S1024x256.Idx) (k : dot_S1024x512_S512x256_S1024x256_1_0_0_1_n_n.contr.Idx) :
    (dot_S1024x512_S512x256_S1024x256_1_0_0_1_n_n.lhsIdx j k 1).val = (k ⟨0, by decide⟩).val :=
  dot_S1024x512_S512x256_S1024x256_1_0_0_1_n_n.lhsIdx_val_of_single rfl j k

theorem dot_rhs_0 (j : S1024x256.Idx) (k : dot_S1024x512_S512x256_S1024x256_1_0_0_1_n_n.contr.Idx) :
    (dot_S1024x512_S512x256_S1024x256_1_0_0_1_n_n.rhsIdx j k 0).val = (k ⟨0, by decide⟩).val :=
  dot_S1024x512_S512x256_S1024x256_1_0_0_1_n_n.rhsIdx_val_of_single rfl j k

theorem dot_rhs_1 (j : S1024x256.Idx) (k : dot_S1024x512_S512x256_S1024x256_1_0_0_1_n_n.contr.Idx) :
    (dot_S1024x512_S512x256_S1024x256_1_0_0_1_n_n.rhsIdx j k 1).val = (j 1).val := rfl

/-- The product of a [1024, 512] tile with a [512, 256] block into zero, at (y, d): the sum over the 512 columns. -/
theorem tileDot_apply (l : FVec Ideal S1024x512 .bf16) (r : FVec Ideal S512x256 .bf16) (y : Fin 1024) (d : Fin 256) :
    matmul (F := Ideal) dot_S1024x512_S512x256_S1024x256_1_0_0_1_n_n none l r
        (constant (F := Ideal) S1024x256 .f32 0x00000000#32) (ix2 y d) =
      ∑ z : Fin 512, l (ix2 y z) * r (ix2 z d) := by
  refine (Ideal.matmul_constant_zero_apply _ none l r (ix2 y d)).trans ?_
  rw [← Equiv.sum_comp (contrEquiv1 dot_S1024x512_S512x256_S1024x256_1_0_0_1_n_n 512 rfl rfl).symm]
  refine Finset.sum_congr rfl fun z _ => ?_
  have hl : dot_S1024x512_S512x256_S1024x256_1_0_0_1_n_n.lhsIdx (ix2 y d)
      ((contrEquiv1 dot_S1024x512_S512x256_S1024x256_1_0_0_1_n_n 512 rfl rfl).symm z) = ix2 y z := by
    funext a
    match a with
    | ⟨0, _⟩ => exact Fin.ext (dot_lhs_0 _ _)
    | ⟨1, _⟩ => exact Fin.ext ((dot_lhs_1 _ _).trans (contrEquiv1_symm_val _ 512 rfl rfl z))
  have hr : dot_S1024x512_S512x256_S1024x256_1_0_0_1_n_n.rhsIdx (ix2 y d)
      ((contrEquiv1 dot_S1024x512_S512x256_S1024x256_1_0_0_1_n_n 512 rfl rfl).symm z) = ix2 z d := by
    funext a
    match a with
    | ⟨0, _⟩ => exact Fin.ext ((dot_rhs_0 _ _).trans (contrEquiv1_symm_val _ 512 rfl rfl z))
    | ⟨1, _⟩ => exact Fin.ext (dot_rhs_1 _ _)
  rw [hl, hr]

theorem pay8_eq (x0 : Vec Ideal S512x256 .bf16) : k1_pay8 (F := Ideal) x0 = x0 := by
  unfold k1_pay8
  exact shapeCast_self _ _

theorem pay2_apply (v4 : FVec Ideal S512x256 .bf16) (v28 : FVec Ideal S1024x1 .f32) (v31 : FVec Ideal S1024x512 .f32)
    (v40 : Vec Ideal S1024x256 .f32) (y : Fin 1024) (d : Fin 256) :
    k1_pay2 (F := Ideal) v4 v28 v31 v40 (ix2 y d) =
      v28 (ix2 y (0 : Fin 1)) * v40 (ix2 y d) + ∑ z : Fin 512, v31 (ix2 y z) * v4 (ix2 z d) := by
  unfold k1_pay2
  rw [shapeCast_self]
  refine (addf_apply _ _ _).trans ?_
  have h1 : mulf (broadcastTo S1024x256 v28 broadcasts_S1024x1_S1024x256) v40 (ix2 y d) =
      v28 (ix2 y (0 : Fin 1)) * v40 (ix2 y d) :=
    (mulf_apply _ _ _).trans (congrArg (fun t : EReal => t * v40 (ix2 y d)) (broadcastTo_a1_ab_apply _ _ y d))
  have h2 : matmul (F := Ideal) dot_S1024x512_S512x256_S1024x256_1_0_0_1_n_n none (truncf .bf16 v31 bitsLt_bf16_f32) v4
      (constant (F := Ideal) S1024x256 .f32 0x00000000#32) (ix2 y d) = ∑ z : Fin 512, v31 (ix2 y z) * v4 (ix2 z d) :=
    tileDot_apply (truncf .bf16 v31 bitsLt_bf16_f32) v4 y d
  exact congrArg₂ (fun s t : EReal => s + t) h1 h2

theorem stepA_apply (x0 : Vec Ideal S512x256 .bf16) (x1 : Vec Ideal S1024x512 .i32) (x2 : Vec Ideal S1024x1 .f32)
    (x3 : Vec Ideal S1x512 .f32) (M : Vec Ideal S1024x1 .f32) (A : Vec Ideal S1024x256 .f32) (y : Fin 1024) (d : Fin 256) :
    stepA (F := Ideal) x0 x1 x2 x3 M A (ix2 y d) =
      Ideal.exp (M (ix2 y (0 : Fin 1)) - stepM (F := Ideal) x1 x2 x3 M (ix2 y (0 : Fin 1))) * A (ix2 y d)
        + ∑ z : Fin 512, Ideal.exp (k1_pay9 (F := Ideal) x2 x3 x1 (ix2 y z) - stepM (F := Ideal) x1 x2 x3 M (ix2 y (0 : Fin 1)))
            * x0 (ix2 z d) := by
  unfold stepA
  rw [pay2_apply, pay11_apply x1, pay8_eq]
  simp only [pay12_apply x1]

/-! ## The value written at a row tile's last point -/

theorem fin1_apply (A : Vec Ideal S1024x256 .f32) (L : Vec Ideal S1024x1 .f32) (y : Fin 1024) (d : Fin 256) :
    fin1 (F := Ideal) A L (ix2 y d) = Cert.Spec.elu (Ideal.div (A (ix2 y d)) (L (ix2 y (0 : Fin 1)))) := by
  unfold fin1 k1_pay4
  simp only [select_apply, cmpf_apply, divf_apply, subf_apply, exp_apply, minimumf_apply, broadcast_apply,
    broadcastTo_a1_ab_apply, scalar_ofBits, Ideal.ofBits_zero_f32, Ideal.ofBits_one_f32]
  have hf : ∀ s : EReal, FloatOps.cmpf (F := Ideal) (φ := .f32) CmpFPredicate.ogt s 0 = BitVec.ofBool (decide (0 < s)) :=
    fun _ => rfl
  rw [hf, select_ofBool]
  simp only [decide_eq_true_eq]
  exact Cert.Online.elu_min _

end Cert.KernelIdeal.Pay

end
-- ==== Proof.KI.Fold1.lean ====
/-
  The attention kernel's scratch buffers along its grid. After the point of row tile q and column tile k the running
  maximum, the sum of shifted exponentials and the accumulator hold, entry by entry, the tiled evaluation of the row's
  logits through tile k; after a row tile's last column tile the output block holds the softmax-weighted sum of the
  values through the exponential linear unit.

  The input blocks enter only through two hypotheses: window 0's block at a point is the column tile's rows of the
  values, and the tile's masked logits are the entries of the logit matrix.
-/
import proofs.«413735_j62706522522384_4_alg».proof.Proof.KI.Body1
import proofs.«413735_j62706522522384_4_alg».proof.Proof.KI.Pieces1
import proofs.«413735_j62706522522384_4_alg».proof.Proof.Pay1
import proofs.«413735_j62706522522384_4_alg».proof.Proof.Online
import proofs.«413735_j62706522522384_4_alg».proof.Proof.Tiles
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Cert.Tiles Cert.Online Cert.KernelIdeal.Pay

/-! ## The tiled evaluation, one tile further -/

/-- The tiled evaluation does not depend on how its tile count is written. -/
theorem run_congr (X v : Fin 4096 → EReal) {n m : ℕ} (h : n = m) (hn : n ≤ 8) (hm : m ≤ 8) :
    run X v n hn = run X v m hm := by
  subst h; rfl

/-- The update of the state after the first `m` tiles by tile `k = m` is the state after `k + 1` tiles. -/
theorem upd_run (X v : Fin 4096 → EReal) (k : Fin 8) (m : ℕ) (hm : m ≤ 8) (hmk : m = k.val) :
    upd (run X v m hm) (fun z => X (col k z)) (fun z => v (col k z)) =
      run X v (k.val + 1) (Nat.succ_le_of_lt k.isLt) := by
  obtain ⟨k, hk⟩ := k
  subst hmk
  exact (run_succ_upd X v _ _).symm

/-! ## One point's three stores, entry by entry, as one update of the running state -/

/-- At row `y` and value column `d` the three step functions are the tile update of the three entries they start from,
    by the row's masked logits and the value block's column. -/
theorem step_upd (x0 : Vec Ideal S512x256 .bf16) (x1 : Vec Ideal S1024x512 .i32) (x2 : Vec Ideal S1024x1 .f32)
    (x3 : Vec Ideal S1x512 .f32) (M L : Vec Ideal S1024x1 .f32) (A : Vec Ideal S1024x256 .f32)
    (y : Fin 1024) (d : Fin 256) :
    ((stepM (F := Ideal) x1 x2 x3 M (ix2 y (0 : Fin 1)), stepL (F := Ideal) x1 x2 x3 M L (ix2 y (0 : Fin 1)),
      stepA (F := Ideal) x0 x1 x2 x3 M A (ix2 y d)) : EReal × EReal × EReal) =
      upd (M (ix2 y (0 : Fin 1)), L (ix2 y (0 : Fin 1)), A (ix2 y d))
        (fun z => k1_pay9 (F := Ideal) x2 x3 x1 (ix2 y z)) (fun z => x0 (ix2 z d)) := by
  rw [stepL_apply, stepA_apply, stepM_apply]
  rfl

section Fold
variable (V : (c : Dev nD) → (b : Ref sig .tc) → Buf (Elt Ideal) ((c : Thread nD τ).loc b)) (c : Dev nD)
  (x : Fin 4096 → Fin 4096 → EReal) (hv : Fin 4096 → Fin 256 → EReal)

/-- What the region's input blocks hold: window 0's block at a point is the column tile's rows of hv; the tile's masked
    logits are the entries of x. -/
structure BlocksAre : Prop where
  hk : ∀ (t : Fin cfg1.N) (z : Fin 512) (d : Fin 256),
    (iblk1 V c 0 t : Vec Ideal S512x256 .bf16) (ix2 z d) = hv (col (ki t.val (lt_of_lt_of_eq t.isLt N_1)) z) d
  lg : ∀ (t : Fin cfg1.N) (y : Fin 1024) (z : Fin 512),
    k1_pay9 (F := Ideal) (iblk1 V c 2 t) (iblk1 V c 3 t) (iblk1 V c 1 t) (ix2 y z) =
      x (row (qi t.val (lt_of_lt_of_eq t.isLt N_1)) y) (col (ki t.val (lt_of_lt_of_eq t.isLt N_1)) z)

/-- The three scratch entries that row `y` and value column `d` see after position `n`. -/
def st (n : ℕ) (hn : n < cfg1.N) (y : Fin 1024) (d : Fin 256) : EReal × EReal × EReal :=
  ((outsAt1 V c n hn).2.1 (ix2 y (0 : Fin 1)), (outsAt1 V c n hn).2.2.1 (ix2 y (0 : Fin 1)),
    (outsAt1 V c n hn).2.2.2 (ix2 y d))

/-- A point whose column tile is 0: the update of the reset values by the point's blocks. -/
theorem st_A (n : ℕ) (hn : n < cfg1.N) (h0 : n % 8 = 0) (y : Fin 1024) (d : Fin 256) :
    st V c n hn y d =
      upd (⊥, 0, 0)
        (fun z => k1_pay9 (F := Ideal) (iblk1 V c 2 ⟨n, hn⟩) (iblk1 V c 3 ⟨n, hn⟩) (iblk1 V c 1 ⟨n, hn⟩) (ix2 y z))
        (fun z => (iblk1 V c 0 ⟨n, hn⟩ : Vec Ideal S512x256 .bf16) (ix2 z d)) := by
  have h1 : ¬n % 8 = 7 := by omega
  have e := outsAt1_A V c ⟨n, hn⟩ h0 h1
  have e0 := congrArg (fun p => p.2.1) e
  have e1 := congrArg (fun p => p.2.2.1) e
  have e2 := congrArg (fun p => p.2.2.2) e
  dsimp only at e0 e1 e2
  rw [sout1_A_0_eq] at e0
  rw [sout1_A_1_eq] at e1
  rw [sout1_A_2_eq] at e2
  unfold st
  rw [e0, e1, e2]
  refine (step_upd _ _ _ _ _ _ _ y d).trans ?_
  rw [pay5_apply, pay6_apply, pay7_apply]

/-- A point whose column tile is not 0: the update of what the point before left by the point's blocks. -/
theorem st_B (n : ℕ) (hn : n < cfg1.N) (h0 : ¬n % 8 = 0) (y : Fin 1024) (d : Fin 256) :
    st V c n hn y d =
      upd (st V c (n - 1) (Nat.lt_of_le_of_lt (Nat.sub_le _ _) hn) y d)
        (fun z => k1_pay9 (F := Ideal) (iblk1 V c 2 ⟨n, hn⟩) (iblk1 V c 3 ⟨n, hn⟩) (iblk1 V c 1 ⟨n, hn⟩) (ix2 y z))
        (fun z => (iblk1 V c 0 ⟨n, hn⟩ : Vec Ideal S512x256 .bf16) (ix2 z d)) := by
  by_cases h1 : n % 8 = 7
  · have e := outsAt1_C V c ⟨n, hn⟩ h0 h1
    have e0 := congrArg (fun p => p.2.1) e
    have e1 := congrArg (fun p => p.2.2.1) e
    have e2 := congrArg (fun p => p.2.2.2) e
    dsimp only at e0 e1 e2
    rw [sout1_C_0_eq] at e0
    rw [sout1_C_1_eq] at e1
    rw [sout1_C_2_eq] at e2
    unfold st
    rw [e0, e1, e2]
    exact step_upd _ _ _ _ _ _ _ y d
  · have e := outsAt1_B V c ⟨n, hn⟩ h0 h1
    have e0 := congrArg (fun p => p.2.1) e
    have e1 := congrArg (fun p => p.2.2.1) e
    have e2 := congrArg (fun p => p.2.2.2) e
    dsimp only at e0 e1 e2
    rw [sout1_B_0_eq] at e0
    rw [sout1_B_1_eq] at e1
    rw [sout1_B_2_eq] at e2
    unfold st
    rw [e0, e1, e2]
    exact step_upd _ _ _ _ _ _ _ y d

variable {V c x hv}

/-- The point's two block functions, read through the hypotheses on the blocks. -/
theorem blocks_fun (hB : BlocksAre V c x hv) (n : ℕ) (hn : n < cfg1.N) (y : Fin 1024) (d : Fin 256) (s : EReal × EReal × EReal) :
    upd s
        (fun z => k1_pay9 (F := Ideal) (iblk1 V c 2 ⟨n, hn⟩) (iblk1 V c 3 ⟨n, hn⟩) (iblk1 V c 1 ⟨n, hn⟩) (ix2 y z))
        (fun z => (iblk1 V c 0 ⟨n, hn⟩ : Vec Ideal S512x256 .bf16) (ix2 z d)) =
      upd s (fun z => x (row (qi n (lt_of_lt_of_eq hn N_1)) y) (col (ki n (lt_of_lt_of_eq hn N_1)) z))
        (fun z => hv (col (ki n (lt_of_lt_of_eq hn N_1)) z) d) :=
  congrArg₂ (upd s) (funext fun z => hB.lg ⟨n, hn⟩ y z) (funext fun z => hB.hk ⟨n, hn⟩ z d)

/-- After position `n` the three scratch entries are the tiled evaluation of the row's logits through column tile `n % 8`. -/
theorem st_run (hB : BlocksAre V c x hv) : ∀ (n : ℕ) (hn : n < cfg1.N) (y : Fin 1024) (d : Fin 256),
    st V c n hn y d =
      run (x (row (qi n (lt_of_lt_of_eq hn N_1)) y)) (fun j => hv j d) ((ki n (lt_of_lt_of_eq hn N_1)).val + 1)
        (Nat.succ_le_of_lt (ki n (lt_of_lt_of_eq hn N_1)).isLt) := by
  intro n
  induction n using Nat.strong_induction_on with
  | _ n ih =>
    intro hn y d
    have h32 : n < 32 := lt_of_lt_of_eq hn N_1
    by_cases h0 : n % 8 = 0
    · refine (st_A V c n hn h0 y d).trans ((blocks_fun hB n hn y d _).trans ?_)
      have h := upd_run (x (row (qi n h32) y)) (fun j => hv j d) (ki n h32) 0 (Nat.zero_le _) h0.symm
      rw [run_zero] at h
      exact h
    · have hm : n - 1 < n := by omega
      have hn' : n - 1 < cfg1.N := Nat.lt_of_le_of_lt (Nat.sub_le _ _) hn
      have h32' : n - 1 < 32 := lt_of_lt_of_eq hn' N_1
      refine (st_B V c n hn h0 y d).trans ((blocks_fun hB n hn y d _).trans ?_)
      rw [ih (n - 1) hm hn' y d]
      have hq : qi (n - 1) h32' = qi n h32 := Fin.ext (by show (n - 1) / 8 = n / 8; omega)
      rw [hq]
      exact upd_run (x (row (qi n h32) y)) (fun j => hv j d) (ki n h32) _ _ (by show (n - 1) % 8 + 1 = n % 8; omega)

variable (V c x hv)

/-- The three scratch buffers after a point hold, entry by entry, the tiled evaluation of the row's logits through the
    point's column tile. -/
theorem scratch_run (hB : BlocksAre V c x hv) (t : Fin cfg1.N) (y : Fin 1024) (d : Fin 256) :
    let r := run (x (row (qi t.val (lt_of_lt_of_eq t.isLt N_1)) y)) (fun j => hv j d)
      ((ki t.val (lt_of_lt_of_eq t.isLt N_1)).val + 1) (Nat.succ_le_of_lt (ki t.val (lt_of_lt_of_eq t.isLt N_1)).isLt)
    (outsAt1 V c t.val t.isLt).2.1 (ix2 y (0 : Fin 1)) = r.1 ∧
      (outsAt1 V c t.val t.isLt).2.2.1 (ix2 y (0 : Fin 1)) = r.2.1 ∧
      (outsAt1 V c t.val t.isLt).2.2.2 (ix2 y d) = r.2.2 := by
  intro r
  have h : st V c t.val t.isLt y d = r := st_run hB t.val t.isLt y d
  exact ⟨congrArg (fun p => p.1) h, congrArg (fun p => p.2.1) h, congrArg (fun p => p.2.2) h⟩

/-- At a row tile's last point the output block holds the softmax-weighted sum of the values through the exponential
    linear unit. -/
theorem out_last (hB : BlocksAre V c x hv) (t : Fin cfg1.N) (h7 : t.val % 8 = 7) (y : Fin 1024) (d : Fin 256)
    (hx : ∀ j, ∃ r : ℝ, x (row (qi t.val (lt_of_lt_of_eq t.isLt N_1)) y) j = (r : EReal))
    (hh : ∀ j, ∃ r : ℝ, hv j d = (r : EReal)) :
    (outsAt1 V c t.val t.isLt).1 (ix2 y d) =
      Cert.Spec.elu (∑ j : Fin 4096, Cert.Spec.att (x (row (qi t.val (lt_of_lt_of_eq t.isLt N_1)) y)) j * hv j d) := by
  have h0 : ¬t.val % 8 = 0 := by omega
  have e := outsAt1_C V c t h0 h7
  have eo := congrArg (fun p => p.1) e
  have e1 := congrArg (fun p => p.2.2.1) e
  have e2 := congrArg (fun p => p.2.2.2) e
  dsimp only at eo e1 e2
  rw [out1_C_4_eq] at eo
  rw [sout1_C_1_eq] at e1
  rw [sout1_C_2_eq] at e2
  obtain ⟨-, hL, hA⟩ := scratch_run V c x hv hB t y d
  rw [eo, fin1_apply, ← e1, ← e2, hL, hA,
    run_congr _ _ (show (ki t.val (lt_of_lt_of_eq t.isLt N_1)).val + 1 = 8 by show t.val % 8 + 1 = 8; omega) _ le_rfl,
    run_final _ _ hx hh]

end Fold

end Cert.KernelIdeal.Hand

end
-- ==== Proof.KI.Value0.lean ====
/- Region 0's value on the extended reals. The three products read at an index (one contracted axis each);
   the body's payloads at an index; the index maps of the seven windows, decided once over the two points;
   each input block as rows of its array; for each output window, what a point writes back as that point's
   block of ONE function of the arrays the region finds, and every index covered by the point its row (or
   column) falls to; hence each output array after the region as that function. The input windows' arrays
   are never written. -/
import proofs.«413735_j62706522522384_4_alg».proof.Proof.KI.Body0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The first product read at an index: row p of the left operand against column q of the right. -/
theorem mmA_apply (A : FVec Ideal S2048x512 .f32) (B : FVec Ideal S512x256 .f32) (p : Fin 2048) (q : Fin 256) :
    FloatOps.matmul dot_S2048x512_S512x256_S2048x256_1_0_0_1_n_n (some .fp32) A B (constant S2048x256 .f32 0x00000000#32) (ix2 p q)
      = ∑ k : Fin 512, A (ix2 p k) * B (ix2 k q) := by
  rw [Ideal.matmul_constant_zero_apply,
    ← Equiv.sum_comp (contrEquiv1 dot_S2048x512_S512x256_S2048x256_1_0_0_1_n_n 512 rfl rfl).symm]
  refine Finset.sum_congr rfl fun k _ => ?_
  have ck := contrEquiv1_symm_val dot_S2048x512_S512x256_S2048x256_1_0_0_1_n_n 512 rfl rfl k
  have l : dot_S2048x512_S512x256_S2048x256_1_0_0_1_n_n.lhsIdx (ix2 p q) ((contrEquiv1 _ 512 rfl rfl).symm k) = ix2 p k := by
    funext ax; apply Fin.ext
    match ax with
    | ⟨0, _⟩ => simp [DotDims.lhsIdx, dot_S2048x512_S512x256_S2048x256_1_0_0_1_n_n]; rfl
    | ⟨1, _⟩ => simp [DotDims.lhsIdx, dot_S2048x512_S512x256_S2048x256_1_0_0_1_n_n]; exact ck
  have r : dot_S2048x512_S512x256_S2048x256_1_0_0_1_n_n.rhsIdx (ix2 p q) ((contrEquiv1 _ 512 rfl rfl).symm k) = ix2 k q := by
    funext ax; apply Fin.ext
    match ax with
    | ⟨0, _⟩ => simp [DotDims.rhsIdx, dot_S2048x512_S512x256_S2048x256_1_0_0_1_n_n]; exact ck
    | ⟨1, _⟩ => simp [DotDims.rhsIdx, dot_S2048x512_S512x256_S2048x256_1_0_0_1_n_n]; rfl
  rw [l, r]
/-- The product with a column read at an index: row p of the left operand against the column. -/
theorem mmB_apply (A : FVec Ideal S2048x256 .f32) (B : FVec Ideal S256x1 .f32) (p : Fin 2048) (q : Fin 1) :
    FloatOps.matmul dot_S2048x256_S256x1_S2048x1_1_0_0_1_n_n (some .fp32) A B (constant S2048x1 .f32 0x00000000#32) (ix2 p q)
      = ∑ k : Fin 256, A (ix2 p k) * B (ix2 k q) := by
  rw [Ideal.matmul_constant_zero_apply,
    ← Equiv.sum_comp (contrEquiv1 dot_S2048x256_S256x1_S2048x1_1_0_0_1_n_n 256 rfl rfl).symm]
  refine Finset.sum_congr rfl fun k _ => ?_
  have ck := contrEquiv1_symm_val dot_S2048x256_S256x1_S2048x1_1_0_0_1_n_n 256 rfl rfl k
  have l : dot_S2048x256_S256x1_S2048x1_1_0_0_1_n_n.lhsIdx (ix2 p q) ((contrEquiv1 _ 256 rfl rfl).symm k) = ix2 p k := by
    funext ax; apply Fin.ext
    match ax with
    | ⟨0, _⟩ => simp [DotDims.lhsIdx, dot_S2048x256_S256x1_S2048x1_1_0_0_1_n_n]; rfl
    | ⟨1, _⟩ => simp [DotDims.lhsIdx, dot_S2048x256_S256x1_S2048x1_1_0_0_1_n_n]; exact ck
  have r : dot_S2048x256_S256x1_S2048x1_1_0_0_1_n_n.rhsIdx (ix2 p q) ((contrEquiv1 _ 256 rfl rfl).symm k) = ix2 k q := by
    funext ax; apply Fin.ext
    match ax with
    | ⟨0, _⟩ => simp [DotDims.rhsIdx, dot_S2048x256_S256x1_S2048x1_1_0_0_1_n_n]; exact ck
    | ⟨1, _⟩ => simp [DotDims.rhsIdx, dot_S2048x256_S256x1_S2048x1_1_0_0_1_n_n]; try rfl
  rw [l, r]
/-- The product of a column, transposed, with a transposed matrix, read at an index: both operands contract their 256-long axis. -/
theorem mmC_apply (A : FVec Ideal S256x1 .f32) (B : FVec Ideal S2048x256 .f32) (p : Fin 1) (q : Fin 2048) :
    FloatOps.matmul dot_S256x1_S2048x256_S1x2048_0_1_1_0_n_n (some .fp32) A B (constant S1x2048 .f32 0x00000000#32) (ix2 p q)
      = ∑ k : Fin 256, A (ix2 k p) * B (ix2 q k) := by
  rw [Ideal.matmul_constant_zero_apply,
    ← Equiv.sum_comp (contrEquiv1 dot_S256x1_S2048x256_S1x2048_0_1_1_0_n_n 256 rfl rfl).symm]
  refine Finset.sum_congr rfl fun k _ => ?_
  have ck := contrEquiv1_symm_val dot_S256x1_S2048x256_S1x2048_0_1_1_0_n_n 256 rfl rfl k
  have l : dot_S256x1_S2048x256_S1x2048_0_1_1_0_n_n.lhsIdx (ix2 p q) ((contrEquiv1 _ 256 rfl rfl).symm k) = ix2 k p := by
    funext ax; apply Fin.ext
    match ax with
    | ⟨0, _⟩ => simp [DotDims.lhsIdx, dot_S256x1_S2048x256_S1x2048_0_1_1_0_n_n]; exact ck
    | ⟨1, _⟩ => simp [DotDims.lhsIdx, dot_S256x1_S2048x256_S1x2048_0_1_1_0_n_n]; try rfl
  have r : dot_S256x1_S2048x256_S1x2048_0_1_1_0_n_n.rhsIdx (ix2 p q) ((contrEquiv1 _ 256 rfl rfl).symm k) = ix2 q k := by
    funext ax; apply Fin.ext
    match ax with
    | ⟨0, _⟩ => simp [DotDims.rhsIdx, dot_S256x1_S2048x256_S1x2048_0_1_1_0_n_n]; rfl
    | ⟨1, _⟩ => simp [DotDims.rhsIdx, dot_S256x1_S2048x256_S1x2048_0_1_1_0_n_n]; exact ck
  rw [l, r]

/-! ## The payloads at an index -/

/-- The shared product of the first two operands, at an index. -/
theorem pay1_apply (v0 : Vec Ideal S2048x512 .f32) (v1 : Vec Ideal S512x256 .f32) (y : Fin 2048) (d : Fin 256) :
    k0_pay1 v0 v1 (ix2 y d) = ∑ k : Fin 512, v0 (ix2 y k) * v1 (ix2 k d) := by
  unfold k0_pay1
  exact mmA_apply v0 v1 y d

/-- The first output's payload is the product narrowed, and narrowing is the identity on the extended reals. -/
theorem pay2_apply (v0 : Vec Ideal S2048x512 .f32) (v1 : Vec Ideal S512x256 .f32) (y : Fin 2048) (d : Fin 256) :
    k0_pay2 v0 v1 (ix2 y d) = ∑ k : Fin 512, v0 (ix2 y k) * v1 (ix2 k d) := by
  unfold k0_pay2
  exact (truncf_apply (k0_pay1 v0 v1) bitsLt_bf16_f32 (ix2 y d)).trans (pay1_apply v0 v1 y d)

/-- The second output's payload: each row of the product against the column. -/
theorem pay3_apply (v0 : Vec Ideal S2048x512 .f32) (v1 : Vec Ideal S512x256 .f32) (v5 : Vec Ideal S256x1 .f32) (y : Fin 2048) (z : Fin 1) :
    k0_pay3 v0 v1 v5 (ix2 y z) = ∑ d : Fin 256, (∑ k : Fin 512, v0 (ix2 y k) * v1 (ix2 k d)) * v5 (ix2 d z) := by
  unfold k0_pay3
  show FloatOps.matmul dot_S2048x256_S256x1_S2048x1_1_0_0_1_n_n (some .fp32) (k0_pay1 v0 v1) (shapeCast S256x1 v5 shapeCasts_S256x1_S256x1) (constant S2048x1 .f32 0x00000000#32) (ix2 y z) = _
  rw [shapeCast_self, mmB_apply]
  exact Finset.sum_congr rfl fun d _ => by rw [pay1_apply]

/-- The third output's payload: the column against each row of the product. -/
theorem pay4_apply (v0 : Vec Ideal S2048x512 .f32) (v1 : Vec Ideal S512x256 .f32) (v9 : Vec Ideal S256x1 .f32) (z : Fin 1) (y : Fin 2048) :
    k0_pay4 v0 v1 v9 (ix2 z y) = ∑ d : Fin 256, v9 (ix2 d z) * (∑ k : Fin 512, v0 (ix2 y k) * v1 (ix2 k d)) := by
  unfold k0_pay4
  show FloatOps.matmul dot_S256x1_S2048x256_S1x2048_0_1_1_0_n_n (some .fp32) (shapeCast S256x1 v9 shapeCasts_S256x1_S256x1) (k0_pay1 v0 v1) (constant S1x2048 .f32 0x00000000#32) (ix2 z y) = _
  rw [shapeCast_self, mmC_apply]
  exact Finset.sum_congr rfl fun d _ => by rw [pay1_apply]

/-! ## The index maps, decided once over the grid -/

/-- Window 0 and the first two outputs move down the rows with the point; the third output moves along the
    columns; windows 1, 2, 3 stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

variable (V : (c : Dev nD) → (b : Ref sig .tc) → Buf (Elt Ideal) ((c : Thread nD τ).loc b))

/-! ## The arrays the region finds, as functions of literal index types -/

abbrev X (c : Dev nD) : S4096x512.Idx → EReal := V c main_arg0
abbrev Wt (c : Dev nD) : S512x256.Idx → EReal := V c main_arg2
abbrev A0 (c : Dev nD) : S256x1.Idx → EReal := V c main_v0
abbrev A1 (c : Dev nD) : S256x1.Idx → EReal := V c main_v1

/-! ## Each input block at an index -/

/-- Window 0's block at point t is rows 2048 t to 2048 t + 2047 of the first argument. -/
theorem iblk0_0_apply (c : Dev nD) (t : Fin cfg0.N) (x : S2048x512.Idx) (k : S4096x512.Idx)
    (hk0 : (k 0).val = 2048 * t.val + (x 0).val) (hk1 : (k 1).val = (x 1).val) :
    (iblk0 V c 0 t : Vec Ideal S2048x512 .f32) x = X V c k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 512 + 1 * (x 1).val = (k 1).val; rw [e1, hk1]; omega

/-- Windows 1, 2, 3 hold their whole arrays at every point: the block index stays at zero. -/
theorem iblk0_1_apply (c : Dev nD) (t : Fin cfg0.N) (x k : S512x256.Idx)
    (hk0 : (k 0).val = (x 0).val) (hk1 : (k 1).val = (x 1).val) :
    (iblk0 V c 1 t : Vec Ideal S512x256 .f32) x = Wt V c k := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 256 + 1 * (x 1).val = (k 1).val; rw [e1, hk1]; omega

theorem iblk0_2_apply (c : Dev nD) (t : Fin cfg0.N) (x k : S256x1.Idx)
    (hk0 : (k 0).val = (x 0).val) (hk1 : (k 1).val = (x 1).val) :
    (iblk0 V c 2 t : Vec Ideal S256x1 .f32) x = A0 V c k := by
  obtain ⟨-, -, -, -, e0, e1, -⟩ := idx_facts0 t
  unfold iblk0
  rw [View.read_apply]
  show V c main_v0 _ = V c main_v0 _
  congr 1
  funext a
  apply Fin.ext
  match a with
  | ⟨0, _⟩ => show win0_2.index t (0 : Fin 2) * 256 + 1 * (x 0).val = (k 0).val; rw [e0, hk0]; omega
  | ⟨1, _⟩ => show win0_2.index t (1 : Fin 2) * 1 + 1 * (x 1).val = (k 1).val; rw [e1, hk1]; omega

theorem iblk0_3_apply (c : Dev nD) (t : Fin cfg0.N) (x k : S256x1.Idx)
    (hk0 : (k 0).val = (x 0).val) (hk1 : (k 1).val = (x 1).val) :
    (iblk0 V c 3 t : Vec Ideal S256x1 .f32) x = A1 V c k := by
  obtain ⟨-, -, -, -, -, -, e0, e1, -⟩ := idx_facts0 t
  unfold iblk0
  rw [View.read_apply]
  show V c main_v1 _ = V c main_v1 _
  congr 1
  funext a
  apply Fin.ext
  match a with
  | ⟨0, _⟩ => show win0_3.index t (0 : Fin 2) * 256 + 1 * (x 0).val = (k 0).val; rw [e0, hk0]; omega
  | ⟨1, _⟩ => show win0_3.index t (1 : Fin 2) * 1 + 1 * (x 1).val = (k 1).val; rw [e1, hk1]; omega

/-! ## The first output: the product, narrowed -/

/-- The whole first output array as a function of the arrays the region finds. -/
abbrev G4 (c : Dev nD) : S4096x256.Idx → EReal :=
  fun i => ∑ k : Fin 512, X V c (ix2 (i 0) k) * Wt V c (ix2 k (i 1))

/-- What point t writes back is block t of that function. -/
theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 (F := Ideal) V c).after 4 t) = _
  rw [after0_4, out0_4_eq]
  obtain ⟨-, -, -, -, -, -, -, -, e0, e1, -⟩ := idx_facts0 t
  funext j
  obtain ⟨y, d, rfl⟩ : ∃ (y : Fin 2048) (d : Fin 256), j = ix2 y d := ⟨j 0, j 1, eq_ix2 j⟩
  show k0_pay2 (iblk0 V c 0 t) (iblk0 V c 1 t) (ix2 y d) = G4 V c (((cfg0.win 4).blk t).view.emb (ix2 y d))
  rw [pay2_apply]
  refine Finset.sum_congr rfl fun k _ => ?_
  rw [iblk0_0_apply V c t (ix2 y k) (ix2 ((((cfg0.win 4).blk t).view.emb (ix2 y d) : S4096x256.Idx) 0) k)
      (by show win0_4.index t (0 : Fin 2) * 2048 + 1 * y.val = 2048 * t.val + y.val; rw [e0]; omega) rfl,
    iblk0_1_apply V c t (ix2 k d) (ix2 k ((((cfg0.win 4).blk t).view.emb (ix2 y d) : S4096x256.Idx) 1)) rfl
      (by show win0_4.index t (1 : Fin 2) * 256 + 1 * d.val = d.val; rw [e1]; omega)]

/-- An index of the array is in point t's block iff each coordinate is in the block's range on its axis. -/
theorem mem_blk4 (t : Fin cfg0.N) (i : S4096x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v2_0).slice (win0_4.rect t)).set ↔ _
  rw [View.set_slice_whole, Rect.mem_set_unit]
  exact Iff.rfl

/-- Every index is in the block of the point its row falls to. -/
theorem cover4 (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 2 := N_0
  obtain ⟨t, ht⟩ : ∃ t : Fin cfg0.N, t.val = (i 0).val / 2048 := ⟨⟨(i 0).val / 2048, by rw [hN]; omega⟩, rfl⟩
  obtain ⟨-, -, -, -, -, -, -, -, e0, e1, -⟩ := idx_facts0 t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; rw [e0, ht]; omega
  | ⟨1, _⟩ => show win0_4.index t (1 : Fin 2) * 256 ≤ (i 1).val ∧ (i 1).val < win0_4.index t (1 : Fin 2) * 256 + 256; rw [e1]; omega

/-- The first output array after the region. -/
theorem arr0_4 (c : Dev nD) : (dat0 (F := Ideal) V c).arrAt 4 cfg0.N = G4 V c :=
  (dat0 (F := Ideal) V c).arrAt_eq_of_cover 4 (G4 V c) (fun t _ => flushed4_eq V c t) cover4

/-! ## The second output: each row of the product against the first column -/

abbrev G5 (c : Dev nD) : S4096x1.Idx → EReal :=
  fun i => ∑ d : Fin 256, (∑ k : Fin 512, X V c (ix2 (i 0) k) * Wt V c (ix2 k d)) * A0 V c (ix2 d (0 : Fin 1))

theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5, out0_5_eq]
  obtain ⟨-, -, -, -, -, -, -, -, -, -, e0, e1, -⟩ := idx_facts0 t
  funext j
  obtain ⟨y, z, rfl⟩ : ∃ (y : Fin 2048) (z : Fin 1), j = ix2 y z := ⟨j 0, j 1, eq_ix2 j⟩
  show k0_pay3 (iblk0 V c 0 t) (iblk0 V c 1 t) (iblk0 V c 2 t) (ix2 y z) = G5 V c (((cfg0.win 5).blk t).view.emb (ix2 y z))
  rw [pay3_apply]
  refine Finset.sum_congr rfl fun d _ => ?_
  rw [iblk0_2_apply V c t (ix2 d z) (ix2 d (0 : Fin 1)) rfl (by have := z.isLt; show (0 : ℕ) = z.val; omega)]
  congr 1
  refine Finset.sum_congr rfl fun k _ => ?_
  rw [iblk0_0_apply V c t (ix2 y k) (ix2 ((((cfg0.win 5).blk t).view.emb (ix2 y z) : S4096x1.Idx) 0) k)
      (by show win0_5.index t (0 : Fin 2) * 2048 + 1 * y.val = 2048 * t.val + y.val; rw [e0]; omega) rfl,
    iblk0_1_apply V c t (ix2 k d) (ix2 k d) rfl rfl]

theorem mem_blk5 (t : Fin cfg0.N) (i : S4096x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v2_1).slice (win0_5.rect t)).set ↔ _
  rw [View.set_slice_whole, Rect.mem_set_unit]
  exact Iff.rfl

theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 2 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1, -⟩ := idx_facts0 t
  refine ⟨t, flush0_5 t, ?_⟩
  rw [mem_blk5]
  intro a
  match a with
  | ⟨0, _⟩ => show win0_5.index t (0 : Fin 2) * 2048 ≤ (i 0).val ∧ (i 0).val < win0_5.index t (0 : Fin 2) * 2048 + 2048; rw [e0, ht]; omega
  | ⟨1, _⟩ => show win0_5.index t (1 : Fin 2) * 1 ≤ (i 1).val ∧ (i 1).val < win0_5.index t (1 : Fin 2) * 1 + 1; rw [e1]; omega

/-- The second output array after the region. -/
theorem arr0_5 (c : Dev nD) : (dat0 (F := Ideal) V c).arrAt 5 cfg0.N = G5 V c :=
  (dat0 (F := Ideal) V c).arrAt_eq_of_cover 5 (G5 V c) (fun t _ => flushed5_eq V c t) cover5

/-! ## The third output: the second column against each row of the product, laid along the columns -/

abbrev G6 (c : Dev nD) : S1x4096.Idx → EReal :=
  fun i => ∑ d : Fin 256, A1 V c (ix2 d (0 : Fin 1)) * (∑ k : Fin 512, X V c (ix2 (i 1) k) * Wt V c (ix2 k d))

theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6, out0_6_eq]
  obtain ⟨-, -, -, -, -, -, -, -, -, -, -, -, e0, e1⟩ := idx_facts0 t
  funext j
  obtain ⟨z, y, rfl⟩ : ∃ (z : Fin 1) (y : Fin 2048), j = ix2 z y := ⟨j 0, j 1, eq_ix2 j⟩
  show k0_pay4 (iblk0 V c 0 t) (iblk0 V c 1 t) (iblk0 V c 3 t) (ix2 z y) = G6 V c (((cfg0.win 6).blk t).view.emb (ix2 z y))
  rw [pay4_apply]
  refine Finset.sum_congr rfl fun d _ => ?_
  rw [iblk0_3_apply V c t (ix2 d z) (ix2 d (0 : Fin 1)) rfl (by have := z.isLt; show (0 : ℕ) = z.val; omega)]
  congr 1
  refine Finset.sum_congr rfl fun k _ => ?_
  rw [iblk0_0_apply V c t (ix2 y k) (ix2 ((((cfg0.win 6).blk t).view.emb (ix2 z y) : S1x4096.Idx) 1) k)
      (by show win0_6.index t (1 : Fin 2) * 2048 + 1 * y.val = 2048 * t.val + y.val; rw [e1]; omega) rfl,
    iblk0_1_apply V c t (ix2 k d) (ix2 k d) rfl rfl]

theorem mem_blk6 (t : Fin cfg0.N) (i : S1x4096.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v2_2).slice (win0_6.rect t)).set ↔ _
  rw [View.set_slice_whole, Rect.mem_set_unit]
  exact Iff.rfl

theorem cover6 (i : S1x4096.Idx) : ∃ t : Fin cfg0.N, (cfg0.win 6).flush t = true ∧ i ∈ ((cfg0.win 6).blk t).view.set := by
  have hi0 : (i 0).val < 1 := (i 0).isLt
  have hi1 : (i 1).val < 4096 := (i 1).isLt
  have hN : cfg0.N = 2 := N_0
  obtain ⟨t, ht⟩ : ∃ t : Fin cfg0.N, t.val = (i 1).val / 2048 := ⟨⟨(i 1).val / 2048, by rw [hN]; omega⟩, rfl⟩
  obtain ⟨-, -, -, -, -, -, -, -, -, -, -, -, e0, e1⟩ := idx_facts0 t
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 2048 ≤ (i 1).val ∧ (i 1).val < win0_6.index t (1 : Fin 2) * 2048 + 2048; rw [e1, ht]; omega

/-- The third output array after the region. -/
theorem arr0_6 (c : Dev nD) : (dat0 (F := Ideal) V c).arrAt 6 cfg0.N = G6 V c :=
  (dat0 (F := Ideal) V c).arrAt_eq_of_cover 6 (G6 V c) (fun t _ => flushed6_eq V c t) cover6

/-! ## The input windows' arrays are never written -/

theorem arr0_0 (c : Dev nD) : (dat0 (F := Ideal) V c).arrAt 0 cfg0.N = V c (Pipeline.arrRef spec0 0) :=
  ((dat0 (F := Ideal) V c).arrAt_in 0 rfl cfg0.N).trans (A_eq0 V c 0)
theorem arr0_1 (c : Dev nD) : (dat0 (F := Ideal) V c).arrAt 1 cfg0.N = V c (Pipeline.arrRef spec0 1) :=
  ((dat0 (F := Ideal) V c).arrAt_in 1 rfl cfg0.N).trans (A_eq0 V c 1)
theorem arr0_2 (c : Dev nD) : (dat0 (F := Ideal) V c).arrAt 2 cfg0.N = V c (Pipeline.arrRef spec0 2) :=
  ((dat0 (F := Ideal) V c).arrAt_in 2 rfl cfg0.N).trans (A_eq0 V c 2)
theorem arr0_3 (c : Dev nD) : (dat0 (F := Ideal) V c).arrAt 3 cfg0.N = V c (Pipeline.arrRef spec0 3) :=
  ((dat0 (F := Ideal) V c).arrAt_in 3 rfl cfg0.N).trans (A_eq0 V c 3)

end Cert.KernelIdeal.Hand

end
-- ==== Proof.KBlocks.lean ====
/-
  The idealized kernel's arrays from the launch memory, boundary by boundary: the two slices of the last argument, the
  first region's three results (the product `h = inp · w`, and the two halves of the attention score, a column and a
  row), and the second region's input blocks at a grid point read off those arrays: row tile `t / 8` of 1024 rows
  against column tile `t % 8` of 512 columns.
-/
import proofs.«413735_j62706522522384_4_alg».proof.Proof.KI.Run
import proofs.«413735_j62706522522384_4_alg».proof.Proof.KI.Value0
import proofs.«413735_j62706522522384_4_alg».proof.Proof.KI.Fold1
import proofs.«413735_j62706522522384_4_alg».proof.Proof.KNames
import proofs.«413735_j62706522522384_4_alg».proof.Proof.Pay1
import proofs.«413735_j62706522522384_4_alg».proof.Proof.Tiles
import proofs.«413735_j62706522522384_4_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Tiles Cert.Online
open scoped BigOperators

/-! ## The index maps of the second region, decided once over the grid -/

/-- Grid point `t` is row tile `t / 8`, column tile `t % 8`: the value rows follow the column tile, the adjacency block
    both, the first score column the row tile, the second score row the column tile, the output the row tile. -/
theorem idx_facts1 : ∀ t : Fin cfg1.N,
    win1_0.index t (0 : Fin 2) = t.val % 8 ∧ win1_0.index t (1 : Fin 2) = 0
    ∧ win1_1.index t (0 : Fin 2) = t.val / 8 ∧ win1_1.index t (1 : Fin 2) = t.val % 8
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

/-- The row tile and the column tile of a grid point. -/
abbrev qt (t : Fin cfg1.N) : Fin 4 := qi t.val (lt_of_lt_of_eq t.isLt N_1)
abbrev kt (t : Fin cfg1.N) : Fin 8 := ki t.val (lt_of_lt_of_eq t.isLt N_1)

/-! ## The second region's input blocks, at an index, off any arrays -/

section Blocks
variable (V : (c : Dev nD) → (b : Ref sig .tc) → Buf (Elt Ideal) ((c : Thread nD τ).loc b)) (c : Dev nD)

/-- The value block at a point is the column tile's 512 rows of the first region's product. -/
theorem iblk1_0_apply (t : Fin cfg1.N) (z : Fin 512) (d : Fin 256) :
    (iblk1 V c 0 t : Vec Ideal S512x256 .bf16) (ix2 z d) = V c main_v2_0 (ix2 (col (kt t) z) d) := by
  obtain ⟨e0, e1, -⟩ := idx_facts1 t
  unfold iblk1
  rw [View.read_apply]
  show V c main_v2_0 _ = V c main_v2_0 _
  congr 1
  funext a
  apply Fin.ext
  match a with
  | ⟨0, _⟩ => show win1_0.index t (0 : Fin 2) * 512 + 1 * z.val = 512 * (t.val % 8) + z.val; rw [e0]; omega
  | ⟨1, _⟩ => show win1_0.index t (1 : Fin 2) * 256 + 1 * d.val = d.val; rw [e1]; omega

/-- The adjacency block at a point is the row tile's rows against the column tile's columns. -/
theorem iblk1_1_apply (t : Fin cfg1.N) (y : Fin 1024) (z : Fin 512) :
    (iblk1 V c 1 t : Vec Ideal S1024x512 .i32) (ix2 y z) = V c main_arg1 (ix2 (row (qt t) y) (col (kt t) z)) := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t (0 : Fin 2) * 1024 + 1 * y.val = 1024 * (t.val / 8) + y.val; rw [e0]; omega
  | ⟨1, _⟩ => show win1_1.index t (1 : Fin 2) * 512 + 1 * z.val = 512 * (t.val % 8) + z.val; rw [e1]; omega

/-- The first score block at a point is the row tile's entries of the score column. -/
theorem iblk1_2_apply (t : Fin cfg1.N) (y : Fin 1024) :
    (iblk1 V c 2 t : Vec Ideal S1024x1 .f32) (ix2 y (0 : Fin 1)) = V c main_v2_1 (ix2 (row (qt t) y) (0 : Fin 1)) := by
  obtain ⟨-, -, -, -, e0, e1, -⟩ := idx_facts1 t
  unfold iblk1
  rw [View.read_apply]
  show V c main_v2_1 _ = V c main_v2_1 _
  congr 1
  funext a
  apply Fin.ext
  match a with
  | ⟨0, _⟩ => show win1_2.index t (0 : Fin 2) * 1024 + 1 * y.val = 1024 * (t.val / 8) + y.val; rw [e0]; omega
  | ⟨1, _⟩ => show win1_2.index t (1 : Fin 2) * 1 + 1 * 0 = 0; rw [e1]

/-- The second score block at a point is the column tile's entries of the score row. -/
theorem iblk1_3_apply (t : Fin cfg1.N) (z : Fin 512) :
    (iblk1 V c 3 t : Vec Ideal S1x512 .f32) (ix2 (0 : Fin 1) z) = V c main_v2_2 (ix2 (0 : Fin 1) (col (kt t) z)) := by
  obtain ⟨-, -, -, -, -, -, e0, e1, -⟩ := idx_facts1 t
  unfold iblk1
  rw [View.read_apply]
  show V c main_v2_2 _ = V c main_v2_2 _
  congr 1
  funext a
  apply Fin.ext
  match a with
  | ⟨0, _⟩ => show win1_3.index t (0 : Fin 2) * 1 + 1 * 0 = 0; rw [e0]
  | ⟨1, _⟩ => show win1_3.index t (1 : Fin 2) * 512 + 1 * z.val = 512 * (t.val % 8) + z.val; rw [e1]; omega

end Blocks

/-! ## The arrays at the boundaries, from the launch memory -/

section Launch
variable (m : (ℓ : Loc nD τ sig) → Buf (Elt Ideal) ℓ) (c : Dev nD)

/-! ### After the two slices -/

theorem V1_main_arg0 : V1 m c main_arg0 = m ((c : Thread nD τ).loc main_arg0) := W1_of m c main_arg0 (by decide)
theorem V1_main_arg1 : V1 m c main_arg1 = m ((c : Thread nD τ).loc main_arg1) := W1_of m c main_arg1 (by decide)
theorem V1_main_arg2 : V1 m c main_arg2 = m ((c : Thread nD τ).loc main_arg2) := W1_of m c main_arg2 (by decide)

/-- The first slice holds the first 256 entries of the last argument. -/
theorem V1_main_v0 :
    V1 m c main_v0 = fun i : S256x1.Idx =>
      (m ((c : Thread nD τ).loc main_arg3) : S512x1.Idx → EReal) (ix2 (⟨(i 0).val, by have := idx2_lt0 i; omega⟩ : Fin 512) (0 : Fin 1)) := by
  have h : V1 m c main_v0
      = extractStridedSlice S256x1 ![0, 0] (m ((c : Thread nD τ).loc main_arg3)) slices_S512x1_S256x1_0_0 := by
    dsimp only [V1, W1, hostOps0]; after_results
  rw [h]
  funext i
  exact extractStridedSlice_apply _ _ _ i _ (fun a => match a with
    | ⟨0, _⟩ => by show (i 0).val = 0 + (i 0).val; omega
    | ⟨1, _⟩ => by show 0 = 0 + (i 1).val; have := idx2_lt1 i; omega)

/-- The second slice holds the last 256 entries of the last argument. -/
theorem V1_main_v1 :
    V1 m c main_v1 = fun i : S256x1.Idx =>
      (m ((c : Thread nD τ).loc main_arg3) : S512x1.Idx → EReal) (ix2 (⟨256 + (i 0).val, by have := idx2_lt0 i; omega⟩ : Fin 512) (0 : Fin 1)) := by
  have h : V1 m c main_v1
      = extractStridedSlice S256x1 ![256, 0] (m ((c : Thread nD τ).loc main_arg3)) slices_S512x1_S256x1_256_0 := by
    dsimp only [V1, W1, hostOps0]; after_results
  rw [h]
  funext i
  exact extractStridedSlice_apply _ _ _ i _ (fun a => match a with
    | ⟨0, _⟩ => rfl
    | ⟨1, _⟩ => by show 0 = 0 + (i 1).val; have := idx2_lt1 i; omega)

/-! ### After the first region -/

/-- The first region leaves the product `h = inp · w`. -/
theorem V2_main_v2_0 : V2 m c main_v2_0 = fun i : S4096x256.Idx => Hm m c (i 0) (i 1) := by
  have h : V2 m c main_v2_0 = G4 (V1 m) c := (W2_arr m c 4).trans (arr0_4 (V1 m) c)
  have hX : X (V1 m) c = (m ((c : Thread nD τ).loc main_arg0) : S4096x512.Idx → EReal) := V1_main_arg0 m c
  have hW : Wt (V1 m) c = (m ((c : Thread nD τ).loc main_arg2) : S512x256.Idx → EReal) := V1_main_arg2 m c
  rw [h]
  funext i
  show ∑ k : Fin 512, X (V1 m) c (ix2 (i 0) k) * Wt (V1 m) c (ix2 k (i 1)) = _
  rw [hX, hW]
  rfl

/-- … the source half of the score, a column: each row of `h` against the first 256 entries of `a`. -/
theorem V2_main_v2_1 : V2 m c main_v2_1 = fun i : S4096x1.Idx => Cert.Spec.s1 (Hm m c) (aA m c) (i 0) := by
  have h : V2 m c main_v2_1 = G5 (V1 m) c := (W2_arr m c 5).trans (arr0_5 (V1 m) c)
  have hX : X (V1 m) c = (m ((c : Thread nD τ).loc main_arg0) : S4096x512.Idx → EReal) := V1_main_arg0 m c
  have hW : Wt (V1 m) c = (m ((c : Thread nD τ).loc main_arg2) : S512x256.Idx → EReal) := V1_main_arg2 m c
  have hA : A0 (V1 m) c = _ := V1_main_v0 m c
  rw [h]
  funext i
  show ∑ d : Fin 256, (∑ k : Fin 512, X (V1 m) c (ix2 (i 0) k) * Wt (V1 m) c (ix2 k d)) * A0 (V1 m) c (ix2 d (0 : Fin 1)) = _
  rw [hX, hW, hA]
  rfl

/-- … and the target half, a row: the last 256 entries of `a` against each row of `h`. -/
theorem V2_main_v2_2 : V2 m c main_v2_2 = fun i : S1x4096.Idx => Cert.Spec.s2 (Hm m c) (aA m c) (i 1) := by
  have h : V2 m c main_v2_2 = G6 (V1 m) c := (W2_arr m c 6).trans (arr0_6 (V1 m) c)
  have hX : X (V1 m) c = (m ((c : Thread nD τ).loc main_arg0) : S4096x512.Idx → EReal) := V1_main_arg0 m c
  have hW : Wt (V1 m) c = (m ((c : Thread nD τ).loc main_arg2) : S512x256.Idx → EReal) := V1_main_arg2 m c
  have hA : A1 (V1 m) c = _ := V1_main_v1 m c
  rw [h]
  funext i
  show ∑ d : Fin 256, A1 (V1 m) c (ix2 d (0 : Fin 1)) * (∑ k : Fin 512, X (V1 m) c (ix2 (i 1) k) * Wt (V1 m) c (ix2 k d)) = _
  rw [hX, hW, hA]
  unfold Cert.Spec.s2
  exact Finset.sum_congr rfl fun d _ => mul_comm _ _

/-- The adjacency argument passes through the first region. -/
theorem V2_main_arg1 : V2 m c main_arg1 = m ((c : Thread nD τ).loc main_arg1) :=
  (W2_of_ne m c main_arg1 (by decide)).trans (W1_of m c main_arg1 (by decide))

/-! ### What the second region's blocks hold -/

/-- The value block at a point is the column tile's rows of `h`. -/
theorem blocks_hk (t : Fin cfg1.N) (z : Fin 512) (d : Fin 256) :
    (iblk1 (V2 m) c 0 t : Vec Ideal S512x256 .bf16) (ix2 z d)
      = Hm m c (col (ki t.val (lt_of_lt_of_eq t.isLt N_1)) z) d := by
  rw [iblk1_0_apply, V2_main_v2_0]

/-- The tile's masked logits at a point are the masked logits of the row tile's rows against the column tile's columns. -/
theorem blocks_lg (t : Fin cfg1.N) (y : Fin 1024) (z : Fin 512) :
    k1_pay9 (F := Ideal) (iblk1 (V2 m) c 2 t) (iblk1 (V2 m) c 3 t) (iblk1 (V2 m) c 1 t) (ix2 y z)
      = lgA m c (row (qi t.val (lt_of_lt_of_eq t.isLt N_1)) y) (col (ki t.val (lt_of_lt_of_eq t.isLt N_1)) z) := by
  rw [Cert.KernelIdeal.Pay.pay9_apply, iblk1_1_apply, iblk1_2_apply, iblk1_3_apply, V2_main_arg1, V2_main_v2_1,
    V2_main_v2_2]
  rfl

/-- What the second region's input blocks hold: the value block the column tile's rows of `h`, the tile's masked
    logits the entries of the masked logits. -/
theorem blocksAre : BlocksAre (V2 m) c (lgA m c) (Hm m c) := ⟨blocks_hk m c, blocks_lg m c⟩

end Launch

end Cert.KernelIdeal.Hand

end
-- ==== Proof.KValue.lean ====
/- The second region's output array is the specification's result array. Window 4 of the attention kernel's
   pipeline moves down the rows with the row tile (block index (t / 8, 0), blocks of 1024 rows by 256 columns) and
   writes back at each row tile's last point; what such a point writes back is its block of the result function,
   entry by entry; and array row r lies in the block of the last point 8 (r / 1024) + 7 of its row tile. -/
import proofs.«413735_j62706522522384_4_alg».proof.Proof.KI.Run
import proofs.«413735_j62706522522384_4_alg».proof.Proof.KNames
import proofs.«413735_j62706522522384_4_alg».proof.Proof.Tiles
import proofs.«413735_j62706522522384_4_alg».proof.Proof.SpecReal
import proofs.«413735_j62706522522384_4_alg».proof.Proof.KI.Fold1
import proofs.«413735_j62706522522384_4_alg».proof.Proof.KBlocks
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Tiles
open scoped BigOperators

/-! ## Window 4's index map, decided once over the grid -/

/-- The output window's block index at a point is its row tile on the rows and zero on the columns. -/
theorem idx_facts1_4 : ∀ t : Fin cfg1.N, win1_4.index t (0 : Fin 2) = t.val / 8 ∧ win1_4.index t (1 : Fin 2) = 0 :=
  (by decide +kernel : ∀ t : Fin grid1.N, _)

/-- An index of the array is in point t's block iff each coordinate is in the block's range on its axis. -/
theorem mem_blk1_4 (t : Fin cfg1.N) (i : S4096x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v3).slice (win1_4.rect t)).set ↔ _
  rw [View.set_slice_whole, Rect.mem_set_unit]
  exact Iff.rfl

/-- Every index is in the block of the last point of its row tile, and that point writes back. -/
theorem cover1_4 (i : S4096x256.Idx) : ∃ t : Fin cfg1.N, (cfg1.win 4).flush t = true ∧ i ∈ ((cfg1.win 4).blk t).view.set := by
  have hi0 : (i 0).val < 4096 := (i 0).isLt
  have hi1 : (i 1).val < 256 := (i 1).isLt
  have hN : cfg1.N = 32 := N_1
  obtain ⟨t, ht⟩ : ∃ t : Fin cfg1.N, t.val = 8 * ((i 0).val / 1024) + 7 := ⟨⟨8 * ((i 0).val / 1024) + 7, by rw [hN]; omega⟩, rfl⟩
  obtain ⟨e0, e1⟩ := idx_facts1_4 t
  refine ⟨t, (flush1_4 t).mpr (by rw [ht]; omega), ?_⟩
  rw [mem_blk1_4]
  intro a
  match a with
  | ⟨0, _⟩ => show win1_4.index t (0 : Fin 2) * 1024 ≤ (i 0).val ∧ (i 0).val < win1_4.index t (0 : Fin 2) * 1024 + 1024; rw [e0, ht]; omega
  | ⟨1, _⟩ => show win1_4.index t (1 : Fin 2) * 256 ≤ (i 1).val ∧ (i 1).val < win1_4.index t (1 : Fin 2) * 256 + 256; rw [e1]; omega

section Assembly
variable (m : (ℓ : Loc nD τ sig) → Buf (Elt Ideal) ℓ) (c : Dev nD)

/-- What the array's value needs of the second region's body: at a row tile's last point the output block holds the
    specification's result at the tile's rows. -/
def OutLast : Prop :=
  ∀ (t : Fin cfg1.N), t.val % 8 = 7 → ∀ (y : Fin 1024) (d : Fin 256),
    (outsAt1 (F := Ideal) (V2 m) c t.val t.isLt).1 (ix2 y d)
      = Cert.Spec.G (inpA m c) (adjA m c) (wA m c) (aA m c) (row (qi t.val (lt_of_lt_of_eq t.isLt N_1)) y) d

/-- What a point that writes back writes is its block of the specification's result array. -/
theorem flushed1_4_eq (hout : OutLast m c) (t : Fin cfg1.N) (hf : (cfg1.win 4).flush t = true) :
    (dat1 (F := Ideal) (V2 m) c).flushed 4 t = ((cfg1.win 4).blk t).view.read (Elt Ideal)
      (Cert.Spec.GA (m ((c : Thread nD τ).loc main_arg0)) (m ((c : Thread nD τ).loc main_arg1)) (m ((c : Thread nD τ).loc main_arg2)) (m ((c : Thread nD τ).loc main_arg3))) := by
  have h7 : t.val % 8 = 7 := (flush1_4 t).mp hf
  show (cfg1.win 4).cut (grid1.coords t) ((dat1 (F := Ideal) (V2 m) c).after 4 t) = _
  rw [after1_4, GA_eq]
  obtain ⟨e0, e1⟩ := idx_facts1_4 t
  funext j
  obtain ⟨y, d, rfl⟩ : ∃ (y : Fin 1024) (d : Fin 256), j = ix2 y d := ⟨j 0, j 1, eq_ix2 j⟩
  show (outsAt1 (F := Ideal) (V2 m) c t.val t.isLt).1 (ix2 y d)
    = Cert.Spec.G (inpA m c) (adjA m c) (wA m c) (aA m c)
        ((((cfg1.win 4).blk t).view.emb (ix2 y d) : S4096x256.Idx) 0) ((((cfg1.win 4).blk t).view.emb (ix2 y d) : S4096x256.Idx) 1)
  rw [hout t h7 y d]
  have hr : row (qi t.val (lt_of_lt_of_eq t.isLt N_1)) y = (((cfg1.win 4).blk t).view.emb (ix2 y d) : S4096x256.Idx) 0 :=
    Fin.ext (by show 1024 * (t.val / 8) + y.val = win1_4.index t (0 : Fin 2) * 1024 + 1 * y.val; rw [e0]; omega)
  have hd : d = (((cfg1.win 4).blk t).view.emb (ix2 y d) : S4096x256.Idx) 1 :=
    Fin.ext (by show d.val = win1_4.index t (1 : Fin 2) * 256 + 1 * d.val; rw [e1]; omega)
  exact congrArg₂ (Cert.Spec.G (inpA m c) (adjA m c) (wA m c) (aA m c)) hr hd

/-- The second region's output array is the specification's result array, given the body's last point. -/
theorem kout_eq_of (hout : OutLast m c) :
    kout (F := Ideal) m c = Cert.Spec.GA (m ((c : Thread nD τ).loc main_arg0)) (m ((c : Thread nD τ).loc main_arg1)) (m ((c : Thread nD τ).loc main_arg2)) (m ((c : Thread nD τ).loc main_arg3)) :=
  (dat1 (F := Ideal) (V2 m) c).arrAt_eq_of_cover 4 _ (fun t hf => flushed1_4_eq m c hout t hf) cover1_4

/-- The argument arrays' entries are real numbers, read by coordinates. -/
theorem inpA_real (h0 : ∀ i, ∃ r : ℝ, m ((c : Thread nD τ).loc main_arg0) i = (r : EReal)) (r : Fin 4096) (k : Fin 512) :
    ∃ x : ℝ, inpA m c r k = (x : EReal) := h0 (ix2 r k)
theorem wA_real (h2 : ∀ i, ∃ r : ℝ, m ((c : Thread nD τ).loc main_arg2) i = (r : EReal)) (k : Fin 512) (d : Fin 256) :
    ∃ x : ℝ, wA m c k d = (x : EReal) := h2 (ix2 k d)
theorem aA_real (h3 : ∀ i, ∃ r : ℝ, m ((c : Thread nD τ).loc main_arg3) i = (r : EReal)) (k : Fin 512) :
    ∃ x : ℝ, aA m c k = (x : EReal) := h3 (ix2 k (0 : Fin 1))
/-- So the product matrix and the masked logits are real. -/
theorem Hm_real (h0 : ∀ i, ∃ r : ℝ, m ((c : Thread nD τ).loc main_arg0) i = (r : EReal))
    (h2 : ∀ i, ∃ r : ℝ, m ((c : Thread nD τ).loc main_arg2) i = (r : EReal)) (r : Fin 4096) (d : Fin 256) :
    ∃ x : ℝ, Hm m c r d = (x : EReal) :=
  Cert.Spec.H_real (inpA m c) (wA m c) (inpA_real m c h0) (wA_real m c h2) r d
theorem lgA_real (h0 : ∀ i, ∃ r : ℝ, m ((c : Thread nD τ).loc main_arg0) i = (r : EReal))
    (h2 : ∀ i, ∃ r : ℝ, m ((c : Thread nD τ).loc main_arg2) i = (r : EReal))
    (h3 : ∀ i, ∃ r : ℝ, m ((c : Thread nD τ).loc main_arg3) i = (r : EReal)) (r j : Fin 4096) :
    ∃ x : ℝ, lgA m c r j = (x : EReal) :=
  Cert.Spec.logit_real (adjA m c) (Hm m c) (aA m c) (Hm_real m c h0 h2) (aA_real m c h3) r j

/-- The body's last point, from what the input blocks hold: the softmax-weighted sum through the exponential linear
    unit is the specification's result, by its definition. -/
theorem outLast_of_blocks (hB : BlocksAre (V2 m) c (lgA m c) (Hm m c))
    (h0 : ∀ i, ∃ r : ℝ, m ((c : Thread nD τ).loc main_arg0) i = (r : EReal))
    (h2 : ∀ i, ∃ r : ℝ, m ((c : Thread nD τ).loc main_arg2) i = (r : EReal))
    (h3 : ∀ i, ∃ r : ℝ, m ((c : Thread nD τ).loc main_arg3) i = (r : EReal)) : OutLast m c := by
  intro t h7 y d
  rw [out_last (V2 m) c (lgA m c) (Hm m c) hB t h7 y d (fun j => lgA_real m c h0 h2 h3 _ j) (fun j => Hm_real m c h0 h2 j d)]
  unfold Cert.Spec.G
  rfl

/-- The second region's output array is the specification's result array, given what the input blocks hold. -/
theorem kout_eq_of_blocks (hB : BlocksAre (V2 m) c (lgA m c) (Hm m c))
    (h0 : ∀ i, ∃ r : ℝ, m ((c : Thread nD τ).loc main_arg0) i = (r : EReal))
    (h2 : ∀ i, ∃ r : ℝ, m ((c : Thread nD τ).loc main_arg2) i = (r : EReal))
    (h3 : ∀ i, ∃ r : ℝ, m ((c : Thread nD τ).loc main_arg3) i = (r : EReal)) :
    kout (F := Ideal) m c = Cert.Spec.GA (m ((c : Thread nD τ).loc main_arg0)) (m ((c : Thread nD τ).loc main_arg1)) (m ((c : Thread nD τ).loc main_arg2)) (m ((c : Thread nD τ).loc main_arg3)) :=
  kout_eq_of m c (outLast_of_blocks m c hB h0 h2 h3)

/-- The second region's output array is the specification's result array. -/
theorem kout_eq (h0 : ∀ i, ∃ r : ℝ, m ((c : Thread nD τ).loc main_arg0) i = (r : EReal))
    (h2 : ∀ i, ∃ r : ℝ, m ((c : Thread nD τ).loc main_arg2) i = (r : EReal))
    (h3 : ∀ i, ∃ r : ℝ, m ((c : Thread nD τ).loc main_arg3) i = (r : EReal)) :
    kout (F := Ideal) m c = Cert.Spec.GA (m ((c : Thread nD τ).loc main_arg0)) (m ((c : Thread nD τ).loc main_arg1)) (m ((c : Thread nD τ).loc main_arg2)) (m ((c : Thread nD τ).loc main_arg3)) :=
  kout_eq_of_blocks m c (blocksAre m c) h0 h2 h3

end Assembly

end Cert.KernelIdeal.Hand

end
-- ==== Proof.RefOps.lean ====
/-
  The reference program's host operations as one list, the module-local functions' operations written at their call
  sites over the calls' buffers, and the composed value of the operations that feed the result, in named stages.
-/
import proofs.«413735_j62706522522384_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- `h = inp · w`. -/
def val_v0 (x0 : (⟨S4096x512, .f32⟩ : BufTy).Contents (Elt F)) (x2 : (⟨S512x256, .f32⟩ : BufTy).Contents (Elt F)) : (⟨S4096x256, .f32⟩ : BufTy).Contents (Elt F) :=
  Host.dotGeneral dot_S4096x512_S512x256_S4096x256_1_0_0_1_n_n none x0 x2
/-- The first 256 entries of `a`. -/
def val_v1 (x3 : (⟨S512x1, .f32⟩ : BufTy).Contents (Elt F)) : (⟨S256x1, .f32⟩ : BufTy).Contents (Elt F) :=
  extractStridedSlice S256x1 ![0, 0] x3 slices_S512x1_S256x1_0_0
/-- The last 256 entries of `a`. -/
def val_v2 (x3 : (⟨S512x1, .f32⟩ : BufTy).Contents (Elt F)) : (⟨S256x1, .f32⟩ : BufTy).Contents (Elt F) :=
  extractStridedSlice S256x1 ![256, 0] x3 slices_S512x1_S256x1_256_0
/-- `h · a₁`, a column. -/
def val_v3 (x0 : (⟨S4096x512, .f32⟩ : BufTy).Contents (Elt F)) (x2 : (⟨S512x256, .f32⟩ : BufTy).Contents (Elt F)) (x3 : (⟨S512x1, .f32⟩ : BufTy).Contents (Elt F)) : (⟨S4096x1, .f32⟩ : BufTy).Contents (Elt F) :=
  Host.dotGeneral dot_S4096x256_S256x1_S4096x1_1_0_0_1_n_n none (val_v0 x0 x2) (val_v1 x3)
/-- `h · a₂`, a column. -/
def val_v4 (x0 : (⟨S4096x512, .f32⟩ : BufTy).Contents (Elt F)) (x2 : (⟨S512x256, .f32⟩ : BufTy).Contents (Elt F)) (x3 : (⟨S512x1, .f32⟩ : BufTy).Contents (Elt F)) : (⟨S4096x1, .f32⟩ : BufTy).Contents (Elt F) :=
  Host.dotGeneral dot_S4096x256_S256x1_S4096x1_1_0_0_1_n_n none (val_v0 x0 x2) (val_v2 x3)
/-- `h · a₂` as a row. -/
def val_v5 (x0 : (⟨S4096x512, .f32⟩ : BufTy).Contents (Elt F)) (x2 : (⟨S512x256, .f32⟩ : BufTy).Contents (Elt F)) (x3 : (⟨S512x1, .f32⟩ : BufTy).Contents (Elt F)) : (⟨S1x4096, .f32⟩ : BufTy).Contents (Elt F) :=
  transpose S1x4096 [1, 0] (val_v4 x0 x2 x3) transposes_S4096x1_S1x4096_1_0
/-- The scores `(h · a₁) r + (h · a₂) j`. -/
def val_v8 (x0 : (⟨S4096x512, .f32⟩ : BufTy).Contents (Elt F)) (x2 : (⟨S512x256, .f32⟩ : BufTy).Contents (Elt F)) (x3 : (⟨S512x1, .f32⟩ : BufTy).Contents (Elt F)) : (⟨S4096x4096, .f32⟩ : BufTy).Contents (Elt F) :=
  addf (broadcastInDim S4096x4096 ![0, 1] bcast_S4096x1_S4096x4096_0_1 (val_v3 x0 x2 x3))
    (broadcastInDim S4096x4096 ![0, 1] bcast_S1x4096_S4096x4096_0_1 (val_v5 x0 x2 x3))
/-- The leaky rectifier of the scores. -/
def val_v13 (x0 : (⟨S4096x512, .f32⟩ : BufTy).Contents (Elt F)) (x2 : (⟨S512x256, .f32⟩ : BufTy).Contents (Elt F)) (x3 : (⟨S512x1, .f32⟩ : BufTy).Contents (Elt F)) : (⟨S4096x4096, .f32⟩ : BufTy).Contents (Elt F) :=
  select (cmpf .ogt (val_v8 x0 x2 x3) (broadcastInDim S4096x4096 ![] bcast_S_S4096x4096 (constant S_ .f32 0x00000000#32)))
    (val_v8 x0 x2 x3)
    (mulf (broadcastInDim S4096x4096 ![] bcast_S_S4096x4096 (constant S_ .f32 0x3E4CCCCD#32)) (val_v8 x0 x2 x3))
/-- The masked logits: the rectified score where the adjacency word is positive, the large negative constant elsewhere. -/
def val_v16 (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096x4096, .f32⟩ : BufTy).Contents (Elt F) :=
  select (cmpi .sgt x1 (broadcastInDim S4096x4096 ![] bcast_S_S4096x4096 (constantI S_ 32 0#32)))
    (val_v13 x0 x2 x3)
    (broadcastInDim S4096x4096 ![] bcast_S_S4096x4096 (constant S_ .f32 0xD368D4A5#32))
/-- The row maxima of the logits. -/
def val_v31 (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096, .f32⟩ : BufTy).Contents (Elt F) :=
  maximumf (broadcastInDim S4096 ![] bcast_S_S4096 (constant S_ .f32 0xFF800000#32))
    (Host.reduce FloatOps.maximumf (val_v16 x0 x1 x2 x3) (constant S_ .f32 0xFF800000#32) reducesTo_S4096x4096_S4096_d1 h_S_)
/-- The shifted exponentials. -/
def val_v35 (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096x4096, .f32⟩ : BufTy).Contents (Elt F) :=
  Host.exp (subf (val_v16 x0 x1 x2 x3)
    (broadcastInDim S4096x4096 ![0, 1] bcast_S4096x1_S4096x4096_0_1
      (broadcastInDim S4096x1 ![0] bcast_S4096_S4096x1_0 (val_v31 x0 x1 x2 x3))))
/-- The row sums of the shifted exponentials. -/
def val_v36 (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096, .f32⟩ : BufTy).Contents (Elt F) :=
  Host.reduceAdd (val_v35 x0 x1 x2 x3) (constant S_ .f32 0x00000000#32) reducesTo_S4096x4096_S4096_d1 h_S_
/-- The softmax weights. -/
def val_v39 (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096x4096, .f32⟩ : BufTy).Contents (Elt F) :=
  Host.divf (val_v35 x0 x1 x2 x3)
    (broadcastInDim S4096x4096 ![0, 1] bcast_S4096x1_S4096x4096_0_1
      (broadcastInDim S4096x1 ![0] bcast_S4096_S4096x1_0 (val_v36 x0 x1 x2 x3)))
/-- The weighted sums of the rows of `h`. -/
def val_v40 (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096x256, .f32⟩ : BufTy).Contents (Elt F) :=
  Host.dotGeneral dot_S4096x4096_S4096x256_S4096x256_1_0_0_1_n_n none (val_v39 x0 x1 x2 x3) (val_v0 x0 x2)
/-- Where an array is positive. -/
def val_pos (y : (⟨S4096x256, .f32⟩ : BufTy).Contents (Elt F)) : (⟨S4096x256, .i1⟩ : BufTy).Contents (Elt F) :=
  cmpf .ogt y (broadcastInDim S4096x256 ![] bcast_S_S4096x256 (constant S_ .f32 0x00000000#32))
/-- The exponential linear unit of an array, as the program computes it. -/
def val_elu (y : (⟨S4096x256, .f32⟩ : BufTy).Contents (Elt F)) : (⟨S4096x256, .f32⟩ : BufTy).Contents (Elt F) :=
  select (val_pos y) y
    (mulf (broadcastInDim S4096x256 ![] bcast_S_S4096x256 (constant S_ .f32 0x3F800000#32))
      (Host.expm1 (select (val_pos y) (broadcastInDim S4096x256 ![] bcast_S_S4096x256 (id (constant S_ .f32 0x00000000#32))) y)))
/-- The result as a function of the four arguments. -/
def refTerm (x0 : (⟨S4096x512, .f32⟩ : BufTy).Contents (Elt F)) (x1 : (⟨S4096x4096, .i32⟩ : BufTy).Contents (Elt F)) (x2 : (⟨S512x256, .f32⟩ : BufTy).Contents (Elt F)) (x3 : (⟨S512x1, .f32⟩ : BufTy).Contents (Elt F)) : (⟨S4096x256, .f32⟩ : BufTy).Contents (Elt F) :=
  val_elu (val_v40 x0 x1 x2 x3)

/-! ## The operations -/

/-- @main's 67 operations in order: its own forty-nine, the select of the first `where`, the broadcast and select
    of the second, and the fifteen of the exponential linear unit (its two inner selects among them). -/
abbrev ops : List (HloOp τ sig (Elt F)) :=
  [ binary main_arg0 main_arg2 main_v0 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg3 main_v1 ((extractStridedSlice S256x1 ![0, 0] · slices_S512x1_S256x1_0_0) : (⟨S512x1, .f32⟩ : BufTy).Contents (Elt F) → (⟨S256x1, .f32⟩ : BufTy).Contents (Elt F)),
    unary main_arg3 main_v2 ((extractStridedSlice S256x1 ![256, 0] · slices_S512x1_S256x1_256_0) : (⟨S512x1, .f32⟩ : BufTy).Contents (Elt F) → (⟨S256x1, .f32⟩ : BufTy).Contents (Elt F)),
    binary main_v0 main_v1 main_v3 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v0 main_v2 main_v4 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v4 main_v5 ((transpose S1x4096 [1, 0] · transposes_S4096x1_S1x4096_1_0) : (⟨S4096x1, .f32⟩ : BufTy).Contents (Elt F) → (⟨S1x4096, .f32⟩ : BufTy).Contents (Elt F)),
    unary main_v3 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    unary main_cst main_v9 (broadcastInDim S4096x4096 ![] bcast_S_S4096x4096 : (⟨S_, .f32⟩ : BufTy).Contents (Elt F) → (⟨S4096x4096, .f32⟩ : BufTy).Contents (Elt F)),
    binary main_v8 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    nullary main_cst_0 (constant S_ .f32 0x3E4CCCCD#32),
    unary main_cst_0 main_v11 (broadcastInDim S4096x4096 ![] bcast_S_S4096x4096 : (⟨S_, .f32⟩ : BufTy).Contents (Elt F) → (⟨S4096x4096, .f32⟩ : BufTy).Contents (Elt F)),
    binary main_v11 main_v8 main_v12 (mulf : (⟨S4096x4096, .f32⟩ : BufTy).Contents (Elt F) → (⟨S4096x4096, .f32⟩ : BufTy).Contents (Elt F) → (⟨S4096x4096, .f32⟩ : BufTy).Contents (Elt F)),
    ternary main_v10 main_v8 main_v12 main_v13 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_c (constantI S_ 32 0#32),
    unary main_c main_v14 (broadcastInDim S4096x4096 ![] bcast_S_S4096x4096 : (⟨S_, .i32⟩ : BufTy).Contents (Elt F) → (⟨S4096x4096, .i32⟩ : BufTy).Contents (Elt F)),
    binary main_arg1 main_v14 main_v15 (cmpi .sgt : (⟨S4096x4096, .i32⟩ : BufTy).Contents (Elt F) → (⟨S4096x4096, .i32⟩ : BufTy).Contents (Elt F) → (⟨S4096x4096, .i1⟩ : BufTy).Contents (Elt F)),
    nullary main_cst_1 (constant S_ .f32 0xD368D4A5#32),
    unary main_cst_1 main_call1_v0 (broadcastInDim S4096x4096 ![] bcast_S_S4096x4096 : (⟨S_, .f32⟩ : BufTy).Contents (Elt F) → (⟨S4096x4096, .f32⟩ : BufTy).Contents (Elt F)),
    ternary main_v15 main_v13 main_call1_v0 main_v16 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    binary main_v13 main_v13 main_v17 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x3DB851EC#32),
    unary main_cst_2 main_v18 (broadcastInDim S4096x4096 ![] bcast_S_S4096x4096 : (⟨S_, .f32⟩ : BufTy).Contents (Elt F) → (⟨S4096x4096, .f32⟩ : BufTy).Contents (Elt F)),
    binary main_v17 main_v18 main_v19 (mulf : (⟨S4096x4096, .f32⟩ : BufTy).Contents (Elt F) → (⟨S4096x4096, .f32⟩ : BufTy).Contents (Elt F) → (⟨S4096x4096, .f32⟩ : BufTy).Contents (Elt F)),
    binary main_v13 main_v19 main_v20 (addf : (⟨S4096x4096, .f32⟩ : BufTy).Contents (Elt F) → (⟨S4096x4096, .f32⟩ : BufTy).Contents (Elt F) → (⟨S4096x4096, .f32⟩ : BufTy).Contents (Elt F)),
    binary main_v17 main_v13 main_v21 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x3DA5E354#32),
    unary main_cst_3 main_v22 (broadcastInDim S4096x4096 ![] bcast_S_S4096x4096 : (⟨S_, .f32⟩ : BufTy).Contents (Elt F) → (⟨S4096x4096, .f32⟩ : BufTy).Contents (Elt F)),
    binary main_v21 main_v22 main_v23 (mulf : (⟨S4096x4096, .f32⟩ : BufTy).Contents (Elt F) → (⟨S4096x4096, .f32⟩ : BufTy).Contents (Elt F) → (⟨S4096x4096, .f32⟩ : BufTy).Contents (Elt F)),
    binary main_v20 main_v23 main_v24 (addf : (⟨S4096x4096, .f32⟩ : BufTy).Contents (Elt F) → (⟨S4096x4096, .f32⟩ : BufTy).Contents (Elt F) → (⟨S4096x4096, .f32⟩ : BufTy).Contents (Elt F)),
    binary main_v21 main_v13 main_v25 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x3D954C98#32),
    unary main_cst_4 main_v26 (broadcastInDim S4096x4096 ![] bcast_S_S4096x4096 : (⟨S_, .f32⟩ : BufTy).Contents (Elt F) → (⟨S4096x4096, .f32⟩ : BufTy).Contents (Elt F)),
    binary main_v25 main_v26 main_v27 (mulf : (⟨S4096x4096, .f32⟩ : BufTy).Contents (Elt F) → (⟨S4096x4096, .f32⟩ : BufTy).Contents (Elt F) → (⟨S4096x4096, .f32⟩ : BufTy).Contents (Elt F)),
    binary main_v24 main_v27 main_v28 (addf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0xFF800000#32),
    binary main_v16 main_cst_5 main_v29 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_6 (constant S_ .f32 0xFF800000#32),
    unary main_cst_6 main_v30 (broadcastInDim S4096 ![] bcast_S_S4096 : (⟨S_, .f32⟩ : BufTy).Contents (Elt F) → (⟨S4096, .f32⟩ : BufTy).Contents (Elt F)),
    binary main_v30 main_v29 main_v31 (maximumf : (⟨S4096, .f32⟩ : BufTy).Contents (Elt F) → (⟨S4096, .f32⟩ : BufTy).Contents (Elt F) → (⟨S4096, .f32⟩ : BufTy).Contents (Elt F)),
    unary main_v31 main_v32 (broadcastInDim S4096x1 ![0] bcast_S4096_S4096x1_0 : (⟨S4096, .f32⟩ : BufTy).Contents (Elt F) → (⟨S4096x1, .f32⟩ : BufTy).Contents (Elt F)),
    unary main_v32 main_v33 (broadcastInDim S4096x4096 ![0, 1] bcast_S4096x1_S4096x4096_0_1 : (⟨S4096x1, .f32⟩ : BufTy).Contents (Elt F) → (⟨S4096x4096, .f32⟩ : BufTy).Contents (Elt F)),
    binary main_v16 main_v33 main_v34 (subf : (⟨S4096x4096, .f32⟩ : BufTy).Contents (Elt F) → (⟨S4096x4096, .f32⟩ : BufTy).Contents (Elt F) → (⟨S4096x4096, .f32⟩ : BufTy).Contents (Elt F)),
    unary main_v34 main_v35 (Host.exp : (⟨S4096x4096, .f32⟩ : BufTy).Contents (Elt F) → (⟨S4096x4096, .f32⟩ : BufTy).Contents (Elt F)),
    nullary main_cst_7 (constant S_ .f32 0x00000000#32),
    binary main_v35 main_cst_7 main_v36 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v36 main_v37 (broadcastInDim S4096x1 ![0] bcast_S4096_S4096x1_0 : (⟨S4096, .f32⟩ : BufTy).Contents (Elt F) → (⟨S4096x1, .f32⟩ : BufTy).Contents (Elt F)),
    unary main_v37 main_v38 (broadcastInDim S4096x4096 ![0, 1] bcast_S4096x1_S4096x4096_0_1 : (⟨S4096x1, .f32⟩ : BufTy).Contents (Elt F) → (⟨S4096x4096, .f32⟩ : BufTy).Contents (Elt F)),
    binary main_v35 main_v38 main_v39 (Host.divf : (⟨S4096x4096, .f32⟩ : BufTy).Contents (Elt F) → (⟨S4096x4096, .f32⟩ : BufTy).Contents (Elt F) → (⟨S4096x4096, .f32⟩ : BufTy).Contents (Elt F)),
    binary main_v39 main_v0 main_v40 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    nullary main_call2_cst (constant S_ .f32 0x00000000#32),
    unary main_call2_cst main_call2_v0 (broadcastInDim S4096x256 ![] bcast_S_S4096x256 : (⟨S_, .f32⟩ : BufTy).Contents (Elt F) → (⟨S4096x256, .f32⟩ : BufTy).Contents (Elt F)),
    binary main_v40 main_call2_v0 main_call2_v1 (cmpf .ogt : (⟨S4096x256, .f32⟩ : BufTy).Contents (Elt F) → (⟨S4096x256, .f32⟩ : BufTy).Contents (Elt F) → (⟨S4096x256, .i1⟩ : BufTy).Contents (Elt F)),
    nullary main_call2_cst_0 (constant S_ .f32 0x00000000#32),
    unary main_call2_cst_0 main_call2_v2 (broadcastInDim S4096x256 ![] bcast_S_S4096x256 : (⟨S_, .f32⟩ : BufTy).Contents (Elt F) → (⟨S4096x256, .f32⟩ : BufTy).Contents (Elt F)),
    binary main_v40 main_call2_v2 main_call2_v3 (cmpf .ogt : (⟨S4096x256, .f32⟩ : BufTy).Contents (Elt F) → (⟨S4096x256, .f32⟩ : BufTy).Contents (Elt F) → (⟨S4096x256, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S4096x256 ![] bcast_S_S4096x256 : (⟨S_, .f32⟩ : BufTy).Contents (Elt F) → (⟨S4096x256, .f32⟩ : BufTy).Contents (Elt F)),
    ternary main_call2_v3 main_call2_call0_v1 main_v40 main_call2_v4 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)),
    unary main_call2_v4 main_call2_v5 (Host.expm1 : (⟨S4096x256, .f32⟩ : BufTy).Contents (Elt F) → (⟨S4096x256, .f32⟩ : BufTy).Contents (Elt F)),
    nullary main_call2_cst_2 (constant S_ .f32 0x3F800000#32),
    unary main_call2_cst_2 main_call2_v6 (broadcastInDim S4096x256 ![] bcast_S_S4096x256 : (⟨S_, .f32⟩ : BufTy).Contents (Elt F) → (⟨S4096x256, .f32⟩ : BufTy).Contents (Elt F)),
    binary main_call2_v6 main_call2_v5 main_call2_v7 (mulf : (⟨S4096x256, .f32⟩ : BufTy).Contents (Elt F) → (⟨S4096x256, .f32⟩ : BufTy).Contents (Elt F) → (⟨S4096x256, .f32⟩ : BufTy).Contents (Elt F)),
    ternary main_call2_v1 main_v40 main_call2_v7 main_v41 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)) ]

-- 67 binds re-associated: the rewrite under the chain recurses once per statement
set_option maxRecDepth 4096 in
/-- @main is that straight line: the functions' definitions unfolded at their calls, both sides are one chain of steps
    once sequencing is reassociated. -/
theorem main_eq (c : Dev nD) : main (F := F) c = seq ops := by
  simp only [main, fn_where.body, fn_where_0.body, fn_where_1.body, fn_where_2.body, fn_elu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., ternary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.ReferenceIdeal.RefRun

end
-- ==== Proof.RefRun.lean ====
/-
  The reference program's run read back: every weakly fair execution of @main terminates with the result buffer at the
  composed value of the arguments' launch contents, the arguments unchanged.
-/
import proofs.«413735_j62706522522384_4_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1600000 in
/-- After the operations, from any contents, the result buffer holds the composed value of the four arguments' contents. -/
theorem out_eq (V : Valuation τ sig (Elt F)) :
    after ops V (main_v41 : DevRef τ sig)
      = refTerm (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt F)) :
    after ops V (main_arg0 : DevRef τ sig) = V (main_arg0 : DevRef τ sig) := by
  after_results_simp
set_option maxRecDepth 8192 in
theorem arg1_eq (V : Valuation τ sig (Elt F)) :
    after ops V (main_arg1 : DevRef τ sig) = V (main_arg1 : DevRef τ sig) := by
  after_results_simp
set_option maxRecDepth 8192 in
theorem arg2_eq (V : Valuation τ sig (Elt F)) :
    after ops V (main_arg2 : DevRef τ sig) = V (main_arg2 : DevRef τ sig) := by
  after_results_simp
set_option maxRecDepth 8192 in
theorem arg3_eq (V : Valuation τ sig (Elt F)) :
    after ops V (main_arg3 : DevRef τ sig) = V (main_arg3 : DevRef τ sig) := by
  after_results_simp

/-- On every device, for any float values, from any memory with zero counters: every weakly fair execution of @main
    terminates with the result at the composed value of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v41)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v41).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's composed value read at an index: each stage of the value, at coordinates, is the corresponding piece
  of the mathematical function (the products as sums over the contracted coordinate, the row maximum as a supremum, the
  row sum as a sum, broadcasts, the transpose and the slices at their source coordinates), so the result array is the
  function's array.
-/
import proofs.«413735_j62706522522384_4_alg».proof.Proof.RefOps
import proofs.«413735_j62706522522384_4_alg».proof.Proof.Spec
import Idealize.ShloMosaic.Lib.Pipeline.Value
import Idealize.ShloMosaic.Lib.StackMember
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx
  Idealize.ShloMosaic.StackMember

/-! ## Words and scalars -/

/-- A select on a boolean's bit is the `if` on the boolean. -/
theorem select_ofBool {α : Type} (b : Bool) (x y : α) : Scalar.select (BitVec.ofBool b) x y = if b then x else y := by
  cases b <;> rfl

/-- A select on "greater than" is the `if` on the order. -/
theorem select_ogt {α : Type} (u v : EReal) (x y : α) :
    Scalar.select (Ideal.cmp .ogt u v) x y = if v < u then x else y := by
  unfold Ideal.cmp
  rw [select_ofBool]
  by_cases h : v < u <;> simp [h]

/-- The pattern of minus infinity. -/
theorem ofBits_negInf : Ideal.ofBits .f32 0xFF800000#32 = (⊥ : EReal) := by
  simp [Ideal.ofBits, Ideal.ieee]

/-- The pattern of one. -/
theorem ofBits_one : Ideal.ofBits .f32 0x3F800000#32 = (1 : EReal) := IdealRules.sign_bit.ideal_onePat .f32

/-- A scalar broadcast reads the scalar everywhere. -/
theorem bcast_scalar {t : Shape} {α : Type} (dims : Fin S_.rank → Fin t.rank) (h : S_.BroadcastsInDim t dims)
    (x : S_.Idx → α) (j : t.Idx) : broadcastInDim t dims h x j = x ix0 :=
  broadcastInDim_apply dims h x j ix0 (fun a => a.elim0)

/-- An integer comparison at an index compares the elements. -/
theorem cmpi_apply {s : Shape} {w : Nat} (p : CmpIPredicate) (a b : IVec s w) (i : s.Idx) :
    cmpi p a b i = IntOp.cmpi p (a i) (b i) := rfl

/-- A row's reduced index with column `k` put back is (r, k). -/
theorem lift_row (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

theorem reduces_row : S4096x4096.Reduces [1] S4096 := by decide

/-! ## The arguments by coordinates -/

variable (x0 : (⟨2, ![4096, 512]⟩ : Shape).Idx → EReal) (x1 : (⟨2, ![4096, 4096]⟩ : Shape).Idx → BitVec 32)
  (x2 : (⟨2, ![512, 256]⟩ : Shape).Idx → EReal) (x3 : (⟨2, ![512, 1]⟩ : Shape).Idx → EReal)

abbrev inp : Fin 4096 → Fin 512 → EReal := fun r k => x0 (ix2 r k)
abbrev adj : Fin 4096 → Fin 4096 → BitVec 32 := fun r j => x1 (ix2 r j)
abbrev wt : Fin 512 → Fin 256 → EReal := fun k d => x2 (ix2 k d)
abbrev av : Fin 512 → EReal := fun k => x3 (ix2 k (0 : Fin 1))
/-- `h = inp · w` by coordinates. -/
abbrev hh : Fin 4096 → Fin 256 → EReal := Cert.Spec.H (inp x0) (wt x2)
/-- Row `r` of the masked logits. -/
abbrev lg (r : Fin 4096) : Fin 4096 → EReal := Cert.Spec.logit (adj x1) (hh x0 x2) (av x3) r

/-! ## Each stage read at an index -/

theorem v0_apply (r : Fin 4096) (d : Fin 256) : val_v0 (F := Ideal) x0 x2 (ix2 r d) = hh x0 x2 r d := by
  unfold val_v0
  show _ = ∑ k : Fin 512, x0 (ix2 r k) * x2 (ix2 k d)
  exact dotGeneral_plain_apply (φ₁ := .f32) (φ₂ := .f32) none x0 x2 r d

theorem v1_apply (d : Fin 256) :
    val_v1 (F := Ideal) x3 (ix2 d (0 : Fin 1)) = av x3 (⟨d.val, by omega⟩ : Fin 512) := by
  unfold val_v1
  exact extractStridedSlice_apply _ x3 _ (ix2 d (0 : Fin 1)) (ix2 (⟨d.val, by omega⟩ : Fin 512) (0 : Fin 1))
    (fun a => match a with
      | ⟨0, _⟩ => by show d.val = 0 + d.val; omega
      | ⟨1, _⟩ => rfl)

theorem v2_apply (d : Fin 256) :
    val_v2 (F := Ideal) x3 (ix2 d (0 : Fin 1)) = av x3 (⟨256 + d.val, by omega⟩ : Fin 512) := by
  unfold val_v2
  exact extractStridedSlice_apply _ x3 _ (ix2 d (0 : Fin 1)) (ix2 (⟨256 + d.val, by omega⟩ : Fin 512) (0 : Fin 1))
    (fun a => match a with
      | ⟨0, _⟩ => rfl
      | ⟨1, _⟩ => rfl)

theorem v3_apply (r : Fin 4096) :
    val_v3 (F := Ideal) x0 x2 x3 (ix2 r (0 : Fin 1)) = Cert.Spec.s1 (hh x0 x2) (av x3) r := by
  unfold val_v3 Cert.Spec.s1
  refine (dotGeneral_plain_apply (φ₁ := .f32) (φ₂ := .f32) none (val_v0 (F := Ideal) x0 x2) (val_v1 (F := Ideal) x3) r (0 : Fin 1)).trans ?_
  exact Finset.sum_congr rfl fun d _ => by rw [v0_apply, v1_apply]

theorem v4_apply (j : Fin 4096) :
    val_v4 (F := Ideal) x0 x2 x3 (ix2 j (0 : Fin 1)) = Cert.Spec.s2 (hh x0 x2) (av x3) j := by
  unfold val_v4 Cert.Spec.s2
  refine (dotGeneral_plain_apply (φ₁ := .f32) (φ₂ := .f32) none (val_v0 (F := Ideal) x0 x2) (val_v2 (F := Ideal) x3) j (0 : Fin 1)).trans ?_
  exact Finset.sum_congr rfl fun d _ => by rw [v0_apply, v2_apply]

theorem v5_apply (j : Fin 4096) :
    val_v5 (F := Ideal) x0 x2 x3 (ix2 (0 : Fin 1) j) = Cert.Spec.s2 (hh x0 x2) (av x3) j := by
  unfold val_v5
  refine (transpose_apply ([1, 0] : List (Fin S4096x1.rank)) (val_v4 (F := Ideal) x0 x2 x3) transposes_S4096x1_S1x4096_1_0 (ix2 (0 : Fin 1) j) (ix2 j (0 : Fin 1))
    (fun b => match b with
      | ⟨0, _⟩ => rfl
      | ⟨1, _⟩ => rfl)).trans ?_
  exact v4_apply x0 x2 x3 j

theorem v8_apply (r j : Fin 4096) :
    val_v8 (F := Ideal) x0 x2 x3 (ix2 r j) = Cert.Spec.s1 (hh x0 x2) (av x3) r + Cert.Spec.s2 (hh x0 x2) (av x3) j := by
  unfold val_v8
  rw [addf_apply,
    broadcastInDim_apply _ bcast_S4096x1_S4096x4096_0_1 (val_v3 (F := Ideal) x0 x2 x3) (ix2 r j) (ix2 r (0 : Fin 1))
      (fun a => match a with
        | ⟨0, _⟩ => rfl
        | ⟨1, _⟩ => rfl),
    broadcastInDim_apply _ bcast_S1x4096_S4096x4096_0_1 (val_v5 (F := Ideal) x0 x2 x3) (ix2 r j) (ix2 (0 : Fin 1) j)
      (fun a => match a with
        | ⟨0, _⟩ => rfl
        | ⟨1, _⟩ => rfl),
    v3_apply, v5_apply]

theorem v13_apply (r j : Fin 4096) :
    val_v13 (F := Ideal) x0 x2 x3 (ix2 r j)
      = Cert.Spec.leaky (Cert.Spec.s1 (hh x0 x2) (av x3) r + Cert.Spec.s2 (hh x0 x2) (av x3) j) := by
  unfold val_v13 Cert.Spec.leaky
  rw [select_apply, cmpf_apply, mulf_apply, bcast_scalar, bcast_scalar, constant_apply, constant_apply, v8_apply,
    Ideal.cmpf_def, Ideal.ofBits_zero_f32, select_ogt]

theorem v16_apply (r j : Fin 4096) : val_v16 (F := Ideal) x0 x1 x2 x3 (ix2 r j) = lg x0 x1 x2 x3 r j := by
  unfold val_v16
  rw [select_apply, cmpi_apply, bcast_scalar, bcast_scalar, constant_apply, v13_apply]
  show Scalar.select (BitVec.ofBool ((0#32).slt (x1 (ix2 r j)))) _ _ = _
  rw [select_ofBool]
  rfl

/-- The fold of the maximum from the bottom is the supremum. -/
theorem fold_max_eq_sup {n : Nat} (f : Fin n → EReal) :
    Finset.fold (FloatOps.maximumf (F := Ideal) (φ := .f32)) (⊥ : EReal) f Finset.univ = Finset.univ.sup f := rfl

theorem hostExp_apply {s : Shape} (x : FVec Ideal s .f32) (i : s.Idx) : Host.exp x i = Ideal.exp (x i) := rfl
theorem hostExpm1_apply {s : Shape} (x : FVec Ideal s .f32) (i : s.Idx) : Host.expm1 x i = Ideal.exp (x i) - 1 := rfl
theorem hostDivf_apply {s : Shape} (x y : FVec Ideal s .f32) (i : s.Idx) : Host.divf x y i = Ideal.div (x i) (y i) := rfl

/-- A vector broadcast to a column and then along the rows reads its row's entry. -/
theorem bcast_col {α : Type} (v : S4096.Idx → α) (r j : Fin 4096) :
    broadcastInDim S4096x4096 ![0, 1] bcast_S4096x1_S4096x4096_0_1
        (broadcastInDim S4096x1 ![0] bcast_S4096_S4096x1_0 v) (ix2 r j) = v (ix1 r) := by
  rw [broadcastInDim_apply _ bcast_S4096x1_S4096x4096_0_1 _ (ix2 r j) (ix2 r (0 : Fin 1))
      (fun a => match a with
        | ⟨0, _⟩ => rfl
        | ⟨1, _⟩ => rfl),
    broadcastInDim_apply _ bcast_S4096_S4096x1_0 v (ix2 r (0 : Fin 1)) (ix1 r)
      (fun a => match a with
        | ⟨0, _⟩ => rfl)]

theorem v31_apply (r : Fin 4096) :
    val_v31 (F := Ideal) x0 x1 x2 x3 (ix1 r) = Cert.Spec.rowMax (lg x0 x1 x2 x3 r) := by
  unfold val_v31 Cert.Spec.rowMax
  rw [maximumf_apply, bcast_scalar, constant_apply, ofBits_negInf, max_bot_left,
    Host.reduce_eq_fold_single (FloatOps.maximumf (F := Ideal) (φ := .f32)) (val_v16 (F := Ideal) x0 x1 x2 x3) _ reducesTo_S4096x4096_S4096_d1 reduces_row h_S_ (ix1 r),
    constant_apply, ofBits_negInf]
  have hf : (val_v16 (F := Ideal) x0 x1 x2 x3 ∘ reduces_row.lift (ix1 r)) = fun k : Fin 4096 => lg x0 x1 x2 x3 r k :=
    funext fun k => (congrArg (val_v16 (F := Ideal) x0 x1 x2 x3) (lift_row reduces_row r k)).trans (v16_apply x0 x1 x2 x3 r _)
  refine Eq.trans ?_ (fold_max_eq_sup (lg x0 x1 x2 x3 r))
  exact congrArg (fun f => Finset.fold (FloatOps.maximumf (F := Ideal) (φ := .f32)) (⊥ : EReal) f (Finset.univ : Finset (Fin 4096))) hf

theorem v35_apply (r j : Fin 4096) :
    val_v35 (F := Ideal) x0 x1 x2 x3 (ix2 r j) = Cert.Spec.ex (lg x0 x1 x2 x3 r) j := by
  unfold val_v35 Cert.Spec.ex
  rw [hostExp_apply, subf_apply, bcast_col, v16_apply, v31_apply]

theorem v36_apply (r : Fin 4096) :
    val_v36 (F := Ideal) x0 x1 x2 x3 (ix1 r) = ∑ j : Fin 4096, Cert.Spec.ex (lg x0 x1 x2 x3 r) j := by
  unfold val_v36
  show Ideal.hostReduceAdd reducesTo_S4096x4096_S4096_d1 (val_v35 (F := Ideal) x0 x1 x2 x3)
    (constant (F := Ideal) S_ .f32 0x00000000#32 (Shape.Idx.first h_S_)) (ix1 r) = _
  rw [Ideal.hostReduceAdd_single reducesTo_S4096x4096_S4096_d1 reduces_row, constant_apply, Ideal.ofBits_zero_f32, zero_add]
  exact Finset.sum_congr rfl fun k _ =>
    (congrArg (val_v35 (F := Ideal) x0 x1 x2 x3) (lift_row reduces_row r k)).trans (v35_apply x0 x1 x2 x3 r _)

theorem v39_apply (r j : Fin 4096) :
    val_v39 (F := Ideal) x0 x1 x2 x3 (ix2 r j) = Cert.Spec.att (lg x0 x1 x2 x3 r) j := by
  unfold val_v39 Cert.Spec.att
  rw [hostDivf_apply, bcast_col, v35_apply, v36_apply]

theorem v40_apply (r : Fin 4096) (d : Fin 256) :
    val_v40 (F := Ideal) x0 x1 x2 x3 (ix2 r d)
      = ∑ j : Fin 4096, Cert.Spec.att (lg x0 x1 x2 x3 r) j * hh x0 x2 j d := by
  unfold val_v40
  refine (dotGeneral_plain_apply (φ₁ := .f32) (φ₂ := .f32) none (val_v39 (F := Ideal) x0 x1 x2 x3) (val_v0 (F := Ideal) x0 x2) r d).trans ?_
  exact Finset.sum_congr rfl fun j _ => by rw [v39_apply, v0_apply]

/-- The program's exponential linear unit, at an index, is the mathematical one of the element. -/
theorem elu_apply (y : S4096x256.Idx → EReal) (i : S4096x256.Idx) :
    val_elu (F := Ideal) y i = Cert.Spec.elu (y i) := by
  unfold val_elu val_pos Cert.Spec.elu
  simp only [select_apply, cmpf_apply, mulf_apply, hostExpm1_apply, bcast_scalar, constant_apply, id_eq, Ideal.cmpf_def,
    Ideal.ofBits_zero_f32, ofBits_one, select_ogt, one_mul]
  by_cases h : 0 < y i <;> simp [h]

/-- The reference's result is the mathematical function of the four arguments, entry by entry. -/
theorem refTerm_eq : refTerm (F := Ideal) x0 x1 x2 x3 = Cert.Spec.GA x0 x1 x2 x3 := by
  funext i
  obtain ⟨r, d, rfl⟩ : ∃ (r : Fin 4096) (d : Fin 256), i = ix2 r d := ⟨i 0, i 1, eq_ix2 i⟩
  unfold refTerm
  rw [elu_apply, v40_apply]
  rfl

end Cert.ReferenceIdeal.RefValue

end
-- ==== Proof.RefSpec.lean ====
/-
  The reference's run with its result stated as the mathematical function of the four arguments.
-/
import proofs.«413735_j62706522522384_4_alg».proof.Proof.RefRun
import proofs.«413735_j62706522522384_4_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

/-- On every device, from any memory with zero counters: every weakly fair execution of @main terminates with the
    result buffer at the mathematical function's array of the four arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41)
        = Cert.Spec.GA (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (Cert.ReferenceIdeal.RefValue.refTerm_eq _ _ _ _), (h c).2⟩)
    (run (F := Ideal) m ρ)

end Cert.ReferenceIdeal.RefRun

end
-- ==== Proof.Finite.lean ====
/-
  The precondition read back: when the printed predicate "every float input is finite" is all ones, every entry of the
  three float arguments is a real number. An extended real whose absolute value is strictly below plus infinity is
  neither infinity.
-/
import proofs.«413735_j62706522522384_4_alg».proof.Pre_finite_inputs
import proofs.«413735_j62706522522384_4_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The word 0x7F800000 denotes plus infinity. -/
theorem ofBits_posInf : Ideal.ofBits .f32 0x7F800000#32 = (⊤ : EReal) := by
  simp [Ideal.ofBits, Ideal.ieee]

/-- An extended real whose absolute value compares below plus infinity is a real number. -/
theorem real_of_abs_lt (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  rw [Ideal.cmpf_def, Ideal.absf_def, Ideal.ofBits_def, ofBits_posInf] at h
  induction x using EReal.rec with
  | bot => simp [Ideal.cmp] at h
  | coe r => exact ⟨r, rfl⟩
  | top => simp [Ideal.cmp] at h

/-- Under the precondition every entry of the three float arguments is a real number. -/
theorem real_of_pre (x0 : FVec Ideal S4096x512 .f32) (x1 : IVec S4096x4096 32) (x2 : FVec Ideal S512x256 .f32) (x3 : FVec Ideal S512x1 .f32)
    (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have e := congrFun h ValueIdx.ix0
  dsimp only [fn, andi] at e
  obtain ⟨e01, e3⟩ := IntOp.andi_eq_one.1 e
  obtain ⟨e0, e2⟩ := IntOp.andi_eq_one.1 e01
  refine ⟨fun i => ?_, fun i => ?_, fun i => ?_⟩
  · exact real_of_abs_lt _ (Host.reduce_andi_all _ _ _ _ _ e0 i)
  · exact real_of_abs_lt _ (Host.reduce_andi_all _ _ _ _ _ e2 i)
  · exact real_of_abs_lt _ (Host.reduce_andi_all _ _ _ _ _ e3 i)

end Cert.Finite

end
-- ==== Proof.lean ====
/-
  The certificate: a graph-attention layer as two pipelined kernels — a linear kernel that forms h = inp · w together
  with the two halves of every attention logit, and an attention kernel that streams the 4096 × 4096 plane of masked
  logits tile by tile, keeping per row a running maximum, the sum of exponentials shifted by it and the weighted sum of
  the rows of h — against the plain formulation: masked logits, row softmax, product with h, ELU.

  Frames. Each kernel program runs through the pipeline library's launch of a program of several regions: the first
  region's body is one symbolic run; the second region's body is run once per case of its two conditions (first column
  tile, last column tile), and its region invariant carries the three scratch buffers' contents from grid point to grid
  point. The reference is a straight line of host operations.

  Values. At the ideal instance the first region leaves h, s1 and s2 as plain sums; the second region's scratch contents
  after each point are the tiled evaluation of the row's softmax-weighted sum, which after the eighth tile equals the
  plain one when the logits and h are real numbers — and they are, because the precondition makes every float input
  finite. The reference's result, read index by index, is the same function.
-/
import proofs.«413735_j62706522522384_4_alg».proof.Defs
import proofs.«413735_j62706522522384_4_alg».proof.Proof.Gen.Kernel
import proofs.«413735_j62706522522384_4_alg».proof.Proof.Gen.KernelIdeal
import proofs.«413735_j62706522522384_4_alg».proof.Proof.Gen.ReferenceIdeal
import proofs.«413735_j62706522522384_4_alg».proof.Proof.Gen.Pre_finite_inputs
import proofs.«413735_j62706522522384_4_alg».proof.Proof.K.Run
import proofs.«413735_j62706522522384_4_alg».proof.Proof.KI.Run
import proofs.«413735_j62706522522384_4_alg».proof.Proof.KValue
import proofs.«413735_j62706522522384_4_alg».proof.Proof.RefSpec
import proofs.«413735_j62706522522384_4_alg».proof.Proof.Finite

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run_spec m ρ)

/-- The ideal pass rewrote nothing. -/
theorem preserves : Cert.preserves_Kernel_KernelIdeal := trivial

/-- Both idealized programs end with the same array: the attention layer's result as one function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.GA (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Hand.run_result m ρ)
    obtain ⟨h0, h2, h3⟩ := Cert.Finite.real_of_pre _ _ _ _ (hpre c)
    exact Cert.KernelIdeal.Hand.kout_eq m c h0 h2 h3
  · refine (θ_run Cert.ReferenceIdeal.defs _ _).mono (fun r h c => ⟨(h c).1.trans ?_, (h c).2⟩) (Cert.ReferenceIdeal.RefRun.run_spec m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
